-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S800000 : Shape := ⟨1, ![800000]⟩
abbrev S64x128 : Shape := ⟨2, ![64, 128]⟩
abbrev S128 : Shape := ⟨1, ![128]⟩
abbrev S32x128 : Shape := ⟨2, ![32, 128]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part4 {F : FTy → Type} [FloatOps F] (main_arg3 : IVec S800000 32) (main_v66 : IVec S_ 1) (main_c_26 : IVec S_ 32) : IVec S_ 1 :=
  let main_v67 : IVec S800000 32 := broadcastInDim S800000 ![] bcast_S_S800000 main_c_26
  let main_v68 : IVec S800000 1 := cmpi .sge main_arg3 main_v67
  let main_c_27 : IVec S_ 1 := constantI S_ 1 1#1
  let main_v69 : IVec S_ 1 := (fun x v => Host.reduce IntOp.andi x v reducesTo_S800000_S_d0 h_S_) main_v68 main_c_27
  let main_v70 : IVec S_ 1 := andi main_v66 main_v69
  let main_c_28 : IVec S_ 32 := constantI S_ 32 50000#32
  let main_v71 : IVec S800000 32 := broadcastInDim S800000 ![] bcast_S_S800000 main_c_28
  let main_v72 : IVec S800000 1 := cmpi .slt main_arg3 main_v71
  let main_c_29 : IVec S_ 1 := constantI S_ 1 1#1
  let main_v73 : IVec S_ 1 := (fun x v => Host.reduce IntOp.andi x v reducesTo_S800000_S_d0 h_S_) main_v72 main_c_29
  let main_v74 : IVec S_ 1 := andi main_v70 main_v73
  main_v74

def fn_part3 {F : FTy → Type} [FloatOps F] (main_arg2 : IVec S800000 32) (main_arg3 : IVec S800000 32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S800000 32 := broadcastInDim S800000 ![] bcast_S_S800000 main_c_22
  let main_v60 : IVec S800000 1 := cmpi .sge main_arg2 main_v59
  let main_c_23 : IVec S_ 1 := constantI S_ 1 1#1
  let main_v61 : IVec S_ 1 := (fun x v => Host.reduce IntOp.andi x v reducesTo_S800000_S_d0 h_S_) main_v60 main_c_23
  let main_v62 : IVec S_ 1 := andi main_v58 main_v61
  let main_c_24 : IVec S_ 32 := constantI S_ 32 50000#32
  let main_v63 : IVec S800000 32 := broadcastInDim S800000 ![] bcast_S_S800000 main_c_24
  let main_v64 : IVec S800000 1 := cmpi .slt main_arg2 main_v63
  let main_c_25 : IVec S_ 1 := constantI S_ 1 1#1
  let main_v65 : IVec S_ 1 := (fun x v => Host.reduce IntOp.andi x v reducesTo_S800000_S_d0 h_S_) main_v64 main_c_25
  let main_v66 : IVec S_ 1 := andi main_v62 main_v65
  let main_c_26 : IVec S_ 32 := constantI S_ 32 0#32
  fn_part4 (F := F) main_arg3 main_v66 main_c_26

def fn_part2 {F : FTy → Type} [FloatOps F] (main_arg2 : IVec S800000 32) (main_arg3 : IVec S800000 32) (main_arg9 : FVec F S128 .f32) (main_arg10 : FVec F S128 .f32) (main_arg11 : FVec F S128 .f32) (main_arg12 : FVec F S64 .f32) (main_arg13 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg2 main_arg3 main_arg13 main_v48 main_v49 main_v50

def fn_part1 {F : FTy → Type} [FloatOps F] (main_arg2 : IVec S800000 32) (main_arg3 : IVec S800000 32) (main_arg6 : FVec F S64x128 .f32) (main_arg7 : FVec F S128 .f32) (main_arg8 : FVec F S32x128 .f32) (main_arg9 : FVec F S128 .f32) (main_arg10 : FVec F S128 .f32) (main_arg11 : FVec F S128 .f32) (main_arg12 : FVec F S64 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg8
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg2 main_arg3 main_arg9 main_arg10 main_arg11 main_arg12 main_arg13 main_v33

def fn {F : FTy → Type} [FloatOps F] (main_arg0 : FVec F S50000x64 .f32) (main_arg1 : FVec F S800000x32 .f32) (main_arg2 : IVec S800000 32) (main_arg3 : IVec S800000 32) (main_arg4 : FVec F S64x128 .f32) (main_arg5 : FVec F S128 .f32) (main_arg6 : FVec F S64x128 .f32) (main_arg7 : FVec F S128 .f32) (main_arg8 : FVec F S32x128 .f32) (main_arg9 : FVec F S128 .f32) (main_arg10 : FVec F S128 .f32) (main_arg11 : FVec F S128 .f32) (main_arg12 : FVec F S64 .f32) (main_arg13 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_v13 main_v16
-- ==== Kernel.lean ====
abbrev S50000x64 : Shape := ⟨2, ![50000, 64]⟩
abbrev S800000x32 : Shape := ⟨2, ![800000, 32]⟩
abbrev S800000 : Shape := ⟨1, ![800000]⟩
abbrev S64x128 : Shape := ⟨2, ![64, 128]⟩
abbrev S128 : Shape := ⟨1, ![128]⟩
abbrev S32x128 : Shape := ⟨2, ![32, 128]⟩
abbrev S64 : Shape := ⟨1, ![64]⟩
abbrev S64x256 : Shape := ⟨2, ![64, 256]⟩
abbrev S256 : Shape := ⟨1, ![256]⟩
abbrev S1x256 : Shape := ⟨2, ![1, 256]⟩
abbrev S50000x256 : Shape := ⟨2, ![50000, 256]⟩
abbrev S5000x64 : Shape := ⟨2, ![5000, 64]⟩
abbrev S5000x256 : Shape := ⟨2, ![5000, 256]⟩
abbrev S50000x128 : Shape := ⟨2, ![50000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S5000x128 : Shape := ⟨2, ![5000, 128]⟩
abbrev S5000x32 : Shape := ⟨2, ![5000, 32]⟩
abbrev S800000x64 : Shape := ⟨2, ![800000, 64]⟩
abbrev S1x64 : Shape := ⟨2, ![1, 64]⟩

abbrev nBuf : Space → Nat
  | .hbm => 122
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S800000, .i32⟩
  | .hbm, ⟨3, _⟩ => ⟨S800000, .i32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S32x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S64, .f32⟩
  | .hbm, ⟨13, _⟩ => ⟨S64, .f32⟩
  | .hbm, ⟨14, _⟩ => ⟨S64x256, .f32⟩
  | .hbm, ⟨15, _⟩ => ⟨S256, .f32⟩
  | .hbm, ⟨16, _⟩ => ⟨S1x256, .f32⟩
  | .hbm, ⟨17, _⟩ => ⟨S50000x256, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S1, .i32⟩
  | .hbm, ⟨29, _⟩ => ⟨S_, .i32⟩
  | .hbm, ⟨30, _⟩ => ⟨S800000x1, .i32⟩
  | .hbm, ⟨31, _⟩ => ⟨S800000x1, .i1⟩
  | .hbm, ⟨32, _⟩ => ⟨S1x1, .i32⟩
  | .hbm, ⟨33, _⟩ => ⟨S800000x1, .i32⟩
  | .hbm, ⟨34, _⟩ => ⟨S800000x1, .i1⟩
  | .hbm, ⟨35, _⟩ => ⟨S800000x1, .i1⟩
  | .hbm, ⟨36, _⟩ => ⟨S_, .i1⟩
  | .hbm, ⟨37, _⟩ => ⟨S800000, .i1⟩
  | .hbm, ⟨38, _⟩ => ⟨S800000x128, .f32⟩
  | .hbm, ⟨39, _⟩ => ⟨S800000x128, .i1⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S1, .i32⟩
  | .hbm, ⟨52, _⟩ => ⟨S_, .i32⟩
  | .hbm, ⟨53, _⟩ => ⟨S800000x1, .i32⟩
  | .hbm, ⟨54, _⟩ => ⟨S800000x1, .i1⟩
  | .hbm, ⟨55, _⟩ => ⟨S1x1, .i32⟩
  | .hbm, ⟨56, _⟩ => ⟨S800000x1, .i32⟩
  | .hbm, ⟨57, _⟩ => ⟨S800000x1, .i1⟩
  | .hbm, ⟨58, _⟩ => ⟨S800000x1, .i1⟩
  | .hbm, ⟨59, _⟩ => ⟨S_, .i1⟩
  | .hbm, ⟨60, _⟩ => ⟨S800000, .i1⟩
  | .hbm, ⟨61, _⟩ => ⟨S800000x128, .f32⟩
  | .hbm, ⟨62, _⟩ => ⟨S800000x128, .i1⟩
  | .hbm, ⟨63, _⟩ => ⟨S_, .f32⟩
  | .hbm, ⟨64, _⟩ => ⟨S800000x128, .f32⟩
  | .hbm, ⟨65, _⟩ => ⟨S800000x128, .f32⟩
  | .hbm, ⟨66, _⟩ => ⟨S1x128, .f32⟩
  | .hbm, ⟨67, _⟩ => ⟨S800000x128, .f32⟩
  | .hbm, ⟨68, _⟩ => ⟨S1x128, .f32⟩
  | .hbm, ⟨69, _⟩ => ⟨S1x128, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S800000x64, .f32⟩
  | .hbm, ⟨85, _⟩ => ⟨S_, .f32⟩
  | .hbm, ⟨86, _⟩ => ⟨S50000x64, .f32⟩
  | .hbm, ⟨87, _⟩ => ⟨S800000x1, .i32⟩
  | .hbm, ⟨88, _⟩ => ⟨S50000x64, .f32⟩
  | .hbm, ⟨89, _⟩ => ⟨S_, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S_, .i32⟩
  | .hbm, ⟨95, _⟩ => ⟨S_, .f32⟩
  | .hbm, ⟨96, _⟩ => ⟨S64, .f32⟩
  | .hbm, ⟨97, _⟩ => ⟨S1x64, .f32⟩
  | .hbm, ⟨98, _⟩ => ⟨S_, .f32⟩
  | .hbm, ⟨99, _⟩ => ⟨S1x64, .f32⟩
  | .hbm, ⟨100, _⟩ => ⟨S1x64, .f32⟩
  | .hbm, ⟨101, _⟩ => ⟨S50000x64, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S64, .f32⟩
  | .hbm, ⟨111, _⟩ => ⟨S_, .f32⟩
  | .hbm, ⟨112, _⟩ => ⟨S_, .i1⟩
  | .hbm, ⟨113, _⟩ => ⟨S_, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S1x64, .f32⟩
  | .hbm, ⟨118, _⟩ => ⟨S1x64, .f32⟩
  | .hbm, ⟨119, _⟩ => ⟨S1x64, .f32⟩
  | .hbm, ⟨120, _⟩ => ⟨S1x64, .f32⟩
  | .hbm, ⟨121, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x32, .f32⟩
  | .local _ .vmem, ⟨11, _⟩ => ⟨S5000x32, .f32⟩
  | .local _ .vmem, ⟨12, _⟩ => ⟨S32x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v6 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v7 : Ref sig .tc := ⟨.hbm, 65, rfl⟩
abbrev main_v8 : Ref sig .tc := ⟨.hbm, 66, rfl⟩
abbrev main_v9_0 : Ref sig .tc := ⟨.hbm, 67, rfl⟩
abbrev main_v9_1 : Ref sig .tc := ⟨.hbm, 68, rfl⟩
abbrev main_v9_2 : Ref sig .tc := ⟨.hbm, 69, rfl⟩
abbrev main_v10 : Ref sig .tc := ⟨.hbm, 70, rfl⟩
abbrev main_cst : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_cst_0 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst_1 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_2 : Ref sig .tc := ⟨.hbm, 89, rfl⟩
abbrev main_v26 : Ref sig .tc := ⟨.hbm, 90, rfl⟩
abbrev main_cst_3 : Ref sig .tc := ⟨.hbm, 91, rfl⟩
abbrev main_v27 : Ref sig .tc := ⟨.hbm, 92, rfl⟩
abbrev main_v28 : Ref sig .tc := ⟨.hbm, 93, rfl⟩
abbrev main_c : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_cst_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_cst_1 : Ref sig .tc := ⟨.hbm, 105, rfl⟩
abbrev main_call2_v8 : Ref sig .tc := ⟨.hbm, 106, rfl⟩
abbrev main_call2_cst_2 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_cst_3 : Ref sig .tc := ⟨.hbm, 111, rfl⟩
abbrev main_call2_v12 : Ref sig .tc := ⟨.hbm, 112, rfl⟩
abbrev main_call2_cst_4 : Ref sig .tc := ⟨.hbm, 113, rfl⟩
abbrev main_call2_call0_v0 : Ref sig .tc := ⟨.hbm, 114, rfl⟩
abbrev main_call2_call0_v1 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  concatenates_S64x128_S64x128_S64x256_d1 : Shape.Concatenates [S64x128, S64x128] S64x256 1
  concatenates_S128_S128_S256_d0 : Shape.Concatenates [S128, S128] S256 0
  shapeCasts_S256_S1x256 : S256.ShapeCasts S1x256
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x32_S5000x32_0_0 : ∀ a, (![0, 0] : Fin 2 → Nat) a + S5000x32.size a ≤ S5000x32.size a
  h_S5000x32 : 0 < S5000x32.numel
  inb_S32x128_S32x128_0_0 : ∀ a, (![0, 0] : Fin 2 → Nat) a + S32x128.size a ≤ S32x128.size a
  h_S32x128 : 0 < S32x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S128 : S5000x128.Reduces [0] S128
  shapeCasts_S1x128_S128 : S1x128.ShapeCasts S128
  bcast_S_S128 : S_.BroadcastsInDim S128 (![] : Fin 0 → Fin S128.rank)
  slices_S5000x128_o0_0_S5000x64 : S5000x128.Slices ![0, 0] S5000x64
  slices_S5000x128_o0_64_S5000x64 : S5000x128.Slices ![0, 64] S5000x64
  bcast_S_S50000x64 : S_.BroadcastsInDim S50000x64 (![] : Fin 0 → Fin S50000x64.rank)
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x256_S5000x256_1_0_0_1_n_n_wf : DotDims.WF S5000x64 S64x256 S5000x256 [1] [0] [0] [1] [] []
  gather_S50000x128_S800000x1_S800000x128_1_0_n_n_0_1_1128_wf : GatherDims.WF S50000x128 S800000x1 S800000x128 [1] [0] [] [0] [] 1 ![1, 128]
  dot_S5000x32_S32x128_S5000x128_1_0_0_1_n_n_wf : DotDims.WF S5000x32 S32x128 S5000x128 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S800000x128.size a
  hwx1_0 : ∀ i : grid1.Coords, EltTy.bits .f32 = 32 ∨ (Rect.block (s := S800000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S800000x128.size a
  hwx1_1 : ∀ i : grid1.Coords, EltTy.bits .f32 = 32 ∨ (Rect.block (s := S800000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S800000x32.size a
  hwx1_2 : ∀ i : grid1.Coords, EltTy.bits .f32 = 32 ∨ (Rect.block (s := S800000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S800000x128.size a
  hwx1_5 : ∀ i : grid1.Coords, EltTy.bits .f32 = 32 ∨ (Rect.block (s := S800000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S800000x128.size a
  hwx2_0 : ∀ i : grid2.Coords, EltTy.bits .f32 = 32 ∨ (Rect.block (s := S800000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S800000x64.size a
  hwx2_5 : ∀ i : grid2.Coords, EltTy.bits .f32 = 32 ∨ (Rect.block (s := S800000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v9_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v32) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v33) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v34) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S800000 : Shape := ⟨1, ![800000]⟩
abbrev S64x128 : Shape := ⟨2, ![64, 128]⟩
abbrev S128 : Shape := ⟨1, ![128]⟩
abbrev S32x128 : Shape := ⟨2, ![32, 128]⟩
abbrev S64 : Shape := ⟨1, ![64]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S800000x64 : Shape := ⟨2, ![800000, 64]⟩
abbrev S1x64 : Shape := ⟨2, ![1, 64]⟩

abbrev nBuf : Space → Nat
  | .hbm => 178
  | .vmem => 0
  | .smem => 0
  | _ => 0

abbrev hbmTy0_0 (i : Nat) : BufTy := match i % 128 with
  | 0 => ⟨S50000x64, .f32⟩
  | 1 => ⟨S800000x32, .f32⟩
  | 2 => ⟨S800000, .i32⟩
  | 3 => ⟨S800000, .i32⟩
  | 4 => ⟨S64x128, .f32⟩
  | 5 => ⟨S128, .f32⟩
  | 6 => ⟨S64x128, .f32⟩
  | 7 => ⟨S128, .f32⟩
  | 8 => ⟨S32x128, .f32⟩
  | 9 => ⟨S128, .f32⟩
  | 10 => ⟨S128, .f32⟩
  | 11 => ⟨S128, .f32⟩
  | 12 => ⟨S64, .f32⟩
  | 13 => ⟨S64, .f32⟩
  | 14 => ⟨S50000x128, .f32⟩
  | 15 => ⟨S1x128, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x128, .f32⟩
  | 41 => ⟨S800000x128, .f32⟩
  | 42 => ⟨S1x128, .f32⟩
  | 43 => ⟨S800000x128, .f32⟩
  | 44 => ⟨S800000x128, .f32⟩
  | 45 => ⟨S800000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S800000x128, .f32⟩
  | 59 => ⟨S800000x128, .f32⟩
  | 60 => ⟨S800000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S800000x128, .f32⟩
  | 76 => ⟨S800000x128, .f32⟩
  | 77 => ⟨S_, .f32⟩
  | 78 => ⟨S128, .f32⟩
  | 79 => ⟨S128, .f32⟩
  | 80 => ⟨S128, .f32⟩
  | 81 => ⟨S1x128, .f32⟩
  | 82 => ⟨S800000x128, .f32⟩
  | 83 => ⟨S800000x128, .f32⟩
  | 84 => ⟨S1x128, .f32⟩
  | 85 => ⟨S800000x128, .f32⟩
  | 86 => ⟨S800000x128, .f32⟩
  | 87 => ⟨S1x128, .f32⟩
  | 88 => ⟨S800000x128, .f32⟩
  | 89 => ⟨S800000x128, .f32⟩
  | 90 => ⟨S800000x64, .f32⟩
  | 91 => ⟨S800000x64, .f32⟩
  | 92 => ⟨S800000x64, .f32⟩
  | 93 => ⟨S800000x64, .f32⟩
  | 94 => ⟨S_, .f32⟩
  | 95 => ⟨S800000x64, .f32⟩
  | 96 => ⟨S800000x64, .f32⟩
  | 97 => ⟨S_, .f32⟩
  | 98 => ⟨S800000x64, .f32⟩
  | 99 => ⟨S800000x64, .f32⟩
  | 100 => ⟨S_, .f32⟩
  | 101 => ⟨S800000x64, .f32⟩
  | 102 => ⟨S800000x64, .f32⟩
  | 103 => ⟨S800000x64, .f32⟩
  | 104 => ⟨S800000x64, .f32⟩
  | 105 => ⟨S800000x64, .i1⟩
  | 106 => ⟨S800000x64, .f32⟩
  | 107 => ⟨S800000x64, .f32⟩
  | 108 => ⟨S800000x64, .f32⟩
  | 109 => ⟨S800000x64, .f32⟩
  | 110 => ⟨S800000x64, .f32⟩
  | 111 => ⟨S800000x64, .f32⟩
  | 112 => ⟨S800000x64, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S_, .f32⟩
  | 120 => ⟨S64, .f32⟩
  | 121 => ⟨S_, .f32⟩
  | 122 => ⟨S64, .f32⟩
  | 123 => ⟨S64, .f32⟩
  | 124 => ⟨S_, .i32⟩
  | 125 => ⟨S_, .f32⟩
  | 126 => ⟨S64, .f32⟩
  | 127 => ⟨S1x64, .f32⟩
  | _ => ⟨S50000x64, .f32⟩

abbrev hbmTy0_1 (i : Nat) : BufTy := match i % 128 with
  | 0 => ⟨S_, .f32⟩
  | 1 => ⟨S1x64, .f32⟩
  | 2 => ⟨S1x64, .f32⟩
  | 3 => ⟨S50000x64, .f32⟩
  | 4 => ⟨S50000x64, .f32⟩
  | 5 => ⟨S50000x64, .f32⟩
  | 6 => ⟨S_, .f32⟩
  | 7 => ⟨S_, .f32⟩
  | 8 => ⟨S_, .f32⟩
  | 9 => ⟨S_, .f32⟩
  | 10 => ⟨S64, .f32⟩
  | 11 => ⟨S64, .f32⟩
  | 12 => ⟨S64, .f32⟩
  | 13 => ⟨S_, .f32⟩
  | 14 => ⟨S_, .i1⟩
  | 15 => ⟨S_, .f32⟩
  | 16 => ⟨S_, .f32⟩
  | 17 => ⟨S64, .f32⟩
  | 18 => ⟨S64, .f32⟩
  | 19 => ⟨S1x64, .f32⟩
  | 20 => ⟨S50000x64, .f32⟩
  | 21 => ⟨S50000x64, .f32⟩
  | 22 => ⟨S_, .f32⟩
  | 23 => ⟨S64, .f32⟩
  | 24 => ⟨S64, .f32⟩
  | 25 => ⟨S64, .f32⟩
  | 26 => ⟨S1x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S50000x64, .f32⟩
  | 40 => ⟨S50000x64, .f32⟩
  | 41 => ⟨S50000x64, .i1⟩
  | 42 => ⟨S50000x64, .f32⟩
  | 43 => ⟨S50000x64, .f32⟩
  | 44 => ⟨S50000x64, .f32⟩
  | 45 => ⟨S50000x64, .f32⟩
  | 46 => ⟨S50000x64, .f32⟩
  | 47 => ⟨S50000x64, .f32⟩
  | 48 => ⟨S50000x64, .f32⟩
  | 49 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_5 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_6 : Ref sig .tc := ⟨.hbm, 94, rfl⟩
abbrev main_v51 : Ref sig .tc := ⟨.hbm, 95, rfl⟩
abbrev main_v52 : Ref sig .tc := ⟨.hbm, 96, rfl⟩
abbrev main_cst_7 : Ref sig .tc := ⟨.hbm, 97, rfl⟩
abbrev main_v53 : Ref sig .tc := ⟨.hbm, 98, rfl⟩
abbrev main_v54 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_v55 : Ref sig .tc := ⟨.hbm, 113, rfl⟩
abbrev main_v56 : Ref sig .tc := ⟨.hbm, 114, rfl⟩
abbrev main_cst_8 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_cst_9 : Ref sig .tc := ⟨.hbm, 119, rfl⟩
abbrev main_v60 : Ref sig .tc := ⟨.hbm, 120, rfl⟩
abbrev main_cst_10 : Ref sig .tc := ⟨.hbm, 121, rfl⟩
abbrev main_v61 : Ref sig .tc := ⟨.hbm, 122, rfl⟩
abbrev main_v62 : Ref sig .tc := ⟨.hbm, 123, rfl⟩
abbrev main_c_11 : Ref sig .tc := ⟨.hbm, 124, rfl⟩
abbrev main_call2_cst : Ref sig .tc := ⟨.hbm, 125, rfl⟩
abbrev main_call2_v0 : Ref sig .tc := ⟨.hbm, 126, rfl⟩
abbrev main_call2_v1 : Ref sig .tc := ⟨.hbm, 127, rfl⟩
abbrev main_call2_cst_0 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_v6 : Ref sig .tc := ⟨.hbm, 133, rfl⟩
abbrev main_call2_v7 : Ref sig .tc := ⟨.hbm, 134, rfl⟩
abbrev main_call2_cst_1 : Ref sig .tc := ⟨.hbm, 135, rfl⟩
abbrev main_call2_v8 : Ref sig .tc := ⟨.hbm, 136, rfl⟩
abbrev main_call2_cst_2 : Ref sig .tc := ⟨.hbm, 137, rfl⟩
abbrev main_call2_v9 : Ref sig .tc := ⟨.hbm, 138, rfl⟩
abbrev main_call2_v10 : Ref sig .tc := ⟨.hbm, 139, rfl⟩
abbrev main_call2_v11 : Ref sig .tc := ⟨.hbm, 140, rfl⟩
abbrev main_call2_cst_3 : Ref sig .tc := ⟨.hbm, 141, rfl⟩
abbrev main_call2_v12 : Ref sig .tc := ⟨.hbm, 142, rfl⟩
abbrev main_call2_cst_4 : Ref sig .tc := ⟨.hbm, 143, rfl⟩
abbrev main_call2_call0_v0 : Ref sig .tc := ⟨.hbm, 144, rfl⟩
abbrev main_call2_call0_v1 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_cst_12 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_call3_cst : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_call3_v5 : Ref sig .tc := ⟨.hbm, 170, rfl⟩
abbrev main_call3_v6 : Ref sig .tc := ⟨.hbm, 171, rfl⟩
abbrev main_call3_v7 : Ref sig .tc := ⟨.hbm, 172, rfl⟩
abbrev main_call3_v8 : Ref sig .tc := ⟨.hbm, 173, rfl⟩
abbrev main_call3_v9 : Ref sig .tc := ⟨.hbm, 174, rfl⟩
abbrev main_call3_v10 : Ref sig .tc := ⟨.hbm, 175, rfl⟩
abbrev main_call3_v11 : Ref sig .tc := ⟨.hbm, 176, rfl⟩
abbrev main_v80 : Ref sig .tc := ⟨.hbm, 177, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S1x128_S800000x128_0_1 : S1x128.BroadcastsInDim S800000x128 (![0, 1] : Fin 2 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S800000x128_S800000x64_0_0 : S800000x128.Slices ![0, 0] S800000x64
  slices_S800000x128_S800000x64_0_64 : S800000x128.Slices ![0, 64] S800000x64
  bcast_S_S800000x64 : S_.BroadcastsInDim S800000x64 (![] : Fin 0 → Fin S800000x64.rank)
  bcast_S_S50000x64 : S_.BroadcastsInDim S50000x64 (![] : Fin 0 → Fin S50000x64.rank)
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  dot_S800000x32_S32x128_S800000x128_1_0_0_1_n_n_wf : DotDims.WF S800000x32 S32x128 S800000x128 [1] [0] [0] [1] [] []
  scatter_S50000x64_S800000x1_S800000x64_1_0_0_1_wf : ScatterDims.WF S50000x64 S800000x1 S800000x64 [1] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The computation both programs perform, written once as functions of the fourteen argument arrays, index by index
  over the extended reals. A node's two projections are rows of x·W + b; an edge's pre-activation is the sum of its
  source row, its destination row and its own linear term; the edge statistics are column means and variances over all
  edges; an edge's message is sigmoid(first half) · softplus(second half) of its normalised pre-activation; a node
  receives the sum of the messages of the edges that point at it; the node statistics are column means and variances
  over all nodes; the result is softplus(x + normalised received sum).
  The two programs differ in ONE place, the edge variance: the mean of squares minus the squared mean on one side
  (`varSq`), the mean of squared deviations on the other (`varDev`). Everything downstream is stated over a variance
  `v` given as a parameter, so that the two results are the same function applied to the two variances.
-/
import Idealize.ShloMosaic.PureOps.Ideal
import Idealize.ShloMosaic.PureOps.Contract
import Idealize.ShloMosaic.Lib.ValueIdx

noncomputable section

namespace Cert.Spec

open Idealize.ShloMosaic Idealize.ShloMosaic.ValueIdx

/-- The shapes, literal. -/
abbrev SN64 : Shape := ⟨2, ![50000, 64]⟩
abbrev SE32 : Shape := ⟨2, ![800000, 32]⟩
abbrev SE : Shape := ⟨1, ![800000]⟩
abbrev S64x128 : Shape := ⟨2, ![64, 128]⟩
abbrev S32x128 : Shape := ⟨2, ![32, 128]⟩
abbrev S128 : Shape := ⟨1, ![128]⟩
abbrev S64 : Shape := ⟨1, ![64]⟩

/-- The row an index word selects in a table of 50000 rows: the word read as a natural number, held inside the
    table. (On a word in range this is the word itself.) -/
def row (b : BitVec 32) : Fin 50000 := ⟨min b.toNat 49999, by omega⟩

/-- The batch-norm epsilon, the one word both programs carry. -/
def eps : EReal := Ideal.ofBits .f32 0x3727C5AC#32
/-- The number of edges and of nodes as the float words both programs divide by. -/
def nEdges : EReal := Ideal.ofBits .f32 0x49435000#32
def nNodes : EReal := Ideal.ofBits .f32 0x47435000#32

/-- softplus as both programs compute it on an extended real: max(x, 0) + log(1 + e^(−|x|)). -/
def softplus (x : EReal) : EReal :=
  max x 0 + Ideal.log1p (Ideal.exp (-(FloatOps.absf (F := Ideal) (φ := .f32) x)))

/-- What the precondition says of the fourteen argument arrays: every float entry is a real number, and every source
    and destination word, read as a signed integer, indexes one of the 50000 nodes. -/
structure Dom (x : SN64.Idx → EReal) (ef : SE32.Idx → EReal) (src dst : SE.Idx → BitVec 32)
    (Ws : S64x128.Idx → EReal) (bs : S128.Idx → EReal) (Wd : S64x128.Idx → EReal) (bd : S128.Idx → EReal)
    (We : S32x128.Idx → EReal) (be gm bm : S128.Idx → EReal) (gn bn : S64.Idx → EReal) : Prop where
  x_real : ∀ i, ∃ r : ℝ, x i = (r : EReal)
  ef_real : ∀ i, ∃ r : ℝ, ef i = (r : EReal)
  Ws_real : ∀ i, ∃ r : ℝ, Ws i = (r : EReal)
  bs_real : ∀ i, ∃ r : ℝ, bs i = (r : EReal)
  Wd_real : ∀ i, ∃ r : ℝ, Wd i = (r : EReal)
  bd_real : ∀ i, ∃ r : ℝ, bd i = (r : EReal)
  We_real : ∀ i, ∃ r : ℝ, We i = (r : EReal)
  be_real : ∀ i, ∃ r : ℝ, be i = (r : EReal)
  gm_real : ∀ i, ∃ r : ℝ, gm i = (r : EReal)
  bm_real : ∀ i, ∃ r : ℝ, bm i = (r : EReal)
  gn_real : ∀ i, ∃ r : ℝ, gn i = (r : EReal)
  bn_real : ∀ i, ∃ r : ℝ, bn i = (r : EReal)
  src_range : ∀ i, 0 ≤ (src i).toInt ∧ (src i).toInt < 50000
  dst_range : ∀ i, 0 ≤ (dst i).toInt ∧ (dst i).toInt < 50000

/-- One entry normalised: (a − mean) · rsqrt(var + ε) · γ + β. -/
def norm (a mean var g b : EReal) : EReal := (a - mean) * Ideal.rsqrt (var + eps) * g + b

section
variable (x : SN64.Idx → EReal) (ef : SE32.Idx → EReal) (src dst : SE.Idx → BitVec 32)
  (Ws : S64x128.Idx → EReal) (bs : S128.Idx → EReal) (Wd : S64x128.Idx → EReal) (bd : S128.Idx → EReal)
  (We : S32x128.Idx → EReal) (be gm bm : S128.Idx → EReal) (gn bn : S64.Idx → EReal)

/-- A node's projection through a 64×128 weight and a bias: entry (n, j) of x·W + b. -/
def proj (W : S64x128.Idx → EReal) (b : S128.Idx → EReal) (n : Fin 50000) (j : Fin 128) : EReal :=
  (∑ k : Fin 64, x (ix2 n k) * W (ix2 k j)) + b (ix1 j)

/-- An edge's own linear term: entry (e, j) of ef·W_e + b_e. -/
def edgeLin (e : Fin 800000) (j : Fin 128) : EReal :=
  (∑ k : Fin 32, ef (ix2 e k) * We (ix2 k j)) + be (ix1 j)

/-- The edge pre-activation: source row + destination row, then the edge's own term. -/
def pre (e : Fin 800000) (j : Fin 128) : EReal :=
  (proj x Ws bs (row (src (ix1 e))) j + proj x Wd bd (row (dst (ix1 e))) j) + edgeLin ef We be e j

/-- Column sums of the pre-activation and of its square, over all edges. -/
def preSum (j : Fin 128) : EReal := ∑ e : Fin 800000, pre x ef src dst Ws bs Wd bd We be e j
def preSumSq (j : Fin 128) : EReal :=
  ∑ e : Fin 800000, pre x ef src dst Ws bs Wd bd We be e j * pre x ef src dst Ws bs Wd bd We be e j

/-- The edge mean. -/
def preMean (j : Fin 128) : EReal := Ideal.div (preSum x ef src dst Ws bs Wd bd We be j) nEdges

/-- The edge variance as the mean of squares minus the squared mean. -/
def varSq (j : Fin 128) : EReal :=
  Ideal.div (preSumSq x ef src dst Ws bs Wd bd We be j) nEdges
    - preMean x ef src dst Ws bs Wd bd We be j * preMean x ef src dst Ws bs Wd bd We be j

/-- The edge variance as the mean of squared deviations from the mean. -/
def varDev (j : Fin 128) : EReal :=
  Ideal.div (∑ e : Fin 800000,
      (pre x ef src dst Ws bs Wd bd We be e j - preMean x ef src dst Ws bs Wd bd We be j)
        * (pre x ef src dst Ws bs Wd bd We be e j - preMean x ef src dst Ws bs Wd bd We be j)) nEdges

/-- The normalised pre-activation at a variance `v`. -/
def preNorm (v : Fin 128 → EReal) (e : Fin 800000) (j : Fin 128) : EReal :=
  norm (pre x ef src dst Ws bs Wd bd We be e j) (preMean x ef src dst Ws bs Wd bd We be j) (v j) (gm (ix1 j)) (bm (ix1 j))

/-- An edge's message at column j < 64: sigmoid of column j times softplus of column j + 64 of its normalised
    pre-activation. -/
def msg (v : Fin 128 → EReal) (e : Fin 800000) (j : Fin 64) : EReal :=
  Ideal.logistic (preNorm x ef src dst Ws bs Wd bd We be gm bm v e ⟨j.val, by omega⟩)
    * softplus (preNorm x ef src dst Ws bs Wd bd We be gm bm v e ⟨j.val + 64, by omega⟩)

/-- The messages as one [800000, 64] array. -/
def msgArr (v : Fin 128 → EReal) : (⟨2, ![800000, 64]⟩ : Shape).Idx → EReal := fun i =>
  msg x ef src dst Ws bs Wd bd We be gm bm v (i 0) (i 1)

end

/- The node statistics and the last stage, as functions of the received sums `h` (an [50000, 64] array): both programs
   apply the same operations to it. -/
section
variable (x h : SN64.Idx → EReal) (gn bn : S64.Idx → EReal)

def nodeMean (j : Fin 64) : EReal := Ideal.div (∑ n : Fin 50000, h (ix2 n j)) nNodes
def nodeVar (j : Fin 64) : EReal :=
  Ideal.div (∑ n : Fin 50000, (h (ix2 n j) - nodeMean h j) * (h (ix2 n j) - nodeMean h j)) nNodes

/-- The result from the received sums at node n, column j: softplus(x + normalised h). -/
def outAt (n : Fin 50000) (j : Fin 64) : EReal :=
  softplus (x (ix2 n j) + norm (h (ix2 n j)) (nodeMean h j) (nodeVar h j) (gn (ix1 j)) (bn (ix1 j)))

/-- The result as one [50000, 64] array. -/
def outOf : SN64.Idx → EReal := fun i => outAt x h gn bn (i 0) (i 1)

end

end Cert.Spec

end
-- ==== Proof.SpecNode.lean ====
/-
  The received sums: every edge's message added into the row of the node the edge points at. Both programs compute it by
  the same scatter-add of the same shape (one index per update row, rows of 64), into an array of zeros, indexed by the
  destination words laid out as an [800000, 1] column. Stated here once, so that both programs' arrays are this one
  function of the messages and the destination words.
-/
import proofs.«410141_j3496103379076_1_alg».proof.Proof.Spec
import Idealize.ShloMosaic.PureOps.Contract

noncomputable section

namespace Cert.Spec

open Idealize.ShloMosaic Idealize.ShloMosaic.ValueIdx

abbrev SE1 : Shape := ⟨2, ![800000, 1]⟩
abbrev SE64 : Shape := ⟨2, ![800000, 64]⟩

/-- The scatter's dimension numbers: update rows are windows along axis 1, the index selects axis 0. -/
def scatDims : ScatterDims SN64 SE1 SE64 where
  updateWindowDims := [1]
  insertedWindowDims := [0]
  scatterDimsToOperandDims := [0]
  indexVectorDim := 1
  wf := by decide

/-- The received sums from the messages and the destination words. -/
def received (msgs : SE64.Idx → EReal) (dst : SE.Idx → BitVec 32) : SN64.Idx → EReal :=
  Host.scatterAdd (F := Ideal) (φ := .f32) scatDims (fun _ => Ideal.ofBits .f32 0x00000000#32)
    (fun i => dst (ix1 (i 0))) msgs

end Cert.Spec

end
-- ==== Proof.KArgs.lean ====
/-
  The fourteen argument arrays of the kernel program as a launch memory holds them on one device, at their literal
  types: node features, edge features, source and destination words, the three weight/bias pairs, and the two
  scale/shift pairs.
-/
import proofs.«410141_j3496103379076_1_alg».proof.Proof.Gen.KernelIdeal.Frame
import proofs.«410141_j3496103379076_1_alg».proof.Proof.Spec

set_option maxRecDepth 16384

noncomputable section

open Idealize.ShloMosaic Idealize.ShloMosaic.TcCoe Idealize.ShloMosaic.ValueIdx Idealize.ShloMosaic.Pipeline
open Cert.KernelIdeal Cert.KernelIdeal.Gen

namespace Cert.KernelIdeal.KV

variable (m : (ℓ : Loc nD τ sig) → Buf (Elt Ideal) ℓ) (c : Dev nD)

abbrev x : Cert.Spec.SN64.Idx → EReal := m ((c : Thread nD τ).loc main_arg0)
abbrev ef : Cert.Spec.SE32.Idx → EReal := m ((c : Thread nD τ).loc main_arg1)
abbrev src : Cert.Spec.SE.Idx → BitVec 32 := m ((c : Thread nD τ).loc main_arg2)
abbrev dst : Cert.Spec.SE.Idx → BitVec 32 := m ((c : Thread nD τ).loc main_arg3)
abbrev Ws : Cert.Spec.S64x128.Idx → EReal := m ((c : Thread nD τ).loc main_arg4)
abbrev bs : Cert.Spec.S128.Idx → EReal := m ((c : Thread nD τ).loc main_arg5)
abbrev Wd : Cert.Spec.S64x128.Idx → EReal := m ((c : Thread nD τ).loc main_arg6)
abbrev bd : Cert.Spec.S128.Idx → EReal := m ((c : Thread nD τ).loc main_arg7)
abbrev We : Cert.Spec.S32x128.Idx → EReal := m ((c : Thread nD τ).loc main_arg8)
abbrev be : Cert.Spec.S128.Idx → EReal := m ((c : Thread nD τ).loc main_arg9)
abbrev gm : Cert.Spec.S128.Idx → EReal := m ((c : Thread nD τ).loc main_arg10)
abbrev bm : Cert.Spec.S128.Idx → EReal := m ((c : Thread nD τ).loc main_arg11)
abbrev gn : Cert.Spec.S64.Idx → EReal := m ((c : Thread nD τ).loc main_arg12)
abbrev bn : Cert.Spec.S64.Idx → EReal := m ((c : Thread nD τ).loc main_arg13)

/-- The arrays are in the domain. -/
abbrev InDom : Prop :=
  Cert.Spec.Dom (x m c) (ef m c) (src m c) (dst m c) (Ws m c) (bs m c) (Wd m c) (bd m c) (We m c) (be m c) (gm m c) (bm m c)
    (gn m c) (bn m c)

end Cert.KernelIdeal.KV

end
-- ==== Proof.Region3.lean ====
/-
  The fourth launch: what its output array holds after the run, for any contents V the launch is entered from.
  Grid point t takes rows 5000·t … of the node features and of the received sums and the four 1×64 rows (mean,
  variance, scale, shift), and writes  softplus(x + ((h − mean) · rsqrt(var + ε)) · γ + β)  entry by entry: the ten
  blocks are ten row ranges of one array.
-/
import proofs.«410141_j3496103379076_1_alg».proof.Proof.Gen.KernelIdeal.Frame
import proofs.«410141_j3496103379076_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.ShloMosaic.Pipeline
open Cert.KernelIdeal Cert.KernelIdeal.Gen

/-! ## The body's arithmetic at one entry -/

section Pointwise
variable {s : Shape} {φ : FTy}
/-- The transcendental and absolute-value vector operations read at an index are the scalar ones of the entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log1p_apply (a : FVec Ideal s φ) (i : s.Idx) : log1p a i = Ideal.log1p (a i) := rfl
theorem absf_apply (a : FVec Ideal s φ) (i : s.Idx) : absf a i = FloatOps.absf (a i) := rfl
end Pointwise

/-- An extended real never differs from itself, so the not-a-number guard's bit is clear. -/
theorem cmp_one_self (x : EReal) : Ideal.cmp .one x x = 0#1 := by
  simp [Ideal.cmp]

/-- The stored value at row p, column q of a block: the guard never fires, subtracting and adding zero change nothing,
    and what is left is softplus of the node feature plus the normalised received sum, the four rows read at column q. -/
theorem pay_apply (x0 x1 : Vec Ideal S5000x64 .f32) (x2 x3 x4 x5 : Vec Ideal S1x64 .f32) (p : Fin 5000) (q : Fin 64) :
    k3_pay1 (F := Ideal) x1 x2 x3 x4 x5 x0 (ix2 p q)
      = Cert.Spec.softplus (x0 (ix2 p q)
          + Cert.Spec.norm (x1 (ix2 p q)) (x2 (ix2 0 q)) (x3 (ix2 0 q)) (x4 (ix2 0 q)) (x5 (ix2 0 q))) := by
  unfold k3_pay1
  simp only [select_apply, cmpf_apply, addf_apply, subf_apply, mulf_apply, maximumf_apply, broadcast_apply,
    rsqrt_apply, exp_apply, log1p_apply, absf_apply, shapeCast_self, broadcastTo_1b_ab_apply]
  unfold Cert.Spec.softplus Cert.Spec.norm Cert.Spec.eps
  simp only [Ideal.cmpf_def, Ideal.ofBits_def, Ideal.ofBits_zero_f32, sub_zero, zero_sub, add_zero, cmp_one_self, select_zero]

variable (V : (c : Dev nD) → (b : Ref sig .tc) → Buf (Elt Ideal) ((c : Thread nD τ).loc b))

/-- The six input arrays as the launch finds them, at their literal types. -/
abbrev nf (c : Dev nD) : S50000x64.Idx → EReal := V c (Pipeline.arrRef spec3 0)
abbrev hIn (c : Dev nD) : S50000x64.Idx → EReal := V c (Pipeline.arrRef spec3 1)
abbrev mean (c : Dev nD) : S1x64.Idx → EReal := V c (Pipeline.arrRef spec3 2)
abbrev var (c : Dev nD) : S1x64.Idx → EReal := V c (Pipeline.arrRef spec3 3)
abbrev gam (c : Dev nD) : S1x64.Idx → EReal := V c (Pipeline.arrRef spec3 4)
abbrev bet (c : Dev nD) : S1x64.Idx → EReal := V c (Pipeline.arrRef spec3 5)

/-- The output array after the run, at its literal type. -/
abbrev outArr (c : Dev nD) : S50000x64.Idx → EReal := (dat3 (F := Ideal) V c).arrAt 6 cfg3.N

/-! ## From the ten blocks to the array -/

/-- Entry (n, j) of what the launch computes from the arrays it finds. -/
def outAt (c : Dev nD) (n : Fin 50000) (j : Fin 64) : EReal :=
  Cert.Spec.softplus (nf V c (ix2 n j)
    + Cert.Spec.norm (hIn V c (ix2 n j)) (mean V c (ix2 0 j)) (var V c (ix2 0 j)) (gam V c (ix2 0 j)) (bet V c (ix2 0 j)))

/-- The same as one array. -/
def outFn (c : Dev nD) : S50000x64.Idx → EReal := fun i => outAt V c (i 0) (i 1)

/-- The array at an index whose two coordinates are n and j. -/
theorem outFn_apply (c : Dev nD) (k : S50000x64.Idx) (n : Fin 50000) (j : Fin 64)
    (h0 : (k 0).val = n.val) (h1 : (k 1).val = j.val) : outFn V c k = outAt V c n j := by
  have e0 : k 0 = n := Fin.ext h0
  have e1 : k 1 = j := Fin.ext h1
  unfold outFn
  rw [e0, e1]

/-- Both offsets of a whole-buffer access are zero. -/
theorem zero_offsets : (![0, 0] : Fin 2 → Nat) = fun _ => 0 := funext fun a => by fin_cases a <;> rfl

/-- The printed index maps, decided over the ten grid points: the two big input windows and the output window are at
    block (t, 0); the four one-row windows stay at block (0, 0). -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The grid has ten points. -/
theorem point_lt (t : Fin cfg3.N) : t.val < 10 := by
  have h := t.isLt
  have hN : cfg3.N = 10 := N_3
  omega

/-- A big input window's block at point t, entry (p, q), is the array's entry (5000·t + p, q). -/
theorem iblk0_apply (c : Dev nD) (t : Fin cfg3.N) (p : Fin 5000) (q : Fin 64) (n : Fin 50000)
    (hn : n.val = 5000 * t.val + p.val) :
    (iblk3 V c 0 t : Vec Ideal S5000x64 .f32) (ix2 p q) = nf V c (ix2 n q) := by
  obtain ⟨e0, e1, -⟩ := block_indices t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = n.val; rw [e0, hn]; omega
  | ⟨1, _⟩ => show win3_0.index t (1 : Fin 2) * 64 + 1 * q.val = q.val; rw [e1]; omega

/-- The same for the received sums. -/
theorem iblk1_apply (c : Dev nD) (t : Fin cfg3.N) (p : Fin 5000) (q : Fin 64) (n : Fin 50000)
    (hn : n.val = 5000 * t.val + p.val) :
    (iblk3 V c 1 t : Vec Ideal S5000x64 .f32) (ix2 p q) = hIn V c (ix2 n q) := by
  obtain ⟨-, -, e0, e1, -⟩ := block_indices t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * p.val = n.val; rw [e0, hn]; omega
  | ⟨1, _⟩ => show win3_1.index t (1 : Fin 2) * 64 + 1 * q.val = q.val; rw [e1]; omega

/-- Each one-row window's block is its whole array at every point. -/
theorem iblk2_apply (c : Dev nD) (t : Fin cfg3.N) (q : Fin 64) :
    (iblk3 V c 2 t : Vec Ideal S1x64 .f32) (ix2 0 q) = mean V c (ix2 0 q) := by
  obtain ⟨-, -, -, -, e0, e1, -⟩ := block_indices t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; rw [e0]
  | ⟨1, _⟩ => show win3_2.index t (1 : Fin 2) * 64 + 1 * q.val = q.val; rw [e1]; omega
theorem iblk3_apply (c : Dev nD) (t : Fin cfg3.N) (q : Fin 64) :
    (iblk3 V c 3 t : Vec Ideal S1x64 .f32) (ix2 0 q) = var V c (ix2 0 q) := by
  obtain ⟨-, -, -, -, -, -, e0, e1, -⟩ := block_indices t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * 0 = 0; rw [e0]
  | ⟨1, _⟩ => show win3_3.index t (1 : Fin 2) * 64 + 1 * q.val = q.val; rw [e1]; omega
theorem iblk4_apply (c : Dev nD) (t : Fin cfg3.N) (q : Fin 64) :
    (iblk3 V c 4 t : Vec Ideal S1x64 .f32) (ix2 0 q) = gam V c (ix2 0 q) := by
  obtain ⟨-, -, -, -, -, -, -, -, e0, e1, -⟩ := block_indices t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * 0 = 0; rw [e0]
  | ⟨1, _⟩ => show win3_4.index t (1 : Fin 2) * 64 + 1 * q.val = q.val; rw [e1]; omega
theorem iblk5_apply (c : Dev nD) (t : Fin cfg3.N) (q : Fin 64) :
    (iblk3 V c 5 t : Vec Ideal S1x64 .f32) (ix2 0 q) = bet V c (ix2 0 q) := by
  obtain ⟨-, -, -, -, -, -, -, -, -, -, e0, e1, -⟩ := block_indices t
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 1 + 1 * 0 = 0; rw [e0]
  | ⟨1, _⟩ => show win3_5.index t (1 : Fin 2) * 64 + 1 * q.val = q.val; rw [e1]; omega

/-- What point t stores at entry y of its block is the array function at the place of the output array that entry
    is written to: row 5000·t + (row of y), the same column. -/
theorem point_eq (c : Dev nD) (t : Fin cfg3.N) (y : S5000x64.Idx) :
    k3_pay1 (F := Ideal) (iblk3 V c 1 t) (iblk3 V c 2 t) (iblk3 V c 3 t) (iblk3 V c 4 t) (iblk3 V c 5 t) (iblk3 V c 0 t) y
      = outFn V c (((cfg3.win 6).blk t).view.emb y) := by
  obtain ⟨p, q, rfl⟩ : ∃ (p : Fin 5000) (q : Fin 64), y = ix2 p q := ⟨y 0, y 1, eq_ix2 y⟩
  have ht := point_lt t
  have hp := p.isLt
  obtain ⟨-, -, -, -, -, -, -, -, -, -, -, -, e0, e1⟩ := block_indices t
  have hn : 5000 * t.val + p.val < 50000 := by omega
  rw [outFn_apply V c _ (⟨5000 * t.val + p.val, hn⟩ : Fin 50000) q
    (by show win3_6.index t (0 : Fin 2) * 5000 + 1 * p.val = 5000 * t.val + p.val; rw [e0]; omega)
    (by show win3_6.index t (1 : Fin 2) * 64 + 1 * q.val = q.val; rw [e1]; omega)]
  refine (pay_apply (iblk3 V c 0 t) (iblk3 V c 1 t) (iblk3 V c 2 t) (iblk3 V c 3 t) (iblk3 V c 4 t) (iblk3 V c 5 t) p q).trans ?_
  rw [iblk0_apply V c t p q ⟨5000 * t.val + p.val, hn⟩ rfl, iblk1_apply V c t p q ⟨5000 * t.val + p.val, hn⟩ rfl, iblk2_apply V c t q, iblk3_apply V c t q,
    iblk4_apply V c t q, iblk5_apply V c t q]
  rfl

/-- WHAT POINT t WRITES BACK is block t of the array function. -/
theorem flushed_eq (c : Dev nD) (t : Fin cfg3.N) :
    (dat3 (F := Ideal) V c).flushed 6 t = ((cfg3.win 6).blk t).view.read (Elt Ideal) (outFn V c) := by
  show (cfg3.win 6).cut (grid3.coords t) ((dat3 (F := Ideal) V c).after 6 t) = _
  rw [after3_6]
  unfold out3_6
  rw [View.canon_unit_zero zero_offsets]
  simp only [View.ld_unit_zero (S := S5000x64) zero_offsets, View.ld_unit_zero (S := S1x64) zero_offsets]
  funext y
  show k3_pay1 (F := Ideal) (iblk3 V c 1 t) (iblk3 V c 2 t) (iblk3 V c 3 t) (iblk3 V c 4 t) (iblk3 V c 5 t) (iblk3 V c 0 t) y
      = outFn V c (((cfg3.win 6).blk t).view.emb y)
  exact point_eq V c t y

/-- An index of the output array is in point t's block iff each coordinate is in the block's range on its axis. -/
theorem mem_blk (t : Fin cfg3.N) (i : S50000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v34).slice (win3_6.rect t)).set ↔ _
  rw [View.set_slice_whole, Rect.mem_set_unit]
  exact Iff.rfl

/-- Every row r of the output array lies in the block of point r / 5000. -/
theorem rows_covered (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 10 := N_3
  have hlt : (i 0).val / 5000 < cfg3.N := by omega
  refine ⟨⟨(i 0).val / 5000, hlt⟩, flush3_6 _, ?_⟩
  rw [mem_blk]
  obtain ⟨-, -, -, -, -, -, -, -, -, -, -, -, e0, e1⟩ := block_indices ⟨(i 0).val / 5000, hlt⟩
  intro a
  match a with
  | ⟨0, _⟩ =>
    show win3_6.index ⟨(i 0).val / 5000, hlt⟩ (0 : Fin 2) * 5000 ≤ (i 0).val
      ∧ (i 0).val < win3_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_6.index ⟨(i 0).val / 5000, hlt⟩ (1 : Fin 2) * 64 ≤ (i 1).val
      ∧ (i 1).val < win3_6.index ⟨(i 0).val / 5000, hlt⟩ (1 : Fin 2) * 64 + 64
    rw [e1]
    omega

/-- THE ARRAY after the run is the array function. -/
theorem outArr_eq (c : Dev nD) : outArr V c = outFn V c :=
  (dat3 (F := Ideal) V c).arrAt_eq_of_cover 6 (outFn V c) (fun t _ => flushed_eq V c t) rows_covered

/-- Entry (n, j) of the output. -/
theorem out_apply (c : Dev nD) (n : Fin 50000) (j : Fin 64) :
    outArr V c (ix2 n j)
      = Cert.Spec.softplus (nf V c (ix2 n j)
          + Cert.Spec.norm (hIn V c (ix2 n j)) (mean V c (ix2 0 j)) (var V c (ix2 0 j)) (gam V c (ix2 0 j)) (bet V c (ix2 0 j))) := by
  rw [outArr_eq V c, outFn_apply V c (ix2 n j) n j rfl rfl]
  rfl

end Cert.KernelIdeal.Region3

end
-- ==== Proof.Region2.lean ====
/-
  The third launch: what its output array holds after the run, for any contents V the launch is entered from.
  Grid point t takes rows 5000·t … of the pre-activations and the four 1×128 rows (mean, variance, scale, shift),
  normalises every entry  ((a − mean) · rsqrt(var + ε)) · γ + β  column by column, and writes, for each of the first 64
  columns j, sigmoid(column j) · softplus(column j + 64). Every entry of the output depends only on its own row of the
  input, so the 160 blocks are 160 row ranges of one array. (softplus is max(x, 0) + log(1 + e^(−|x|)); the program
  guards it by a test x ≠ x, which no extended real satisfies.)
-/
import proofs.«410141_j3496103379076_1_alg».proof.Proof.Gen.KernelIdeal.Frame
import proofs.«410141_j3496103379076_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.ShloMosaic.ValueIdx Idealize.ShloMosaic.Pipeline
open Cert.KernelIdeal Cert.KernelIdeal.Gen

/-- The program's softplus on an extended real: no extended real differs from itself, so its guard is never taken;
    subtracting and adding the zero word change nothing; zero minus y is −y. -/
theorem kSoftplus_eq (x : EReal) :
    Scalar.select
        (FloatOps.cmpf (F := Ideal) (φ := .f32) .one (x - FloatOps.ofBits (F := Ideal) .f32 0#32)
          (x - FloatOps.ofBits (F := Ideal) .f32 0#32))
        (x + FloatOps.ofBits (F := Ideal) .f32 0#32)
        (max x (FloatOps.ofBits (F := Ideal) .f32 0#32)
          + Ideal.log1p (Ideal.exp (FloatOps.ofBits (F := Ideal) .f32 0#32
              - FloatOps.absf (F := Ideal) (φ := .f32) (x - FloatOps.ofBits (F := Ideal) .f32 0#32))))
      = Cert.Spec.softplus x := by
  have hz : FloatOps.ofBits (F := Ideal) .f32 0#32 = (0 : EReal) := Ideal.ofBits_zero_f32
  rw [hz]
  have hc : FloatOps.cmpf (F := Ideal) (φ := .f32) .one (x - 0) (x - 0) = 0#1 := by
    show Ideal.cmp .one (x - 0) (x - 0) = 0#1
    simp [Ideal.cmp]
  rw [hc, select_zero, sub_zero, zero_sub]
  rfl

/-- A row broadcast down the 5000 rows reads, at (p, k), the row's entry k. -/
theorem bcast_row {α : Type} (x : S1x128.Idx → α) (p : Fin 5000) (k : Fin 128) :
    broadcastTo S5000x128 x broadcasts_S1x128_S5000x128 (ix2 p k) = x (ix2 0 k) := by
  refine broadcastTo_apply x _ _ _ fun a => ?_
  match a with
  | ⟨0, _⟩ => rfl
  | ⟨1, _⟩ => rfl

/-- The first 64 columns of a 5000×128 block, at (p, q), is column q … -/
theorem slice_lo {α : Type} (v : S5000x128.Idx → α) (p : Fin 5000) (q : Fin 64) :
    extractStridedSlice S5000x64 ![0, 0] v slices_S5000x128_o0_0_S5000x64 (ix2 p q) = v (ix2 p ⟨q.val, by omega⟩) := by
  refine extractStridedSlice_apply _ v _ _ _ fun a => ?_
  match a with
  | ⟨0, _⟩ => show p.val = 0 + p.val; omega
  | ⟨1, _⟩ => show q.val = 0 + q.val; omega

/-- … and the last 64 columns, at (p, q), is column q + 64. -/
theorem slice_hi {α : Type} (v : S5000x128.Idx → α) (p : Fin 5000) (q : Fin 64) :
    extractStridedSlice S5000x64 ![0, 64] v slices_S5000x128_o0_64_S5000x64 (ix2 p q) = v (ix2 p ⟨q.val + 64, by omega⟩) := by
  refine extractStridedSlice_apply _ v _ _ _ fun a => ?_
  match a with
  | ⟨0, _⟩ => show p.val = 0 + p.val; omega
  | ⟨1, _⟩ => show q.val + 64 = 64 + q.val; omega

section
variable {s : Shape} {φ : FTy}
/-- The unary operations read at an index are the extended reals' operations on the element. -/
theorem logistic_apply (a : FVec Ideal s φ) (i : s.Idx) : logistic a i = Ideal.logistic (a i) := rfl
theorem rsqrt_apply (a : FVec Ideal s φ) (i : s.Idx) : rsqrt a i = Ideal.rsqrt (a i) := rfl
theorem exp_apply (a : FVec Ideal s φ) (i : s.Idx) : exp a i = Ideal.exp (a i) := rfl
theorem log1p_apply (a : FVec Ideal s φ) (i : s.Idx) : log1p a i = Ideal.log1p (a i) := rfl
theorem absf_apply (a : FVec Ideal s φ) (i : s.Idx) : absf a i = FloatOps.absf (a i) := rfl
end

/-- The body's one stored value at entry (p, q) of its 5000×64 block, from the five loaded blocks: sigmoid of the
    normalised entry (p, q) times softplus of the normalised entry (p, q + 64). -/
theorem pay_apply (x0 : Vec Ideal S5000x128 .f32) (x1 x2 x3 x4 : Vec Ideal S1x128 .f32) (p : Fin 5000) (q : Fin 64) :
    k2_pay1 x0 x1 x2 x3 x4 (ix2 p q)
      = Ideal.logistic (Cert.Spec.norm (x0 (ix2 p ⟨q.val, by omega⟩)) (x1 (ix2 0 ⟨q.val, by omega⟩))
            (x2 (ix2 0 ⟨q.val, by omega⟩)) (x3 (ix2 0 ⟨q.val, by omega⟩)) (x4 (ix2 0 ⟨q.val, by omega⟩)))
        * Cert.Spec.softplus (Cert.Spec.norm (x0 (ix2 p ⟨q.val + 64, by omega⟩)) (x1 (ix2 0 ⟨q.val + 64, by omega⟩))
            (x2 (ix2 0 ⟨q.val + 64, by omega⟩)) (x3 (ix2 0 ⟨q.val + 64, by omega⟩)) (x4 (ix2 0 ⟨q.val + 64, by omega⟩))) := by
  unfold k2_pay1
  simp only [shapeCast_self]
  simp only [mulf_apply, logistic_apply, select_apply, cmpf_apply, subf_apply, addf_apply, maximumf_apply, log1p_apply,
    exp_apply, absf_apply, rsqrt_apply, broadcast_apply, slice_lo, slice_hi, bcast_row]
  exact congrArg₂ (· * ·) rfl (kSoftplus_eq _)

variable (V : (c : Dev nD) → (b : Ref sig .tc) → Buf (Elt Ideal) ((c : Thread nD τ).loc b))

/-- The five input arrays as the launch finds them, at their literal types. -/
abbrev mIn (c : Dev nD) : S800000x128.Idx → EReal := V c (Pipeline.arrRef spec2 0)
abbrev mean (c : Dev nD) : S1x128.Idx → EReal := V c (Pipeline.arrRef spec2 1)
abbrev var (c : Dev nD) : S1x128.Idx → EReal := V c (Pipeline.arrRef spec2 2)
abbrev gam (c : Dev nD) : S1x128.Idx → EReal := V c (Pipeline.arrRef spec2 3)
abbrev bet (c : Dev nD) : S1x128.Idx → EReal := V c (Pipeline.arrRef spec2 4)

/-- One normalised entry. -/
def nrm (c : Dev nD) (e : Fin 800000) (j : Fin 128) : EReal :=
  Cert.Spec.norm (mIn V c (ix2 e j)) (mean V c (ix2 0 j)) (var V c (ix2 0 j)) (gam V c (ix2 0 j)) (bet V c (ix2 0 j))

/-- The output array after the run, at its literal type. -/
abbrev outArr (c : Dev nD) : S800000x64.Idx → EReal := (dat2 (F := Ideal) V c).arrAt 5 cfg2.N

/-- Entry (e, j) of the array the launch is shown to leave: sigmoid of normalised column j times softplus of normalised
    column j + 64, of row e. -/
def msgAt (c : Dev nD) (e : Fin 800000) (j : Fin 64) : EReal :=
  Ideal.logistic (nrm V c e ⟨j.val, by omega⟩) * Cert.Spec.softplus (nrm V c e ⟨j.val + 64, by omega⟩)

/-- That array, as one function of the index. -/
def msgArr (c : Dev nD) : S800000x64.Idx → EReal := fun i => msgAt V c (i 0) (i 1)

/-- The zero offsets of a whole-block access, as the constant function. -/
theorem hz : (![0, 0] : Fin 2 → Nat) = fun _ => 0 := funext fun a => by
  match a with
  | ⟨0, _⟩ => rfl
  | ⟨1, _⟩ => rfl

/-- The program's index maps over the 160 grid points: the 5000-row windows (input 0, the output) sit at block (t, 0);
    the four 1×128 rows are the whole of their arrays at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The pre-activation block at point t, at (p, k), is row 5000·t + p of the array. -/
theorem blk0_apply (c : Dev nD) (t : Fin cfg2.N) (p : Fin 5000) (k : Fin 128) (hb : t.val * 5000 + p.val < 800000) :
    iblk2 V c 0 t (ix2 p k) = mIn V c (ix2 ⟨t.val * 5000 + p.val, hb⟩ k) := by
  have h0 : win2_0.index t (0 : Fin 2) = t.val := (idx_facts t).1
  have h1 : win2_0.index t (1 : Fin 2) = 0 := (idx_facts t).2.1
  show V c (Pipeline.arrRef spec2 0) (((cfg2.win 0).blk t).view.emb (ix2 p k))
      = V c (Pipeline.arrRef spec2 0) (ix2 ⟨t.val * 5000 + p.val, hb⟩ k)
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The mean row's block at any point is the whole row. -/
theorem row1_apply (c : Dev nD) (t : Fin cfg2.N) (k : Fin 128) :
    iblk2 V c 1 t (ix2 0 k) = mean V c (ix2 0 k) := by
  have h0 : win2_1.index t (0 : Fin 2) = 0 := (idx_facts t).2.2.1
  have h1 : win2_1.index t (1 : Fin 2) = 0 := (idx_facts t).2.2.2.1
  show V c (Pipeline.arrRef spec2 1) (((cfg2.win 1).blk t).view.emb (ix2 0 k)) = V c (Pipeline.arrRef spec2 1) (ix2 0 k)
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * k.val = k.val; omega

/-- The variance row's block at any point is the whole row. -/
theorem row2_apply (c : Dev nD) (t : Fin cfg2.N) (k : Fin 128) :
    iblk2 V c 2 t (ix2 0 k) = var V c (ix2 0 k) := by
  have h0 : win2_2.index t (0 : Fin 2) = 0 := (idx_facts t).2.2.2.2.1
  have h1 : win2_2.index t (1 : Fin 2) = 0 := (idx_facts t).2.2.2.2.2.1
  show V c (Pipeline.arrRef spec2 2) (((cfg2.win 2).blk t).view.emb (ix2 0 k)) = V c (Pipeline.arrRef spec2 2) (ix2 0 k)
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

/-- The scale row's block at any point is the whole row. -/
theorem row3_apply (c : Dev nD) (t : Fin cfg2.N) (k : Fin 128) :
    iblk2 V c 3 t (ix2 0 k) = gam V c (ix2 0 k) := by
  have h0 : win2_3.index t (0 : Fin 2) = 0 := (idx_facts t).2.2.2.2.2.2.1
  have h1 : win2_3.index t (1 : Fin 2) = 0 := (idx_facts t).2.2.2.2.2.2.2.1
  show V c (Pipeline.arrRef spec2 3) (((cfg2.win 3).blk t).view.emb (ix2 0 k)) = V c (Pipeline.arrRef spec2 3) (ix2 0 k)
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * k.val = k.val; omega

/-- The shift row's block at any point is the whole row. -/
theorem row4_apply (c : Dev nD) (t : Fin cfg2.N) (k : Fin 128) :
    iblk2 V c 4 t (ix2 0 k) = bet V c (ix2 0 k) := by
  have h0 : win2_4.index t (0 : Fin 2) = 0 := (idx_facts t).2.2.2.2.2.2.2.2.1
  have h1 : win2_4.index t (1 : Fin 2) = 0 := (idx_facts t).2.2.2.2.2.2.2.2.2.1
  show V c (Pipeline.arrRef spec2 4) (((cfg2.win 4).blk t).view.emb (ix2 0 k)) = V c (Pipeline.arrRef spec2 4) (ix2 0 k)
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * k.val = k.val; omega

/-- Entry (p, q) of the output's block at point t sits at row 5000·t + p, column q of the array. -/
theorem emb5_apply (t : Fin cfg2.N) (p : Fin 5000) (q : Fin 64) (hb : t.val * 5000 + p.val < 800000) :
    ((cfg2.win 5).blk t).view.emb (ix2 p q) = (ix2 ⟨t.val * 5000 + p.val, hb⟩ q : S800000x64.Idx) := by
  have h0 : win2_5.index t (0 : Fin 2) = t.val := (idx_facts t).2.2.2.2.2.2.2.2.2.2.1
  have h1 : win2_5.index t (1 : Fin 2) = 0 := (idx_facts t).2.2.2.2.2.2.2.2.2.2.2
  funext a; apply Fin.ext
  match a with
  | ⟨0, _⟩ => show win2_5.index t (0 : Fin 2) * 5000 + 1 * p.val = t.val * 5000 + p.val; omega
  | ⟨1, _⟩ => show win2_5.index t (1 : Fin 2) * 64 + 1 * q.val = q.val; omega

/-- What grid point t writes back is rows 5000·t … 5000·t + 4999 of the one array `msgArr`. -/
theorem flushed_eq (c : Dev nD) (t : Fin cfg2.N) :
    (dat2 (F := Ideal) V c).flushed 5 t = ((cfg2.win 5).blk t).view.read (Elt Ideal) (msgArr V c) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S1x128) hz]
  have ht : t.val < 160 := lt_of_lt_of_eq t.isLt N_2
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (iblk2 V c 3 t) (iblk2 V c 4 t) (ix2 p q)
      = msgArr V c (((cfg2.win 5).blk t).view.emb (ix2 p q))
  refine (pay_apply _ _ _ _ _ p q).trans ?_
  have hb : t.val * 5000 + p.val < 800000 := by omega
  rw [blk0_apply V c t p _ hb, blk0_apply V c t p _ hb, row1_apply, row1_apply, row2_apply, row2_apply,
    row3_apply, row3_apply, row4_apply, row4_apply, emb5_apply t p q hb]
  rfl

/-- An index of the output array is in point t's block iff each coordinate is in the block's range on its axis. -/
theorem mem_blk (t : Fin cfg2.N) (i : S800000x64.Idx) :
    i ∈ ((cfg2.win 5).blk t).view.set
      ↔ ∀ a : Fin 2, win2_5.index t a * S5000x64.size a ≤ (i a).val
          ∧ (i a).val < win2_5.index t a * S5000x64.size a + S5000x64.size a := by
  show i ∈ ((View.whole main_v22).slice (win2_5.rect t)).set ↔ _
  rw [View.set_slice_whole, Rect.mem_set_unit]
  exact Iff.rfl

/-- Row r of the output lies in the block of point r / 5000: the 160 blocks cover the array. -/
theorem cover (i : S800000x64.Idx) :
    ∃ t : Fin cfg2.N, (cfg2.win 5).flush t = true ∧ i ∈ ((cfg2.win 5).blk t).view.set := by
  have hi0 : (i 0).val < 800000 := idx2_lt0 i
  have hi1 : (i 1).val < 64 := idx2_lt1 i
  have hN : cfg2.N = 160 := N_2
  obtain ⟨t, ht⟩ : ∃ t : Fin cfg2.N, t.val = (i 0).val / 5000 := ⟨⟨(i 0).val / 5000, by rw [hN]; omega⟩, rfl⟩
  obtain ⟨-, -, -, -, -, -, -, -, -, -, a50, a51⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- The output array after the run is `msgArr`. -/
theorem final (c : Dev nD) : outArr V c = msgArr V c :=
  (dat2 (F := Ideal) V c).arrAt_eq_of_cover 5 (msgArr V c) (fun t _ => flushed_eq V c t) cover

/-- Entry (e, j) of the output: sigmoid of normalised column j times softplus of normalised column j + 64. -/
theorem out_apply (c : Dev nD) (e : Fin 800000) (j : Fin 64) :
    outArr V c (ix2 e j)
      = Ideal.logistic (nrm V c e ⟨j.val, by omega⟩) * Cert.Spec.softplus (nrm V c e ⟨j.val + 64, by omega⟩) := by
  rw [final]
  rfl

end Cert.KernelIdeal.Region2

end
-- ==== Proof.Region1.lean ====
/-
  The second launch: what its three output arrays hold after the run, for any contents V the launch is entered from.
  Grid point t takes rows 5000·t … 5000·t + 4999 of the two gathered tables and of the edge features, the whole 32×128
  weight and the 1×128 bias, and writes the block of pre-activations  (hs + hd) + (ef · W + b)  for those rows; it also
  adds the block's column sums, and the column sums of its squares, into two 1×128 rows that stay in place from one
  point to the next and are set to zero at point 0. After the last of the 160 points the first array holds the
  pre-activation of every edge, and the two rows hold the sums over all 800000 edges: a sum over all rows is the sum
  over the 160 blocks of each block's sum, whatever the order (addition of extended reals is commutative and
  associative).
-/
import proofs.«410141_j3496103379076_1_alg».proof.Proof.Gen.KernelIdeal.Frame
import proofs.«410141_j3496103379076_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.ShloMosaic.ValueIdx Idealize.ShloMosaic.Pipeline
open Cert.KernelIdeal Cert.KernelIdeal.Gen

/-! ## The body's arithmetic read at an index -/

/-- The contraction of the 5000×32 block with the 32×128 weight. -/
abbrev dotEW : DotDims S5000x32 S32x128 S5000x128 := dot_S5000x32_S32x128_S5000x128_1_0_0_1_n_n

theorem dotEW_lhs_0 (j : S5000x128.Idx) (k : dotEW.contr.Idx) : (dotEW.lhsIdx j k 0 : ℕ) = j 0 := by
  simp [DotDims.lhsIdx, dotEW, dot_S5000x32_S32x128_S5000x128_1_0_0_1_n_n]; rfl
theorem dotEW_lhs_1 (j : S5000x128.Idx) (k : dotEW.contr.Idx) : (dotEW.lhsIdx j k 1 : ℕ) = k ⟨0, by decide⟩ := by
  simp [DotDims.lhsIdx, dotEW, dot_S5000x32_S32x128_S5000x128_1_0_0_1_n_n]; rfl
theorem dotEW_rhs_0 (j : S5000x128.Idx) (k : dotEW.contr.Idx) : (dotEW.rhsIdx j k 0 : ℕ) = k ⟨0, by decide⟩ := by
  simp [DotDims.rhsIdx, dotEW, dot_S5000x32_S32x128_S5000x128_1_0_0_1_n_n]; rfl
theorem dotEW_rhs_1 (j : S5000x128.Idx) (k : dotEW.contr.Idx) : (dotEW.rhsIdx j k 1 : ℕ) = j 1 := by
  simp [DotDims.rhsIdx, dotEW, dot_S5000x32_S32x128_S5000x128_1_0_0_1_n_n]; rfl

/-- The product of a block of edge features with the weight, into a zero accumulator, at row `r` and column `j`:
    the sum over the 32 features. -/
theorem matmul_at (a : FVec Ideal S5000x32 .bf16) (w : FVec Ideal S32x128 .bf16) (r : Fin 5000) (j : Fin 128) :
    FloatOps.matmul dotEW none a w (constant S5000x128 .f32 0x00000000#32) (ix2 r j)
      = ∑ k : Fin 32, a (ix2 r k) * w (ix2 k j) := by
  rw [Ideal.matmul_constant_zero_apply, ← Equiv.sum_comp (contrEquiv1 dotEW 32 rfl rfl).symm]
  refine Finset.sum_congr rfl fun k _ => ?_
  have hk := contrEquiv1_symm_val dotEW 32 rfl rfl k
  have hl : dotEW.lhsIdx (ix2 r j) ((contrEquiv1 dotEW 32 rfl rfl).symm k) = ix2 r k := by
    funext d; apply Fin.ext
    match d with
    | ⟨0, _⟩ => exact dotEW_lhs_0 _ _
    | ⟨1, _⟩ => exact (dotEW_lhs_1 _ _).trans hk
  have hr : dotEW.rhsIdx (ix2 r j) ((contrEquiv1 dotEW 32 rfl rfl).symm k) = ix2 k j := by
    funext d; apply Fin.ext
    match d with
    | ⟨0, _⟩ => exact (dotEW_rhs_0 _ _).trans hk
    | ⟨1, _⟩ => exact dotEW_rhs_1 _ _
  rw [hl, hr]

/-- A 128-vector laid as a 1×128 row reads, in column `j`, its entry `j`. -/
theorem row_of_vec (v : S128.Idx → EReal) (j : Fin 128) :
    shapeCast S1x128 v shapeCasts_S128_S1x128 (ix2 0 j) = v (ix1 j) := by
  refine (shapeCast_addUnit_apply ![128] v shapeCasts_S128_S1x128 (ix2 0 j)).trans ?_
  exact congrArg v (funext fun a => by match a with | ⟨0, _⟩ => rfl)

/-- The sum of a 5000×128 block down its rows, at column `j`. -/
theorem colsum_at (x : FVec Ideal S5000x128 .f32) (hφ : FKind.Formats .f32)
    (hacc : (0x00000000#32 : BitVec FTy.f32.bits) = FKind.add.neutral .f32 hφ) (j : Fin 128) :
    multiReduction .add [0] S128 x 0x00000000#32 reduces_S5000x128_S128 hφ hacc (ix1 j) = ∑ r : Fin 5000, x (ix2 r j) := by
  refine (Ideal.multiReduction_add_single x 0x00000000#32 reduces_S5000x128_S128 hφ hacc (ix1 j)).trans ?_
  refine Finset.sum_congr rfl fun r _ => congrArg x ?_
  funext c; apply Fin.ext
  match c with
  | ⟨0, _⟩ => rfl
  | ⟨1, _⟩ => rfl

/-- The block of pre-activations the body stores, at row `r` and column `j` of the block: the two gathered rows added,
    plus the edge features times the weight plus the bias. -/
theorem pay3_at (v3 : Vec Ideal S5000x32 .f32) (v5 : Vec Ideal S32x128 .f32) (v8 : Vec Ideal S1x128 .f32)
    (v12 v14 : Vec Ideal S5000x128 .f32) (r : Fin 5000) (j : Fin 128) :
    k1_pay3 v3 v5 v8 v12 v14 (ix2 r j)
      = (v12 (ix2 r j) + v14 (ix2 r j)) + ((∑ k : Fin 32, v3 (ix2 r k) * v5 (ix2 k j)) + v8 (ix2 0 j)) := by
  unfold k1_pay3
  refine (addf_apply _ _ _).trans ?_
  refine congrArg₂ (· + ·) ?_ ?_
  · refine (addf_apply _ _ _).trans ?_
    exact congrArg₂ (· + ·) (congrFun (shapeCast_self v12 _) _) (congrFun (shapeCast_self v14 _) _)
  · refine (addf_apply _ _ _).trans ?_
    refine congrArg₂ (· + ·) ?_ ?_
    · exact matmul_at (truncf .bf16 v3 bitsLt_bf16_f32) (truncf .bf16 v5 bitsLt_bf16_f32) r j
    · refine (broadcastTo_apply _ broadcasts_S1x128_S5000x128 (ix2 r j) (ix2 0 j) ?_).trans ?_
      · intro a
        match a with
        | ⟨0, _⟩ => rfl
        | ⟨1, _⟩ => rfl
      · exact congrFun (shapeCast_self v8 _) _

/-- The row of column sums after the body: what it held, plus the block's column sums. -/
theorem pay4_at (v3 : Vec Ideal S5000x32 .f32) (v5 : Vec Ideal S32x128 .f32) (v8 : Vec Ideal S1x128 .f32)
    (v12 v14 : Vec Ideal S5000x128 .f32) (v19 : Vec Ideal S1x128 .f32) (j : Fin 128) :
    k1_pay4 v3 v5 v8 v12 v14 v19 (ix2 0 j) = v19 (ix2 0 j) + ∑ r : Fin 5000, k1_pay3 v3 v5 v8 v12 v14 (ix2 r j) := by
  unfold k1_pay4
  refine (addf_apply _ _ _).trans ?_
  refine congrArg₂ (· + ·) (congrFun (shapeCast_self v19 _) _) ?_
  refine (row_of_vec _ j).trans ?_
  exact colsum_at _ _ _ j

/-- The row of column sums of squares after the body: what it held, plus the block's column sums of squares. -/
theorem pay5_at (v3 : Vec Ideal S5000x32 .f32) (v5 : Vec Ideal S32x128 .f32) (v8 : Vec Ideal S1x128 .f32)
    (v12 v14 : Vec Ideal S5000x128 .f32) (v25 : Vec Ideal S1x128 .f32) (j : Fin 128) :
    k1_pay5 v3 v5 v8 v12 v14 v25 (ix2 0 j)
      = v25 (ix2 0 j) + ∑ r : Fin 5000, k1_pay3 v3 v5 v8 v12 v14 (ix2 r j) * k1_pay3 v3 v5 v8 v12 v14 (ix2 r j) := by
  unfold k1_pay5
  refine (addf_apply _ _ _).trans ?_
  refine congrArg₂ (· + ·) (congrFun (shapeCast_self v25 _) _) ?_
  refine (row_of_vec _ j).trans ?_
  exact colsum_at _ _ _ j

/-- The row the first point stores before anything else is zero. -/
theorem pay1_at (j : S1x128.Idx) : k1_pay1 (F := Ideal) j = 0 := Ideal.ofBits_zero_f32
theorem pay2_at (j : S1x128.Idx) : k1_pay2 (F := Ideal) j = 0 := Ideal.ofBits_zero_f32

/-! ## What each control case leaves in each output, as the body's arithmetic of the blocks it loaded -/

section Pieces
variable {F : FTy → Type} [FloatOps F]

theorem hz2 : (![0, 0] : Fin 2 → Nat) = fun _ => 0 := funext fun a => by match a with | ⟨0, _⟩ => rfl | ⟨1, _⟩ => rfl

/-- At the first point the block of pre-activations is the one covering store's payload. -/
theorem piece_A_5 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S5000x32 .f32) (h3 : a3.IsWhole) (a4 : Memref sig .tc .vmem S32x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond1_0 i)
    (x0 x1 : Vec F S5000x128 .f32) (x2 : Vec F S5000x32 .f32) (x3 : Vec F S32x128 .f32) (x4 : Vec F S1x128 .f32) :
    out1_A_5 c i a1 h1 a2 h2 a3 h3 a4 h4 a5 h5 a6 h6 a7 h7 a8 h8 hc x0 x1 x2 x3 x4 = k1_pay3 x2 x3 x4 x0 x1 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero hz2]
  simp only [View.readAt_eq_ld, h1.read_unread, h2.read_unread, h3.read_unread, h4.read_unread, h5.read_unread,
    View.ld_unit_zero (S := S5000x128) hz2, View.ld_unit_zero (S := S5000x32) hz2, View.ld_unit_zero (S := S32x128) hz2,
    View.ld_unit_zero (S := S1x128) hz2]

/-- At the first point the row of sums is first set to zero, then read back and the block's column sums added. -/
theorem piece_A_6 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S5000x32 .f32) (h3 : a3.IsWhole) (a4 : Memref sig .tc .vmem S32x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond1_0 i)
    (x0 x1 : Vec F S5000x128 .f32) (x2 : Vec F S5000x32 .f32) (x3 : Vec F S32x128 .f32) (x4 : Vec F S1x128 .f32) :
    out1_A_6 c i a1 h1 a2 h2 a3 h3 a4 h4 a5 h5 a6 h6 a7 h7 a8 h8 hc x0 x1 x2 x3 x4 = k1_pay4 x2 x3 x4 x0 x1 (k1_pay1 (F := F)) := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz2]
  simp only [View.readAt_eq_ld, h1.read_unread, h2.read_unread, h3.read_unread, h4.read_unread, h5.read_unread,
    View.ld_unit_zero (S := S5000x128) hz2, View.ld_unit_zero (S := S5000x32) hz2, View.ld_unit_zero (S := S32x128) hz2,
    View.ld_unit_zero (S := S1x128) hz2, View.readCov_unit_zero (S := S1x128) _ hz2]

/-- Likewise the row of sums of squares. -/
theorem piece_A_7 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S5000x32 .f32) (h3 : a3.IsWhole) (a4 : Memref sig .tc .vmem S32x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : cond1_0 i)
    (x0 x1 : Vec F S5000x128 .f32) (x2 : Vec F S5000x32 .f32) (x3 : Vec F S32x128 .f32) (x4 : Vec F S1x128 .f32) :
    out1_A_7 c i a1 h1 a2 h2 a3 h3 a4 h4 a5 h5 a6 h6 a7 h7 a8 h8 hc x0 x1 x2 x3 x4 = k1_pay5 x2 x3 x4 x0 x1 (k1_pay2 (F := F)) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz2]
  simp only [View.readAt_eq_ld, h1.read_unread, h2.read_unread, h3.read_unread, h4.read_unread, h5.read_unread,
    View.ld_unit_zero (S := S5000x128) hz2, View.ld_unit_zero (S := S5000x32) hz2, View.ld_unit_zero (S := S32x128) hz2,
    View.ld_unit_zero (S := S1x128) hz2, View.readCov_unit_zero (S := S1x128) _ hz2]

/-- At every later point the block of pre-activations is again the one covering store's payload. -/
theorem piece_B_5 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S5000x32 .f32) (h3 : a3.IsWhole) (a4 : Memref sig .tc .vmem S32x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond1_0 i)
    (x0 x1 : Vec F S5000x128 .f32) (x2 : Vec F S5000x32 .f32) (x3 : Vec F S32x128 .f32) (x4 : Vec F S1x128 .f32) (xo6 xo7 : Vec F S1x128 .f32) :
    out1_B_5 c i a1 h1 a2 h2 a3 h3 a4 h4 a5 h5 a6 h6 a7 h7 a8 h8 hc x0 x1 x2 x3 x4 xo6 xo7 = k1_pay3 x2 x3 x4 x0 x1 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  sl_unfold_words
  rw [View.canon_unit_zero hz2]
  simp only [View.readAt_eq_ld, h1.read_unread, h2.read_unread, h3.read_unread, h4.read_unread, h5.read_unread,
    View.ld_unit_zero (S := S5000x128) hz2, View.ld_unit_zero (S := S5000x32) hz2, View.ld_unit_zero (S := S32x128) hz2,
    View.ld_unit_zero (S := S1x128) hz2]

/-- At every later point the row of sums is what the point before left plus the block's column sums. -/
theorem piece_B_6 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S5000x32 .f32) (h3 : a3.IsWhole) (a4 : Memref sig .tc .vmem S32x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond1_0 i)
    (x0 x1 : Vec F S5000x128 .f32) (x2 : Vec F S5000x32 .f32) (x3 : Vec F S32x128 .f32) (x4 : Vec F S1x128 .f32) (xo6 xo7 : Vec F S1x128 .f32) :
    out1_B_6 c i a1 h1 a2 h2 a3 h3 a4 h4 a5 h5 a6 h6 a7 h7 a8 h8 hc x0 x1 x2 x3 x4 xo6 xo7 = k1_pay4 x2 x3 x4 x0 x1 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  sl_unfold_words
  rw [View.canon_unit_zero hz2]
  simp only [View.readAt_eq_ld, h1.read_unread, h2.read_unread, h3.read_unread, h4.read_unread, h5.read_unread,
    View.ld_unit_zero (S := S5000x128) hz2, View.ld_unit_zero (S := S5000x32) hz2, View.ld_unit_zero (S := S32x128) hz2,
    View.ld_unit_zero (S := S1x128) hz2, h7.read_unread, h8.read_unread]

/-- Likewise the row of sums of squares. -/
theorem piece_B_7 (c : Dev nD) (i : grid1.Coords)
    (a1 : Memref sig .tc .vmem S5000x128 .f32) (h1 : a1.IsWhole) (a2 : Memref sig .tc .vmem S5000x128 .f32) (h2 : a2.IsWhole)
    (a3 : Memref sig .tc .vmem S5000x32 .f32) (h3 : a3.IsWhole) (a4 : Memref sig .tc .vmem S32x128 .f32) (h4 : a4.IsWhole)
    (a5 : Memref sig .tc .vmem S1x128 .f32) (h5 : a5.IsWhole) (a6 : Memref sig .tc .vmem S5000x128 .f32) (h6 : a6.IsWhole)
    (a7 : Memref sig .tc .vmem S1x128 .f32) (h7 : a7.IsWhole) (a8 : Memref sig .tc .vmem S1x128 .f32) (h8 : a8.IsWhole) (hc : ¬cond1_0 i)
    (x0 x1 : Vec F S5000x128 .f32) (x2 : Vec F S5000x32 .f32) (x3 : Vec F S32x128 .f32) (x4 : Vec F S1x128 .f32) (xo6 xo7 : Vec F S1x128 .f32) :
    out1_B_7 c i a1 h1 a2 h2 a3 h3 a4 h4 a5 h5 a6 h6 a7 h7 a8 h8 hc x0 x1 x2 x3 x4 xo6 xo7 = k1_pay5 x2 x3 x4 x0 x1 xo7 := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero hz2]
  simp only [View.readAt_eq_ld, h1.read_unread, h2.read_unread, h3.read_unread, h4.read_unread, h5.read_unread,
    View.ld_unit_zero (S := S5000x128) hz2, View.ld_unit_zero (S := S5000x32) hz2, View.ld_unit_zero (S := S32x128) hz2,
    View.ld_unit_zero (S := S1x128) hz2, h7.read_unread, h8.read_unread]

end Pieces

variable (V : (c : Dev nD) → (b : Ref sig .tc) → Buf (Elt Ideal) ((c : Thread nD τ).loc b))

/-- The five input arrays as the launch finds them, at their literal types. -/
abbrev hs (c : Dev nD) : S800000x128.Idx → EReal := V c (Pipeline.arrRef spec1 0)
abbrev hd (c : Dev nD) : S800000x128.Idx → EReal := V c (Pipeline.arrRef spec1 1)
abbrev ef (c : Dev nD) : S800000x32.Idx → EReal := V c (Pipeline.arrRef spec1 2)
abbrev we (c : Dev nD) : S32x128.Idx → EReal := V c (Pipeline.arrRef spec1 3)
abbrev be (c : Dev nD) : S1x128.Idx → EReal := V c (Pipeline.arrRef spec1 4)

/-- An edge's pre-activation from those arrays. -/
def m (c : Dev nD) (e : Fin 800000) (j : Fin 128) : EReal :=
  (hs V c (ix2 e j) + hd V c (ix2 e j)) + ((∑ k : Fin 32, ef V c (ix2 e k) * we V c (ix2 k j)) + be V c (ix2 0 j))

/-- The three output arrays after the run, at their literal types. -/
abbrev mArr (c : Dev nD) : S800000x128.Idx → EReal := (dat1 (F := Ideal) V c).arrAt 5 cfg1.N
abbrev sumArr (c : Dev nD) : S1x128.Idx → EReal := (dat1 (F := Ideal) V c).arrAt 6 cfg1.N
abbrev sqArr (c : Dev nD) : S1x128.Idx → EReal := (dat1 (F := Ideal) V c).arrAt 7 cfg1.N

/-! ## The blocks a point reads, as rows of the arrays -/

/-- Where the printed index maps put each window's block: windows 0, 1, 2 and 5 at block row `t`, the small arrays'
    windows at the origin. Decided once over the 160 points. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem point_lt (t : Fin cfg1.N) : t.val < 160 := lt_of_lt_of_eq t.isLt N_1

/-- Row `r` of block `s` is row `5000·s + r` of the array. -/
def rowOf (s : ℕ) (hs : s < 160) (r : Fin 5000) : Fin 800000 := ⟨5000 * s + r.val, by omega⟩

/-- The input blocks at a point, at their literal types. -/
abbrev blk0 (c : Dev nD) (t : Fin cfg1.N) : Vec Ideal S5000x128 .f32 := iblk1 (F := Ideal) V c 0 t
abbrev blk1 (c : Dev nD) (t : Fin cfg1.N) : Vec Ideal S5000x128 .f32 := iblk1 (F := Ideal) V c 1 t
abbrev blk2 (c : Dev nD) (t : Fin cfg1.N) : Vec Ideal S5000x32 .f32 := iblk1 (F := Ideal) V c 2 t
abbrev blk3 (c : Dev nD) (t : Fin cfg1.N) : Vec Ideal S32x128 .f32 := iblk1 (F := Ideal) V c 3 t
abbrev blk4 (c : Dev nD) (t : Fin cfg1.N) : Vec Ideal S1x128 .f32 := iblk1 (F := Ideal) V c 4 t

theorem blk0_at (c : Dev nD) (t : Fin cfg1.N) (r : Fin 5000) (j : Fin 128) :
    blk0 V c t (ix2 r j) = hs V c (ix2 (rowOf t.val (point_lt t) r) j) := by
  obtain ⟨e0, e1, -⟩ := index_facts t
  show hs V c (((cfg1.win 0).blk t).view.emb (ix2 r j)) = hs V c (ix2 (rowOf t.val (point_lt t) r) j)
  refine congrArg (hs V c) (funext fun a => Fin.ext ?_)
  match a with
  | ⟨0, _⟩ => show win1_0.index t (0 : Fin 2) * 5000 + 1 * r.val = 5000 * t.val + r.val; omega
  | ⟨1, _⟩ => show win1_0.index t (1 : Fin 2) * 128 + 1 * j.val = j.val; omega

theorem blk1_at (c : Dev nD) (t : Fin cfg1.N) (r : Fin 5000) (j : Fin 128) :
    blk1 V c t (ix2 r j) = hd V c (ix2 (rowOf t.val (point_lt t) r) j) := by
  obtain ⟨-, -, e0, e1, -⟩ := index_facts t
  show hd V c (((cfg1.win 1).blk t).view.emb (ix2 r j)) = hd V c (ix2 (rowOf t.val (point_lt t) r) j)
  refine congrArg (hd V c) (funext fun a => Fin.ext ?_)
  match a with
  | ⟨0, _⟩ => show win1_1.index t (0 : Fin 2) * 5000 + 1 * r.val = 5000 * t.val + r.val; omega
  | ⟨1, _⟩ => show win1_1.index t (1 : Fin 2) * 128 + 1 * j.val = j.val; omega

theorem blk2_at (c : Dev nD) (t : Fin cfg1.N) (r : Fin 5000) (k : Fin 32) :
    blk2 V c t (ix2 r k) = ef V c (ix2 (rowOf t.val (point_lt t) r) k) := by
  obtain ⟨-, -, -, -, e0, e1, -⟩ := index_facts t
  show ef V c (((cfg1.win 2).blk t).view.emb (ix2 r k)) = ef V c (ix2 (rowOf t.val (point_lt t) r) k)
  refine congrArg (ef V c) (funext fun a => Fin.ext ?_)
  match a with
  | ⟨0, _⟩ => show win1_2.index t (0 : Fin 2) * 5000 + 1 * r.val = 5000 * t.val + r.val; omega
  | ⟨1, _⟩ => show win1_2.index t (1 : Fin 2) * 32 + 1 * k.val = k.val; omega

theorem blk3_at (c : Dev nD) (t : Fin cfg1.N) (k : Fin 32) (j : Fin 128) :
    blk3 V c t (ix2 k j) = we V c (ix2 k j) := by
  obtain ⟨-, -, -, -, -, -, e0, e1, -⟩ := index_facts t
  show we V c (((cfg1.win 3).blk t).view.emb (ix2 k j)) = we V c (ix2 k j)
  refine congrArg (we V c) (funext fun a => Fin.ext ?_)
  match a with
  | ⟨0, _⟩ => show win1_3.index t (0 : Fin 2) * 32 + 1 * k.val = k.val; omega
  | ⟨1, _⟩ => show win1_3.index t (1 : Fin 2) * 128 + 1 * j.val = j.val; omega

theorem blk4_at (c : Dev nD) (t : Fin cfg1.N) (j : Fin 128) :
    blk4 V c t (ix2 0 j) = be V c (ix2 0 j) := by
  obtain ⟨-, -, -, -, -, -, -, -, e0, e1, -⟩ := index_facts t
  show be V c (((cfg1.win 4).blk t).view.emb (ix2 0 j)) = be V c (ix2 0 j)
  refine congrArg (be V c) (funext fun a => Fin.ext ?_)
  match a with
  | ⟨0, _⟩ => show win1_4.index t (0 : Fin 2) * 1 + 1 * 0 = 0; omega
  | ⟨1, _⟩ => show win1_4.index t (1 : Fin 2) * 128 + 1 * j.val = j.val; omega

/-- The block of pre-activations a point computes, at its literal type. -/
abbrev mblk (c : Dev nD) (t : Fin cfg1.N) : Vec Ideal S5000x128 .f32 :=
  k1_pay3 (blk2 V c t) (blk3 V c t) (blk4 V c t) (blk0 V c t) (blk1 V c t)

/-- It holds the pre-activations of the point's 5000 edges. -/
theorem mblk_at (c : Dev nD) (t : Fin cfg1.N) (r : Fin 5000) (j : Fin 128) :
    mblk V c t (ix2 r j) = m V c (rowOf t.val (point_lt t) r) j := by
  refine (pay3_at (blk2 V c t) (blk3 V c t) (blk4 V c t) (blk0 V c t) (blk1 V c t) r j).trans ?_
  unfold m
  rw [blk0_at, blk1_at, blk4_at]
  refine congrArg₂ (· + ·) rfl (congrArg₂ (· + ·) (Finset.sum_congr rfl fun k _ => ?_) rfl)
  rw [blk2_at, blk3_at]

/-! ## What the three outputs' buffers hold after each point -/

abbrev out5 (c : Dev nD) (n : ℕ) (hn : n < cfg1.N) : Vec Ideal S5000x128 .f32 := (outsAt1 (F := Ideal) V c n hn).1
abbrev row6 (c : Dev nD) (n : ℕ) (hn : n < cfg1.N) : Vec Ideal S1x128 .f32 := (outsAt1 (F := Ideal) V c n hn).2.1
abbrev row7 (c : Dev nD) (n : ℕ) (hn : n < cfg1.N) : Vec Ideal S1x128 .f32 := (outsAt1 (F := Ideal) V c n hn).2.2

theorem pred_lt (t : Fin cfg1.N) : t.val - 1 < cfg1.N := Nat.lt_of_le_of_lt (Nat.sub_le _ _) t.isLt

/-- After every point the first output's buffer holds that point's block of pre-activations. -/
theorem out5_eq (c : Dev nD) (t : Fin cfg1.N) : out5 V c t.val t.isLt = mblk V c t := by
  show (outsAt1 (F := Ideal) V c t.val t.isLt).1 = _
  by_cases h0 : t.val % 160 = 0
  · rw [outsAt1_A V c t h0]
    dsimp only
    exact piece_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (blk0 V c t) (blk1 V c t) (blk2 V c t) (blk3 V c t) (blk4 V c t)
  · rw [outsAt1_B V c t h0]
    dsimp only
    exact piece_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (blk0 V c t) (blk1 V c t) (blk2 V c t) (blk3 V c t) (blk4 V c t)
      (row6 V c (t.val - 1) (pred_lt t)) (row7 V c (t.val - 1) (pred_lt t))

/-- At the first point the row of sums is zero plus the block's column sums … -/
theorem row6_first (c : Dev nD) (t : Fin cfg1.N) (h0 : t.val % 160 = 0) :
    row6 V c t.val t.isLt = k1_pay4 (blk2 V c t) (blk3 V c t) (blk4 V c t) (blk0 V c t) (blk1 V c t) (k1_pay1 (F := Ideal)) := by
  show (outsAt1 (F := Ideal) V c t.val t.isLt).2.1 = _
  rw [outsAt1_A V c t h0]
  dsimp only
  exact piece_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (blk0 V c t) (blk1 V c t) (blk2 V c t) (blk3 V c t) (blk4 V c t)

/-- … and at every later point what the point before left plus the block's column sums. -/
theorem row6_next (c : Dev nD) (t : Fin cfg1.N) (h0 : ¬t.val % 160 = 0) :
    row6 V c t.val t.isLt
      = k1_pay4 (blk2 V c t) (blk3 V c t) (blk4 V c t) (blk0 V c t) (blk1 V c t) (row6 V c (t.val - 1) (pred_lt t)) := by
  show (outsAt1 (F := Ideal) V c t.val t.isLt).2.1 = _
  rw [outsAt1_B V c t h0]
  dsimp only
  exact piece_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (blk0 V c t) (blk1 V c t) (blk2 V c t) (blk3 V c t) (blk4 V c t)
    (row6 V c (t.val - 1) (pred_lt t)) (row7 V c (t.val - 1) (pred_lt t))

theorem row7_first (c : Dev nD) (t : Fin cfg1.N) (h0 : t.val % 160 = 0) :
    row7 V c t.val t.isLt = k1_pay5 (blk2 V c t) (blk3 V c t) (blk4 V c t) (blk0 V c t) (blk1 V c t) (k1_pay2 (F := Ideal)) := by
  show (outsAt1 (F := Ideal) V c t.val t.isLt).2.2 = _
  rw [outsAt1_A V c t h0]
  dsimp only
  exact piece_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (blk0 V c t) (blk1 V c t) (blk2 V c t) (blk3 V c t) (blk4 V c t)

theorem row7_next (c : Dev nD) (t : Fin cfg1.N) (h0 : ¬t.val % 160 = 0) :
    row7 V c t.val t.isLt
      = k1_pay5 (blk2 V c t) (blk3 V c t) (blk4 V c t) (blk0 V c t) (blk1 V c t) (row7 V c (t.val - 1) (pred_lt t)) := by
  show (outsAt1 (F := Ideal) V c t.val t.isLt).2.2 = _
  rw [outsAt1_B V c t h0]
  dsimp only
  exact piece_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (blk0 V c t) (blk1 V c t) (blk2 V c t) (blk3 V c t) (blk4 V c t)
    (row6 V c (t.val - 1) (pred_lt t)) (row7 V c (t.val - 1) (pred_lt t))

/-! ## The two rows as running sums over the blocks -/

/-- Column `j`'s sum over block `s` of rows (zero past the last block). -/
def blockSum (c : Dev nD) (j : Fin 128) (s : ℕ) : EReal :=
  if h : s < 160 then ∑ r : Fin 5000, m V c (rowOf s h r) j else 0

/-- Column `j`'s sum of squares over block `s` of rows. -/
def blockSq (c : Dev nD) (j : Fin 128) (s : ℕ) : EReal :=
  if h : s < 160 then ∑ r : Fin 5000, m V c (rowOf s h r) j * m V c (rowOf s h r) j else 0

theorem colsum_mblk (c : Dev nD) (t : Fin cfg1.N) (j : Fin 128) :
    ∑ r : Fin 5000, mblk V c t (ix2 r j) = blockSum V c j t.val := by
  unfold blockSum
  rw [dif_pos (point_lt t)]
  exact Finset.sum_congr rfl fun r _ => mblk_at V c t r j

theorem colsq_mblk (c : Dev nD) (t : Fin cfg1.N) (j : Fin 128) :
    ∑ r : Fin 5000, mblk V c t (ix2 r j) * mblk V c t (ix2 r j) = blockSq V c j t.val := by
  unfold blockSq
  rw [dif_pos (point_lt t)]
  exact Finset.sum_congr rfl fun r _ => by rw [mblk_at V c t r j]

/-- After point `n` the row of sums holds the column sums of the first `n + 1` blocks. -/
theorem row6_at (c : Dev nD) (j : Fin 128) : ∀ (n : ℕ) (hn : n < cfg1.N),
    row6 V c n hn (ix2 0 j) = ∑ s ∈ Finset.range (n + 1), blockSum V c j s
  | 0, hn => by
    refine (congrFun (row6_first V c ⟨0, hn⟩ rfl) (ix2 0 j)).trans ?_
    rw [pay4_at, pay1_at, zero_add, Finset.sum_range_one]
    exact colsum_mblk V c ⟨0, hn⟩ j
  | n + 1, hn => by
    have hN := point_lt ⟨n + 1, hn⟩
    have hB : ¬(⟨n + 1, hn⟩ : Fin cfg1.N).val % 160 = 0 := by dsimp only at hN ⊢; omega
    refine (congrFun (row6_next V c ⟨n + 1, hn⟩ hB) (ix2 0 j)).trans ?_
    rw [pay4_at, Finset.sum_range_succ _ (n + 1)]
    exact congrArg₂ (· + ·) (row6_at c j n _) (colsum_mblk V c ⟨n + 1, hn⟩ j)

/-- After point `n` the row of sums of squares holds those of the first `n + 1` blocks. -/
theorem row7_at (c : Dev nD) (j : Fin 128) : ∀ (n : ℕ) (hn : n < cfg1.N),
    row7 V c n hn (ix2 0 j) = ∑ s ∈ Finset.range (n + 1), blockSq V c j s
  | 0, hn => by
    refine (congrFun (row7_first V c ⟨0, hn⟩ rfl) (ix2 0 j)).trans ?_
    rw [pay5_at, pay2_at, zero_add, Finset.sum_range_one]
    exact colsq_mblk V c ⟨0, hn⟩ j
  | n + 1, hn => by
    have hN := point_lt ⟨n + 1, hn⟩
    have hB : ¬(⟨n + 1, hn⟩ : Fin cfg1.N).val % 160 = 0 := by dsimp only at hN ⊢; omega
    refine (congrFun (row7_next V c ⟨n + 1, hn⟩ hB) (ix2 0 j)).trans ?_
    rw [pay5_at, Finset.sum_range_succ _ (n + 1)]
    exact congrArg₂ (· + ·) (row7_at c j n _) (colsq_mblk V c ⟨n + 1, hn⟩ j)

/-- A sum over all 800000 rows is the sum over the 160 blocks of each block's sum over its 5000 rows. -/
theorem sum_blocks (f : Fin 800000 → EReal) :
    ∑ s ∈ Finset.range 160, (if h : s < 160 then ∑ r : Fin 5000, f (rowOf s h r) else 0) = ∑ e : Fin 800000, f e := by
  rw [Finset.sum_range (fun s => if h : s < 160 then ∑ r : Fin 5000, f (rowOf s h r) else 0)]
  have hin : ∀ s : Fin 160, (if h : s.val < 160 then ∑ r : Fin 5000, f (rowOf s.val h r) else 0)
      = ∑ r : Fin 5000, f (rowOf s.val s.isLt r) := fun s => dif_pos s.isLt
  rw [Finset.sum_congr rfl fun s _ => hin s,
    ← Fintype.sum_prod_type (f := fun p : Fin 160 × Fin 5000 => f (rowOf p.1.val p.1.isLt p.2))]
  refine Fintype.sum_equiv ((finProdFinEquiv (m := 160) (n := 5000)).trans (finCongr (by norm_num))) _ _ fun p => ?_
  refine congrArg f (Fin.ext ?_)
  show 5000 * p.1.val + p.2.val = p.2.val + 5000 * p.1.val
  omega

/-! ## From blocks to the arrays -/

/-- The array of every edge's pre-activation. -/
def mAll (c : Dev nD) : S800000x128.Idx → EReal := fun i => m V c (i 0) (i 1)

theorem last_lt : 159 < cfg1.N := lt_of_lt_of_eq (by decide : 159 < 160) N_1.symm

theorem row6_congr (c : Dev nD) {n n' : ℕ} (hn : n < cfg1.N) (hn' : n' < cfg1.N) (e : n = n') :
    row6 V c n hn = row6 V c n' hn' := by subst e; rfl
theorem row7_congr (c : Dev nD) {n n' : ℕ} (hn : n < cfg1.N) (hn' : n' < cfg1.N) (e : n = n') :
    row7 V c n hn = row7 V c n' hn' := by subst e; rfl

/-- What point `t` writes back to the first output is rows `5000·t … 5000·t + 4999` of the array of pre-activations. -/
theorem flushed5_eq (c : Dev nD) (t : Fin cfg1.N) :
    (dat1 (F := Ideal) V c).flushed 5 t = ((cfg1.win 5).blk t).view.read (Elt Ideal) (mAll V c) := by
  show (cfg1.win 5).cut (grid1.coords t) ((dat1 (F := Ideal) V c).after 5 t) = _
  rw [after1_5]
  show out5 V c t.val t.isLt = fun y : S5000x128.Idx => mAll V c (((cfg1.win 5).blk t).view.emb y)
  rw [out5_eq]
  funext y
  obtain ⟨r, j, rfl⟩ : ∃ (r : Fin 5000) (j : Fin 128), y = ix2 r j := ⟨y 0, y 1, eq_ix2 y⟩
  rw [mblk_at]
  obtain ⟨-, -, -, -, -, -, -, -, -, -, e0, e1, -⟩ := index_facts t
  have hemb : ((cfg1.win 5).blk t).view.emb (ix2 r j) = ix2 (rowOf t.val (point_lt t) r) j :=
    funext fun a => Fin.ext (by
      match a with
      | ⟨0, _⟩ => show win1_5.index t (0 : Fin 2) * 5000 + 1 * r.val = 5000 * t.val + r.val; omega
      | ⟨1, _⟩ => show win1_5.index t (1 : Fin 2) * 128 + 1 * j.val = j.val; omega)
  rw [hemb]
  rfl

/-- The second output is written back once, after the last point, with the whole row of sums. -/
theorem flushed6_eq (c : Dev nD) (t : Fin cfg1.N) (hf : (cfg1.win 6).flush t = true) :
    (dat1 (F := Ideal) V c).flushed 6 t = ((cfg1.win 6).blk t).view.read (Elt Ideal) (row6 V c 159 last_lt) := by
  have h159 : t.val = 159 := by have h1 := (flush1_6 t).mp hf; have h2 := point_lt t; omega
  show (cfg1.win 6).cut (grid1.coords t) ((dat1 (F := Ideal) V c).after 6 t) = _
  rw [after1_6]
  show row6 V c t.val t.isLt = fun y : S1x128.Idx => row6 V c 159 last_lt (((cfg1.win 6).blk t).view.emb y)
  rw [row6_congr V c t.isLt last_lt h159]
  obtain ⟨-, -, -, -, -, -, -, -, -, -, -, -, e0, e1, -⟩ := index_facts t
  funext y
  refine congrArg (row6 V c 159 last_lt) (funext fun a => Fin.ext ?_)
  match a with
  | ⟨0, _⟩ => show (y 0).val = win1_6.index t (0 : Fin 2) * 1 + 1 * (y 0).val; omega
  | ⟨1, _⟩ => show (y 1).val = win1_6.index t (1 : Fin 2) * 128 + 1 * (y 1).val; omega

/-- Likewise the third output, with the whole row of sums of squares. -/
theorem flushed7_eq (c : Dev nD) (t : Fin cfg1.N) (hf : (cfg1.win 7).flush t = true) :
    (dat1 (F := Ideal) V c).flushed 7 t = ((cfg1.win 7).blk t).view.read (Elt Ideal) (row7 V c 159 last_lt) := by
  have h159 : t.val = 159 := by have h1 := (flush1_7 t).mp hf; have h2 := point_lt t; omega
  show (cfg1.win 7).cut (grid1.coords t) ((dat1 (F := Ideal) V c).after 7 t) = _
  rw [after1_7]
  show row7 V c t.val t.isLt = fun y : S1x128.Idx => row7 V c 159 last_lt (((cfg1.win 7).blk t).view.emb y)
  rw [row7_congr V c t.isLt last_lt h159]
  obtain ⟨-, -, -, -, -, -, -, -, -, -, -, -, -, -, e0, e1⟩ := index_facts t
  funext y
  refine congrArg (row7 V c 159 last_lt) (funext fun a => Fin.ext ?_)
  match a with
  | ⟨0, _⟩ => show (y 0).val = win1_7.index t (0 : Fin 2) * 1 + 1 * (y 0).val; omega
  | ⟨1, _⟩ => show (y 1).val = win1_7.index t (1 : Fin 2) * 128 + 1 * (y 1).val; omega

/-- An index of an output array is in point `t`'s block iff each coordinate is in the block's range on its axis. -/
theorem mem_blk5 (t : Fin cfg1.N) (i : S800000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v9_0).slice (win1_5.rect t)).set ↔ _
  rw [View.set_slice_whole, Rect.mem_set_unit]
  exact Iff.rfl
theorem mem_blk6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v9_1).slice (win1_6.rect t)).set ↔ _
  rw [View.set_slice_whole, Rect.mem_set_unit]
  exact Iff.rfl
theorem mem_blk7 (t : Fin cfg1.N) (i : S1x128.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v9_2).slice (win1_7.rect t)).set ↔ _
  rw [View.set_slice_whole, Rect.mem_set_unit]
  exact Iff.rfl

/-- Row `e` of the first output lies in the block of point `e / 5000`. -/
theorem cover5 (i : S800000x128.Idx) : ∃ t : Fin cfg1.N, (cfg1.win 5).flush t = true ∧ i ∈ ((cfg1.win 5).blk t).view.set := by
  have h0 : (i 0).val < 800000 := idx2_lt0 i
  have h1 : (i 1).val < 128 := idx2_lt1 i
  refine ⟨⟨(i 0).val / 5000, lt_of_lt_of_eq (by omega : (i 0).val / 5000 < 160) N_1.symm⟩, flush1_5 _, ?_⟩
  rw [mem_blk5]
  obtain ⟨-, -, -, -, -, -, -, -, -, -, e0, e1, -⟩ := index_facts ⟨(i 0).val / 5000, lt_of_lt_of_eq (by omega : (i 0).val / 5000 < 160) N_1.symm⟩
  intro a
  match a with
  | ⟨0, _⟩ =>
    show win1_5.index _ (0 : Fin 2) * 5000 ≤ (i 0).val ∧ (i 0).val < win1_5.index _ (0 : Fin 2) * 5000 + 5000
    rw [e0]; dsimp only; omega
  | ⟨1, _⟩ =>
    show win1_5.index _ (1 : Fin 2) * 128 ≤ (i 1).val ∧ (i 1).val < win1_5.index _ (1 : Fin 2) * 128 + 128
    rw [e1]; omega

theorem cover6 (i : S1x128.Idx) : ∃ t : Fin cfg1.N, (cfg1.win 6).flush t = true ∧ i ∈ ((cfg1.win 6).blk t).view.set := by
  have h0 : (i 0).val < 1 := idx2_lt0 i
  have h1 : (i 1).val < 128 := idx2_lt1 i
  refine ⟨⟨159, last_lt⟩, (flush1_6 _).mpr rfl, ?_⟩
  rw [mem_blk6]
  obtain ⟨-, -, -, -, -, -, -, -, -, -, -, -, e0, e1, -⟩ := index_facts ⟨159, last_lt⟩
  intro a
  match a with
  | ⟨0, _⟩ =>
    show win1_6.index _ (0 : Fin 2) * 1 ≤ (i 0).val ∧ (i 0).val < win1_6.index _ (0 : Fin 2) * 1 + 1
    rw [e0]; omega
  | ⟨1, _⟩ =>
    show win1_6.index _ (1 : Fin 2) * 128 ≤ (i 1).val ∧ (i 1).val < win1_6.index _ (1 : Fin 2) * 128 + 128
    rw [e1]; omega

theorem cover7 (i : S1x128.Idx) : ∃ t : Fin cfg1.N, (cfg1.win 7).flush t = true ∧ i ∈ ((cfg1.win 7).blk t).view.set := by
  have h0 : (i 0).val < 1 := idx2_lt0 i
  have h1 : (i 1).val < 128 := idx2_lt1 i
  refine ⟨⟨159, last_lt⟩, (flush1_7 _).mpr rfl, ?_⟩
  rw [mem_blk7]
  obtain ⟨-, -, -, -, -, -, -, -, -, -, -, -, -, -, e0, e1⟩ := index_facts ⟨159, last_lt⟩
  intro a
  match a with
  | ⟨0, _⟩ =>
    show win1_7.index _ (0 : Fin 2) * 1 ≤ (i 0).val ∧ (i 0).val < win1_7.index _ (0 : Fin 2) * 1 + 1
    rw [e0]; omega
  | ⟨1, _⟩ =>
    show win1_7.index _ (1 : Fin 2) * 128 ≤ (i 1).val ∧ (i 1).val < win1_7.index _ (1 : Fin 2) * 128 + 128
    rw [e1]; omega

/-- The first output after the run is the array of pre-activations … -/
theorem final5 (c : Dev nD) : mArr V c = mAll V c :=
  (dat1 (F := Ideal) V c).arrAt_eq_of_cover 5 (mAll V c) (fun t _ => flushed5_eq V c t) cover5
/-- … the second the row of sums after the last point … -/
theorem final6 (c : Dev nD) : sumArr V c = row6 V c 159 last_lt :=
  (dat1 (F := Ideal) V c).arrAt_eq_of_cover 6 (row6 V c 159 last_lt) (flushed6_eq V c) cover6
/-- … and the third the row of sums of squares after the last point. -/
theorem final7 (c : Dev nD) : sqArr V c = row7 V c 159 last_lt :=
  (dat1 (F := Ideal) V c).arrAt_eq_of_cover 7 (row7 V c 159 last_lt) (flushed7_eq V c) cover7

/-- The first output holds every edge's pre-activation. -/
theorem m_apply (c : Dev nD) (e : Fin 800000) (j : Fin 128) : mArr V c (ix2 e j) = m V c e j :=
  congrFun (final5 V c) (ix2 e j)

/-- The second output holds each column's sum over all edges. -/
theorem sum_apply (c : Dev nD) (j : Fin 128) : sumArr V c (ix2 0 j) = ∑ e : Fin 800000, m V c e j := by
  refine (congrFun (final6 V c) (ix2 0 j)).trans ?_
  rw [row6_at V c j 159 last_lt]
  unfold blockSum
  exact sum_blocks fun e => m V c e j

/-- The third output holds each column's sum of squares over all edges. -/
theorem sq_apply (c : Dev nD) (j : Fin 128) : sqArr V c (ix2 0 j) = ∑ e : Fin 800000, m V c e j * m V c e j := by
  refine (congrFun (final7 V c) (ix2 0 j)).trans ?_
  rw [row7_at V c j 159 last_lt]
  unfold blockSq
  exact sum_blocks fun e => m V c e j * m V c e j

end Cert.KernelIdeal.Region1

end
-- ==== Proof.Region0.lean ====
/-
  The first launch: what its output array holds after the run, for any contents V the launch is entered from.
  Each grid point takes 5000 rows of the left operand, the whole 64×256 right operand and the 1×256 bias row, and
  writes the 5000×256 block  rows · W + bias. At the extended reals a narrowing of the float format is the identity
  and a matrix product into a zero accumulator is the plain sum over the contracted axis, so entry (n, j) of the
  output array is  Σ_k left(n, k) · right(k, j) + bias(0, j): the ten blocks are ten row ranges of that one array.
-/
import proofs.«410141_j3496103379076_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.ShloMosaic.Pipeline
open Cert.KernelIdeal Cert.KernelIdeal.Gen

variable (V : (c : Dev nD) → (b : Ref sig .tc) → Buf (Elt Ideal) ((c : Thread nD τ).loc b))

/-- The three input arrays as the launch finds them, at their literal types. -/
abbrev lhs (c : Dev nD) : S50000x64.Idx → EReal := V c (Pipeline.arrRef spec0 0)
abbrev rhs (c : Dev nD) : S64x256.Idx → EReal := V c (Pipeline.arrRef spec0 1)
abbrev bias (c : Dev nD) : S1x256.Idx → EReal := V c (Pipeline.arrRef spec0 2)

/-- The output array after the run, at its literal type. -/
abbrev outArr (c : Dev nD) : S50000x256.Idx → EReal := (dat0 (F := Ideal) V c).arrAt 3 cfg0.N

/-! ## The product's operand indices

The product contracts axis 1 of the 5000×64 operand with axis 0 of the 64×256 operand. At output index (r, c) and
contraction position k the left operand is read at (r, k) and the right operand at (k, c): one fact per operand axis. -/

/-- Axis 0 of the left operand is not contracted: it carries the output's row. -/
theorem dot_lhs_0 (j : S5000x256.Idx) (k : dot_S5000x64_S64x256_S5000x256_1_0_0_1_n_n.contr.Idx) :
    (dot_S5000x64_S64x256_S5000x256_1_0_0_1_n_n.lhsIdx j k 0).val = (j 0).val := by
  unfold DotDims.lhsIdx
  rw [dif_neg (show ¬(0 : Fin S5000x64.rank) ∈ dot_S5000x64_S64x256_S5000x256_1_0_0_1_n_n.lhsBatch by decide),
    dif_pos (show (0 : Fin S5000x64.rank) ∈ dot_S5000x64_S64x256_S5000x256_1_0_0_1_n_n.lhsNonContracting by decide)]
  rfl

/-- Axis 1 of the left operand is the contracted one: it carries the contraction position. -/
theorem dot_lhs_1 (j : S5000x256.Idx) (k : dot_S5000x64_S64x256_S5000x256_1_0_0_1_n_n.contr.Idx) :
    (dot_S5000x64_S64x256_S5000x256_1_0_0_1_n_n.lhsIdx j k 1).val = (k ⟨0, by decide⟩).val :=
  dot_S5000x64_S64x256_S5000x256_1_0_0_1_n_n.lhsIdx_val_of_single rfl j k

/-- Axis 0 of the right operand is the contracted one: it carries the contraction position. -/
theorem dot_rhs_0 (j : S5000x256.Idx) (k : dot_S5000x64_S64x256_S5000x256_1_0_0_1_n_n.contr.Idx) :
    (dot_S5000x64_S64x256_S5000x256_1_0_0_1_n_n.rhsIdx j k 0).val = (k ⟨0, by decide⟩).val :=
  dot_S5000x64_S64x256_S5000x256_1_0_0_1_n_n.rhsIdx_val_of_single rfl j k

/-- Axis 1 of the right operand is not contracted: it carries the output's column. -/
theorem dot_rhs_1 (j : S5000x256.Idx) (k : dot_S5000x64_S64x256_S5000x256_1_0_0_1_n_n.contr.Idx) :
    (dot_S5000x64_S64x256_S5000x256_1_0_0_1_n_n.rhsIdx j k 1).val = (j 1).val := by
  unfold DotDims.rhsIdx
  rw [dif_neg (show ¬(1 : Fin S64x256.rank) ∈ dot_S5000x64_S64x256_S5000x256_1_0_0_1_n_n.rhsBatch by decide),
    dif_pos (show (1 : Fin S64x256.rank) ∈ dot_S5000x64_S64x256_S5000x256_1_0_0_1_n_n.rhsNonContracting by decide)]
  rfl

/-- The product into the zero accumulator, read at (p, q): row p of the left operand against column q of the right,
    summed over the 64 contracted positions. The contraction index has one axis of extent 64, so the sum over it is
    the sum over the 64 positions; the accumulator's word is the real number zero. -/
theorem product_apply {φ₁ φ₂ : FTy} (A : FVec Ideal S5000x64 φ₁) (B : FVec Ideal S64x256 φ₂) (p : Fin 5000) (q : Fin 256) :
    matmul (F := Ideal) dot_S5000x64_S64x256_S5000x256_1_0_0_1_n_n none A B (constant (F := Ideal) S5000x256 .f32 0x00000000#32) (ix2 p q)
      = ∑ k : Fin 64, A (ix2 p k) * B (ix2 k q) := by
  show FloatOps.matmul _ none A B _ (ix2 p q) = _
  rw [Ideal.matmul_constant_zero_apply,
    ← Equiv.sum_comp (contrEquiv1 dot_S5000x64_S64x256_S5000x256_1_0_0_1_n_n 64 rfl rfl).symm]
  refine Finset.sum_congr rfl fun k _ => ?_
  have hk := contrEquiv1_symm_val dot_S5000x64_S64x256_S5000x256_1_0_0_1_n_n 64 rfl rfl k
  have hl : dot_S5000x64_S64x256_S5000x256_1_0_0_1_n_n.lhsIdx (ix2 p q)
      ((contrEquiv1 dot_S5000x64_S64x256_S5000x256_1_0_0_1_n_n 64 rfl rfl).symm k) = ix2 p k := by
    funext a; apply Fin.ext
    match a with
    | ⟨0, _⟩ => exact dot_lhs_0 _ _
    | ⟨1, _⟩ => exact (dot_lhs_1 _ _).trans hk
  have hr : dot_S5000x64_S64x256_S5000x256_1_0_0_1_n_n.rhsIdx (ix2 p q)
      ((contrEquiv1 dot_S5000x64_S64x256_S5000x256_1_0_0_1_n_n 64 rfl rfl).symm k) = ix2 k q := by
    funext a; apply Fin.ext
    match a with
    | ⟨0, _⟩ => exact (dot_rhs_0 _ _).trans hk
    | ⟨1, _⟩ => exact dot_rhs_1 _ _
  rw [hl, hr]

/-! ## One block -/

/-- Entry (p, q) of the block the body writes, from the three blocks it reads: the two narrowings and the two casts to
    the same shape are identities, the product is the sum over the contracted axis, and the bias row is repeated down
    the 5000 rows, so every row adds the bias entry of its column. -/
theorem block_apply (x0 : Vec Ideal S5000x64 .f32) (x1 : Vec Ideal S64x256 .f32) (x2 : Vec Ideal S1x256 .f32) (p : Fin 5000) (q : Fin 256) :
    k0_pay1 (F := Ideal) x0 x1 x2 (ix2 p q) = (∑ k : Fin 64, x0 (ix2 p k) * x1 (ix2 k q)) + x2 (ix2 (0 : Fin 1) q) := by
  unfold k0_pay1
  rw [addf_apply, product_apply, broadcastTo_1b_ab_apply, shapeCast_self, shapeCast_self]
  rfl

/-! ## The whole array -/

/-- The whole output as ONE function of the three input arrays: entry (n, j) is row n of the left array against column
    j of the right array, plus the bias entry of column j. Every block a grid point writes is a row range of it. -/
def affineOut (L : S50000x64.Idx → EReal) (R : S64x256.Idx → EReal) (b : S1x256.Idx → EReal) : S50000x256.Idx → EReal :=
  fun i => (∑ k : Fin 64, L (ix2 (⟨(i 0).val, idx2_lt0 i⟩ : Fin 50000) k) * R (ix2 k (⟨(i 1).val, idx2_lt1 i⟩ : Fin 256)))
    + b (ix2 (0 : Fin 1) (⟨(i 1).val, idx2_lt1 i⟩ : Fin 256))

/-- The zero offsets of a whole-buffer access. -/
theorem zero_offsets : (![0, 0] : Fin 2 → Nat) = fun _ => 0 := funext fun a => by fin_cases a <;> rfl

/-- Where each window's block sits at grid point t, decided over the ten points: the left operand's and the output's
    blocks are block-row t, block-column 0; the right operand and the bias row are always their one block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point t writes back is block t of the whole-array function: at entry (p, q) of the block, the left
    operand's block reads array row 5000·t + p, the same row the output block's entry sits in; the right operand's and
    the bias's blocks are the arrays themselves. A block's coordinate in its array is block index × block size + the
    coordinate inside the block, on every axis. -/
theorem written_block (c : Dev nD) (t : Fin cfg0.N) :
    (dat0 (F := Ideal) V c).flushed 3 t
      = ((cfg0.win 3).blk t).view.read (Elt Ideal) (affineOut (lhs V c) (rhs V c) (bias V c)) := by
  show (cfg0.win 3).cut (grid0.coords t) ((dat0 (F := Ideal) V c).after 3 t) = _
  rw [after0_3]
  unfold out0_3
  rw [View.canon_unit_zero zero_offsets]
  simp only [View.ld_unit_zero (S := S5000x64) zero_offsets, View.ld_unit_zero (S := S64x256) zero_offsets,
    View.ld_unit_zero (S := S1x256) zero_offsets]
  obtain ⟨e00, e01, e10, e11, e20, e21, e30, e31⟩ := block_indices t
  funext y
  obtain ⟨p, q, rfl⟩ : ∃ (p : Fin 5000) (q : Fin 256), y = ix2 p q := ⟨y 0, y 1, eq_ix2 y⟩
  refine (block_apply _ _ _ p q).trans ?_
  show _ = affineOut (lhs V c) (rhs V c) (bias V c) (((cfg0.win 3).blk t).view.emb (ix2 p q))
  unfold affineOut
  refine congrArg₂ (· + ·) (Finset.sum_congr rfl fun k _ => congrArg₂ (· * ·) ?_ ?_) ?_
  · -- the left operand's block at (p, k) is the array at (5000·t + p, k)
    show V c (Pipeline.arrRef spec0 0) (((cfg0.win 0).blk t).view.emb (ix2 p k)) = V c (Pipeline.arrRef spec0 0) _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  · -- the right operand's block at (k, q) is the array at (k, q)
    show V c (Pipeline.arrRef spec0 1) (((cfg0.win 1).blk t).view.emb (ix2 k q)) = V c (Pipeline.arrRef spec0 1) _
    refine congrArg _ (funext fun a => Fin.ext ?_)
    match a with
    | ⟨0, _⟩ => show win0_1.index t (0 : Fin 2) * 64 + 1 * k.val = k.val; omega
    | ⟨1, _⟩ => show win0_1.index t (1 : Fin 2) * 256 + 1 * q.val = win0_3.index t (1 : Fin 2) * 256 + 1 * q.val; omega
  · -- the bias's block at (0, q) is the array at (0, q)
    show V c (Pipeline.arrRef spec0 2) (((cfg0.win 2).blk t).view.emb (ix2 (0 : Fin 1) q)) = V c (Pipeline.arrRef spec0 2) _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega

/-- An index of the output array is in point t's block iff each coordinate is in the block's range on its axis. -/
theorem mem_block (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v3).slice (win0_3.rect t)).set ↔ _
  rw [View.set_slice_whole, Rect.mem_set_unit]
  exact Iff.rfl

/-- The ten row ranges cover the array: row r lies in the block of point r / 5000, and every column in block-column 0. -/
theorem rows_covered (i : S50000x256.Idx) :
    ∃ t : Fin cfg0.N, (cfg0.win 3).flush t = true ∧ i ∈ ((cfg0.win 3).blk t).view.set := by
  have hi0 : (i 0).val < 50000 := idx2_lt0 i
  have hi1 : (i 1).val < 256 := idx2_lt1 i
  have hN : cfg0.N = 10 := N_0
  refine ⟨⟨(i 0).val / 5000, by rw [hN]; omega⟩, flush0_3 _, ?_⟩
  obtain ⟨-, -, -, -, -, -, e30, e31⟩ := block_indices ⟨(i 0).val / 5000, by rw [hN]; omega⟩
  rw [mem_block]
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 256 ≤ (i 1).val ∧ (i 1).val < win0_3.index _ (1 : Fin 2) * 256 + 256
    rw [e31]; omega

/-- The output array after the run is the whole-array function: every point writes its row range of it, and the row
    ranges cover the array. -/
theorem outArr_eq (c : Dev nD) :
    (dat0 (F := Ideal) V c).arrAt 3 cfg0.N = affineOut (lhs V c) (rhs V c) (bias V c) :=
  (dat0 (F := Ideal) V c).arrAt_eq_of_cover 3 (affineOut (lhs V c) (rhs V c) (bias V c))
    (fun t _ => written_block V c t) rows_covered

/-- Entry (n, j) of the output: the row of the left operand against the column of the right, plus the bias. -/
theorem out_apply (c : Dev nD) (n : Fin 50000) (j : Fin 256) :
    outArr V c (ix2 n j) = (∑ k : Fin 64, lhs V c (ix2 n k) * rhs V c (ix2 k j)) + bias V c (ix2 0 j) :=
  congrFun (outArr_eq V c) (ix2 n j)

end Cert.KernelIdeal.Region0

end
-- ==== Proof.KProj.lean ====
/-
  The two node projections as the kernel program holds them before the gathers. The two 64×128 weights are laid side
  by side into one 64×256 matrix and the two biases into one row of 256; the first launch multiplies the node features
  by it and adds the row; the two halves of the columns are then sliced apart. Column j < 128 of the product only meets
  column j of the first weight, column 128 + j only column j of the second, so the two slices are x·W_src + b_src and
  x·W_dst + b_dst.
-/
import proofs.«410141_j3496103379076_1_alg».proof.Proof.Gen.KernelIdeal.Frame
import proofs.«410141_j3496103379076_1_alg».proof.Proof.Spec
import proofs.«410141_j3496103379076_1_alg».proof.Proof.KArgs
import proofs.«410141_j3496103379076_1_alg».proof.Proof.Region0
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.ShloMosaic.ValueIdx Idealize.ShloMosaic.Pipeline
open Cert.KernelIdeal Cert.KernelIdeal.Gen
open Cert.KernelIdeal.KV

namespace Cert.KernelIdeal.KProj

variable (m : (ℓ : Loc nD τ sig) → Buf (Elt Ideal) ℓ) (ρ : Dev nD → PrngReg) (c : Dev nD)

/-! ## The buffers the projections pass through, each as one operation on what was there before -/

/-- The first slice: columns 0 … 127 of the launch's output. -/
theorem v4_eq : (W3 (F := Ideal) m ρ c (Proc.devRef .tc main_v4) : S50000x128.Idx → EReal)
    = extractStridedSlice S50000x128 ![0, 0]
        (W2 (F := Ideal) m ρ c (Proc.devRef .tc main_v3) : S50000x256.Idx → EReal) slices_S50000x256_S50000x128_0_0 := by
  show StableHlo.after hostOps1 _ (Proc.devRef .tc main_v4) = _
  after_results

/-- The second slice: columns 128 … 255 of the launch's output. -/
theorem v5_eq : (W3 (F := Ideal) m ρ c (Proc.devRef .tc main_v5) : S50000x128.Idx → EReal)
    = extractStridedSlice S50000x128 ![0, 128]
        (W2 (F := Ideal) m ρ c (Proc.devRef .tc main_v3) : S50000x256.Idx → EReal) slices_S50000x256_S50000x128_0_128 := by
  show StableHlo.after hostOps1 _ (Proc.devRef .tc main_v5) = _
  after_results

/-- The node features reach the launch as they were given: nothing before it writes an argument. -/
theorem x_eq : (W1 (F := Ideal) m ρ c (Proc.devRef .tc main_arg0) : S50000x64.Idx → EReal) = x m c := by
  show StableHlo.after hostOps0 _ (Proc.devRef .tc main_arg0) = _
  after_results

/-- The launch's right operand: the two weights side by side. -/
theorem v0_eq : (W1 (F := Ideal) m ρ c (Proc.devRef .tc main_v0) : S64x256.Idx → EReal)
    = concatenate S64x256 1 [⟨S64x128, Ws m c⟩, ⟨S64x128, Wd m c⟩] concatenates_S64x128_S64x128_S64x256_d1 := by
  show StableHlo.after hostOps0 _ (Proc.devRef .tc main_v0) = _
  after_results

/-- The launch's bias row: the two biases end to end, as one row. -/
theorem v2_eq : (W1 (F := Ideal) m ρ c (Proc.devRef .tc main_v2) : S1x256.Idx → EReal)
    = shapeCast S1x256 (concatenate S256 0 [⟨S128, bs m c⟩, ⟨S128, bd m c⟩] concatenates_S128_S128_S256_d0)
        shapeCasts_S256_S1x256 := by
  show StableHlo.after hostOps0 _ (Proc.devRef .tc main_v2) = _
  after_results
  rfl

/-- Entry (n, j) of the launch's output over the launch's three inputs. -/
theorem v3_apply (n : Fin 50000) (j : Fin 256) :
    (W2 (F := Ideal) m ρ c (Proc.devRef .tc main_v3) : S50000x256.Idx → EReal) (ix2 n j)
      = (∑ k : Fin 64, Region0.lhs (V1 m ρ) c (ix2 n k) * Region0.rhs (V1 m ρ) c (ix2 k j))
          + Region0.bias (V1 m ρ) c (ix2 0 j) := by
  have h : (W2 (F := Ideal) m ρ c (Proc.devRef .tc main_v3) : S50000x256.Idx → EReal) = Region0.outArr (V1 m ρ) c :=
    W2_arr (F := Ideal) m ρ c 3
  rw [h]
  exact Region0.out_apply (V1 m ρ) c n j

/-- The same with the three inputs named: features, the weights side by side, the bias row. -/
theorem v3_apply' (n : Fin 50000) (j : Fin 256) :
    (W2 (F := Ideal) m ρ c (Proc.devRef .tc main_v3) : S50000x256.Idx → EReal) (ix2 n j)
      = (∑ k : Fin 64, x m c (ix2 n k)
            * concatenate S64x256 1 [⟨S64x128, Ws m c⟩, ⟨S64x128, Wd m c⟩] concatenates_S64x128_S64x128_S64x256_d1 (ix2 k j))
          + shapeCast S1x256 (concatenate S256 0 [⟨S128, bs m c⟩, ⟨S128, bd m c⟩] concatenates_S128_S128_S256_d0)
              shapeCasts_S256_S1x256 (ix2 0 j) := by
  have hl : Region0.lhs (V1 m ρ) c = x m c := x_eq m ρ c
  have hr : Region0.rhs (V1 m ρ) c
      = concatenate S64x256 1 [⟨S64x128, Ws m c⟩, ⟨S64x128, Wd m c⟩] concatenates_S64x128_S64x128_S64x256_d1 := v0_eq m ρ c
  have hb : Region0.bias (V1 m ρ) c
      = shapeCast S1x256 (concatenate S256 0 [⟨S128, bs m c⟩, ⟨S128, bd m c⟩] concatenates_S128_S128_S256_d0)
          shapeCasts_S256_S1x256 := v2_eq m ρ c
  rw [v3_apply, hl, hr, hb]

/-! ## The two halves of the columns -/

/-- A column below 128 of the two weights side by side is that column of the first. -/
theorem cat_left (k : Fin 64) (j : Fin 128) :
    concatenate S64x256 1 [⟨S64x128, Ws m c⟩, ⟨S64x128, Wd m c⟩] concatenates_S64x128_S64x128_S64x256_d1
        (ix2 k (⟨j.val, by omega⟩ : Fin 256)) = Ws m c (ix2 k j) :=
  concatenate_pair_apply_left 1 (Ws m c) (Wd m c) concatenates_S64x128_S64x128_S64x256_d1 _ rfl (ix2 k j)
    (fun b => match b with | ⟨0, _⟩ => rfl | ⟨1, _⟩ => rfl)

/-- Column 128 + j of the two weights side by side is column j of the second. -/
theorem cat_right (k : Fin 64) (j : Fin 128) :
    concatenate S64x256 1 [⟨S64x128, Ws m c⟩, ⟨S64x128, Wd m c⟩] concatenates_S64x128_S64x128_S64x256_d1
        (ix2 k (⟨128 + j.val, by omega⟩ : Fin 256)) = Wd m c (ix2 k j) :=
  concatenate_pair_apply_right 1 (Ws m c) (Wd m c) concatenates_S64x128_S64x128_S64x256_d1 _ rfl rfl (ix2 k j)
    (fun b => match b with | ⟨0, _⟩ => fun _ => rfl | ⟨1, _⟩ => fun hne => absurd rfl hne)
    (by show j.val + 128 = 128 + j.val; omega)

/-- Entry j < 128 of the bias row is entry j of the first bias. -/
theorem bias_left (j : Fin 128) :
    shapeCast S1x256 (concatenate S256 0 [⟨S128, bs m c⟩, ⟨S128, bd m c⟩] concatenates_S128_S128_S256_d0)
        shapeCasts_S256_S1x256 (ix2 0 (⟨j.val, by omega⟩ : Fin 256)) = bs m c (ix1 j) :=
  (shapeCast_a_1a_apply _ shapeCasts_S256_S1x256 0 _).trans
    (concatenate_pair_apply_left 0 (bs m c) (bd m c) concatenates_S128_S128_S256_d0 _ rfl (ix1 j)
      (fun b => match b with | ⟨0, _⟩ => rfl))

/-- Entry 128 + j of the bias row is entry j of the second bias. -/
theorem bias_right (j : Fin 128) :
    shapeCast S1x256 (concatenate S256 0 [⟨S128, bs m c⟩, ⟨S128, bd m c⟩] concatenates_S128_S128_S256_d0)
        shapeCasts_S256_S1x256 (ix2 0 (⟨128 + j.val, by omega⟩ : Fin 256)) = bd m c (ix1 j) :=
  (shapeCast_a_1a_apply _ shapeCasts_S256_S1x256 0 _).trans
    (concatenate_pair_apply_right 0 (bs m c) (bd m c) concatenates_S128_S128_S256_d0 _ rfl rfl (ix1 j)
      (fun b => match b with | ⟨0, _⟩ => fun hne => absurd rfl hne)
      (by show j.val + 128 = 128 + j.val; omega))

/-- The source-side projection, after the slices. -/
theorem hsrc_apply (n : Fin 50000) (j : Fin 128) :
    (W3 (F := Ideal) m ρ c (Proc.devRef .tc main_v4) : S50000x128.Idx → EReal) (ix2 n j)
      = Cert.Spec.proj (x m c) (Ws m c) (bs m c) n j := by
  refine (congrFun (v4_eq m ρ c) (ix2 n j)).trans ?_
  refine (extractStridedSlice_apply ![0, 0] _ slices_S50000x256_S50000x128_0_0 (ix2 n j)
    (ix2 n (⟨j.val, by omega⟩ : Fin 256)) (fun a => match a with
      | ⟨0, _⟩ => by show n.val = 0 + n.val; omega
      | ⟨1, _⟩ => by show j.val = 0 + j.val; omega)).trans ?_
  rw [v3_apply', bias_left]
  unfold Cert.Spec.proj
  refine congrArg₂ (· + ·) (Finset.sum_congr rfl fun k _ => ?_) rfl
  rw [cat_left]

/-- The destination-side projection, after the slices. -/
theorem hdst_apply (n : Fin 50000) (j : Fin 128) :
    (W3 (F := Ideal) m ρ c (Proc.devRef .tc main_v5) : S50000x128.Idx → EReal) (ix2 n j)
      = Cert.Spec.proj (x m c) (Wd m c) (bd m c) n j := by
  refine (congrFun (v5_eq m ρ c) (ix2 n j)).trans ?_
  refine (extractStridedSlice_apply ![0, 128] _ slices_S50000x256_S50000x128_0_128 (ix2 n j)
    (ix2 n (⟨128 + j.val, by omega⟩ : Fin 256)) (fun a => match a with
      | ⟨0, _⟩ => by show n.val = 0 + n.val; omega
      | ⟨1, _⟩ => by show 128 + j.val = 128 + j.val; rfl)).trans ?_
  rw [v3_apply', bias_right]
  unfold Cert.Spec.proj
  refine congrArg₂ (· + ·) (Finset.sum_congr rfl fun k _ => ?_) rfl
  rw [cat_right]

end Cert.KernelIdeal.KProj

end
-- ==== Proof.KGather.lean ====
/-
  The gathered rows as the second launch finds them. Each gather first moves a negative word up by 50000, tests the
  result against [0, 49999], reads the table at the word held inside the table, and keeps the read row where the test
  passed (a fill value elsewhere). In the domain every word is already in [0, 50000): nothing is moved, the test passes
  everywhere, and the read row is the word's own row. The edge features and the edge weight are untouched by these
  operations, and the edge bias is relaid as a 1×128 row.
-/
import proofs.«410141_j3496103379076_1_alg».proof.Proof.Gen.KernelIdeal.Frame
import proofs.«410141_j3496103379076_1_alg».proof.Proof.Spec
import proofs.«410141_j3496103379076_1_alg».proof.Proof.KArgs
import proofs.«410141_j3496103379076_1_alg».proof.Proof.KProj
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.ShloMosaic.ValueIdx Idealize.ShloMosaic.Pipeline
open Cert.KernelIdeal Cert.KernelIdeal.Gen
open Cert.KernelIdeal.KV

namespace Cert.KernelIdeal.KGather

variable (m : (ℓ : Loc nD τ sig) → Buf (Elt Ideal) ℓ) (ρ : Dev nD → PrngReg) (c : Dev nD)

/-! ## Words in range -/

/-- A non-negative signed reading of a word is its unsigned reading. -/
theorem toInt_toNat_of_nonneg (a : BitVec 32) (h : 0 ≤ a.toInt) : a.toInt.toNat = a.toNat := by
  have hc := BitVec.toInt_eq_toNat_cond a
  have hl := a.isLt
  split at hc <;> omega

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_of_all f l _ (IntOp.andi_eq_one.2 ⟨h, hl a List.mem_cons_self⟩) (fun n hn => hl n (List.mem_cons_of_mem _ hn))

/-- A reduction by `and` from 1 over an array of 1s is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl]
  exact foldl_andi_of_all x _ _ hinit fun n _ => hx n

/-! ## A take of whole rows, read at an entry -/

/-- Every entry of a one-element list is that element. -/
theorem getElem_of_eq_singleton {β : Type} {l : List β} {a : β} (h : l = [a]) (k : Nat) (hk : k < l.length) : l[k]'hk = a := by
  subst h
  simp

/-- A take of whole rows: entry (e, j) of the gathered array is the table's entry (r, j), where r is row e's start word
    read signed and held inside the table. -/
theorem gather_row_apply {α : Type} {N M R w : Nat} (d : GatherDims ⟨2, ![N, M]⟩ ⟨2, ![R, 1]⟩ ⟨2, ![R, M]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, M]⟩ : Shape).Idx → α) (idx : IVec ⟨2, ![R, 1]⟩ w) (e : Fin R) (j : Fin M) :
    Host.gather d x idx (ix2 e j) = x (ix2 ⟨min (idx (ix2 e 0)).toInt.toNat (N - 1), by omega⟩ j) := by
  unfold Host.gather
  congr 1
  funext a
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hm : (1 : Fin 2) ∉ d.startIndexMap := by rw [hsim]; simp
    have hk : (1 : Fin 2) ∈ d.sKept := by rw [GatherDims.mem_sKept, hcoll, hob]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add, getElem_of_eq_singleton hoff]
    rfl

/-! ## The take as one function of its table and its words -/

/-- A negative word moved up by 50000, any other word kept. -/
def wrap (w : IVec S800000 32) : IVec S800000 32 :=
  select (cmpi .slt w (broadcastInDim S800000 ![] bcast_S_S800000 (constantI S_ 32 0#32)))
    (addi w (broadcastInDim S800000 ![] bcast_S_S800000 (constantI S_ 32 50000#32))) w

/-- The moved words as one column. -/
def col (w : IVec S800000 32) : IVec S800000x1 32 :=
  broadcastInDim S800000x1 ![0] bcast_S800000_S800000x1_0 (wrap w)

/-- The test of the moved words against [0, 49999], one bit per word. -/
def inb (w : IVec S800000 32) : IVec S800000 1 :=
  Host.reduce IntOp.andi
    (andi (cmpi .sge (col w) (broadcastInDim S800000x1 ![] bcast_S_S800000x1 (constantI S_ 32 0#32)))
      (cmpi .sle (col w) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The take: the read rows where the test passed, the fill value elsewhere. -/
def takeFn (tbl : FVec Ideal S50000x128 .f32) (w : IVec S800000 32) : FVec Ideal S800000x128 .f32 :=
  select (broadcastInDim S800000x128 ![0] bcast_S800000_S800000x128_0 (inb w))
    (Host.gather gather_S50000x128_S800000x1_S800000x128_1_0_n_n_0_1_1128 tbl (col w))
    (broadcastInDim S800000x128 ![] bcast_S_S800000x128 (constant (F := Ideal) S_ .f32 0x7FC00000#32))

section InRange
variable (w : IVec S800000 32) (hw : ∀ k : S800000.Idx, 0 ≤ (w k).toInt ∧ (w k).toInt < 50000)
include hw

/-- In range nothing is moved. -/
theorem wrap_apply (k : S800000.Idx) : wrap w k = w k := by
  show Scalar.select (IntOp.cmpi .slt (w k) 0#32) (IntOp.addi (w k) 50000#32) (w k) = w k
  have h0 : IntOp.cmpi .slt (w k) 0#32 = 0#1 :=
    eq_zero_of_ne_one fun h1 => by
      have := IntOp.cmpi_slt.1 h1
      have hz : (0#32 : BitVec 32).toInt = 0 := by decide
      have := (hw k).1
      omega
  rw [h0, select_zero]

/-- In range the test passes everywhere. -/
theorem inb_apply (k : S800000.Idx) : inb w k = 1#1 := by
  unfold inb
  refine reduce_andi_of_all _ _ _ _ _ rfl fun i => ?_
  obtain ⟨k', hk'⟩ : ∃ k' : S800000.Idx, col w i = w k' := ⟨_, wrap_apply w hw _⟩
  show IntOp.andi (IntOp.cmpi .sge (col w i) 0#32) (IntOp.cmpi .sle (col w i) 49999#32) = 1#1
  rw [hk']
  have hz : (0#32 : BitVec 32).toInt = 0 := by decide
  have hm : (49999#32 : BitVec 32).toInt = 49999 := by decide
  have := hw k'
  exact IntOp.andi_eq_one.2 ⟨IntOp.cmpi_sge.2 (by omega), IntOp.cmpi_sle.2 (by omega)⟩

/-- The column at row e is word e. -/
theorem col_apply (e : Fin 800000) : col w (ix2 e 0) = w (ix1 e) := by
  unfold col
  rw [broadcastInDim_apply _ _ _ _ (ix1 e) (fun a => by
    obtain rfl : a = 0 := Subsingleton.elim _ _
    rfl)]
  exact wrap_apply w hw _

/-- In range the take reads, at (e, j), the table's row named by word e. -/
theorem takeFn_apply (tbl : FVec Ideal S50000x128 .f32) (e : Fin 800000) (j : Fin 128) :
    takeFn tbl w (ix2 e j) = tbl (ix2 (Cert.Spec.row (w (ix1 e))) j) := by
  unfold takeFn
  rw [select_apply]
  have hbit : broadcastInDim S800000x128 ![0] bcast_S800000_S800000x128_0 (inb w) (ix2 e j) = 1#1 := inb_apply w hw _
  rw [hbit, select_one,
    gather_row_apply gather_S50000x128_S800000x1_S800000x128_1_0_n_n_0_1_1128 rfl rfl rfl rfl rfl (by decide) tbl (col w) e j]
  refine congrArg (fun r : Fin 50000 => tbl (ix2 r j)) (Fin.ext ?_)
  show min (col w (ix2 e 0)).toInt.toNat (50000 - 1) = min (w (ix1 e)).toNat 49999
  rw [col_apply w hw, toInt_toNat_of_nonneg _ (hw _).1]

end InRange

/-! ## The stretches between the first and the second launch, read at one buffer -/

/-- No operation of a stretch writes a given buffer: one inequality of references per operation. -/
macro "no_write " l:ident : tactic =>
  `(tactic| (refine List.forall_iff_forall_mem.mp ?_
             simp only [$l:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- Contents carried to a buffer's own type and back are unchanged. -/
theorem ofBuf_toBuf {sg : RefSig} {Val : EltTy → Type} {T : BufTy} (x : StableHlo.TRef sg T) (v : T.Contents Val) :
    x.ofBuf (x.toBuf v) = v := by
  obtain ⟨r, h, _, _⟩ := x
  subst h
  rfl

section Stretch
variable (V : Valuation τ sig (Elt Ideal))

/-- The first gather's stretch leaves, in its result buffer, the take of its table at its words. -/
theorem take0 : (StableHlo.after (hostOps1_1 (F := Ideal)) V (Proc.devRef .tc main_v6) : S800000x128.Idx → EReal)
    = takeFn (V (Proc.devRef .tc main_v4)) (V (Proc.devRef .tc main_arg2)) := by
  after_results_simp
  simp only [ofBuf_toBuf]
  refine (cast_eq _ _).trans ?_
  unfold takeFn inb col wrap
  rfl

/-- The second gather's stretch likewise. -/
theorem take1 : (StableHlo.after (hostOps1_2 (F := Ideal)) V (Proc.devRef .tc main_v7) : S800000x128.Idx → EReal)
    = takeFn (V (Proc.devRef .tc main_v5)) (V (Proc.devRef .tc main_arg3)) := by
  after_results_simp
  simp only [ofBuf_toBuf]
  refine (cast_eq _ _).trans ?_
  unfold takeFn inb col wrap
  rfl

/-- The relaid bias row reads, at column j, the bias at j. -/
theorem relay (j : Fin 128) :
    (StableHlo.after (hostOps1_3 (F := Ideal)) V (Proc.devRef .tc main_v8) : S1x128.Idx → EReal) (ix2 0 j)
      = (V (Proc.devRef .tc main_arg9) : S128.Idx → EReal) (ix1 j) := by
  after_results
  show shapeCast S1x128 (V (Proc.devRef .tc main_arg9) : S128.Idx → EReal) shapeCasts_S128_S1x128 (ix2 0 j) = _
  exact shapeCast_apply _ _ _ (ix1 j) (by rw [Shape.rowMajor_val_one, Shape.rowMajor_val_two]; simp)

end Stretch

/-- An argument no operation before the gathers writes, and no array of the first launch, is as launched after the two
    slices. -/
theorem W3_arg (b : Ref sig .tc)
    (h0 : ∀ op ∈ (hostOps0 (F := Ideal) : List (HloOp τ sig (Elt Ideal))), Proc.devRef .tc b ∉ op.writes)
    (hs : ∀ w, Pipeline.arrRef spec0 w ≠ b)
    (h1 : ∀ op ∈ (hostOps1 (F := Ideal) : List (HloOp τ sig (Elt Ideal))), Proc.devRef .tc b ∉ op.writes) :
    W3 (F := Ideal) m ρ c (Proc.devRef .tc b) = m ((c : Thread nD τ).loc b) :=
  calc W3 (F := Ideal) m ρ c (Proc.devRef .tc b)
    _ = W2 m ρ c (Proc.devRef .tc b) := StableHlo.after_of_forall_not_mem (b := Proc.devRef .tc b) _ _ h1
    _ = W1 m ρ c (Proc.devRef .tc b) := W2_of_ne m ρ c b hs
    _ = W0 m ρ c (Proc.devRef .tc b) := StableHlo.after_of_forall_not_mem (b := Proc.devRef .tc b) _ _ h0
    _ = m ((c : Thread nD τ).loc b) := rfl

theorem W3_src : (W3 (F := Ideal) m ρ c (Proc.devRef .tc main_arg2) : S800000.Idx → BitVec 32) = src m c :=
  W3_arg m ρ c main_arg2 (by no_write hostOps0) (by decide) (by no_write hostOps1)

theorem W4_dst : (W4 (F := Ideal) m ρ c (Proc.devRef .tc main_arg3) : S800000.Idx → BitVec 32) = dst m c :=
  calc W4 (F := Ideal) m ρ c (Proc.devRef .tc main_arg3)
    _ = W3 m ρ c (Proc.devRef .tc main_arg3) := StableHlo.after_of_forall_not_mem (b := Proc.devRef .tc main_arg3) _ _ (by no_write hostOps1_1)
    _ = dst m c := W3_arg m ρ c main_arg3 (by no_write hostOps0) (by decide) (by no_write hostOps1)

theorem W4_v5 : W4 (F := Ideal) m ρ c (Proc.devRef .tc main_v5) = W3 m ρ c (Proc.devRef .tc main_v5) :=
  StableHlo.after_of_forall_not_mem (b := Proc.devRef .tc main_v5) _ _ (by no_write hostOps1_1)

theorem W6_v6 : W6 (F := Ideal) m ρ c (Proc.devRef .tc main_v6) = W4 m ρ c (Proc.devRef .tc main_v6) :=
  calc W6 (F := Ideal) m ρ c (Proc.devRef .tc main_v6)
    _ = W5 m ρ c (Proc.devRef .tc main_v6) := StableHlo.after_of_forall_not_mem (b := Proc.devRef .tc main_v6) _ _ (by no_write hostOps1_3)
    _ = W4 m ρ c (Proc.devRef .tc main_v6) := StableHlo.after_of_forall_not_mem (b := Proc.devRef .tc main_v6) _ _ (by no_write hostOps1_2)

theorem W6_v7 : W6 (F := Ideal) m ρ c (Proc.devRef .tc main_v7) = W5 m ρ c (Proc.devRef .tc main_v7) :=
  StableHlo.after_of_forall_not_mem (b := Proc.devRef .tc main_v7) _ _ (by no_write hostOps1_3)

/-- An argument none of the operations between the two launches writes is as launched when the second launch begins. -/
theorem W6_arg (b : Ref sig .tc)
    (h0 : ∀ op ∈ (hostOps0 (F := Ideal) : List (HloOp τ sig (Elt Ideal))), Proc.devRef .tc b ∉ op.writes)
    (hs : ∀ w, Pipeline.arrRef spec0 w ≠ b)
    (h1 : ∀ op ∈ (hostOps1 (F := Ideal) : List (HloOp τ sig (Elt Ideal))), Proc.devRef .tc b ∉ op.writes)
    (h2 : ∀ op ∈ (hostOps1_1 (F := Ideal) : List (HloOp τ sig (Elt Ideal))), Proc.devRef .tc b ∉ op.writes)
    (h3 : ∀ op ∈ (hostOps1_2 (F := Ideal) : List (HloOp τ sig (Elt Ideal))), Proc.devRef .tc b ∉ op.writes)
    (h4 : ∀ op ∈ (hostOps1_3 (F := Ideal) : List (HloOp τ sig (Elt Ideal))), Proc.devRef .tc b ∉ op.writes) :
    W6 (F := Ideal) m ρ c (Proc.devRef .tc b) = m ((c : Thread nD τ).loc b) :=
  calc W6 (F := Ideal) m ρ c (Proc.devRef .tc b)
    _ = W5 m ρ c (Proc.devRef .tc b) := StableHlo.after_of_forall_not_mem (b := Proc.devRef .tc b) _ _ h4
    _ = W4 m ρ c (Proc.devRef .tc b) := StableHlo.after_of_forall_not_mem (b := Proc.devRef .tc b) _ _ h3
    _ = W3 m ρ c (Proc.devRef .tc b) := StableHlo.after_of_forall_not_mem (b := Proc.devRef .tc b) _ _ h2
    _ = m ((c : Thread nD τ).loc b) := W3_arg m ρ c b h0 hs h1

/-- The edge bias is as launched just before it is relaid. -/
theorem W5_be : (W5 (F := Ideal) m ρ c (Proc.devRef .tc main_arg9) : S128.Idx → EReal) = be m c :=
  calc W5 (F := Ideal) m ρ c (Proc.devRef .tc main_arg9)
    _ = W4 m ρ c (Proc.devRef .tc main_arg9) := StableHlo.after_of_forall_not_mem (b := Proc.devRef .tc main_arg9) _ _ (by no_write hostOps1_2)
    _ = W3 m ρ c (Proc.devRef .tc main_arg9) := StableHlo.after_of_forall_not_mem (b := Proc.devRef .tc main_arg9) _ _ (by no_write hostOps1_1)
    _ = be m c := W3_arg m ρ c main_arg9 (by no_write hostOps0) (by decide) (by no_write hostOps1)

/-! ## The five facts -/

/-- Row e of the first gathered table is the source-side projection of the node the edge's source word names. -/
theorem hs_apply (D : InDom m c) (e : Fin 800000) (j : Fin 128) :
    (W6 (F := Ideal) m ρ c (Proc.devRef .tc main_v6) : S800000x128.Idx → EReal) (ix2 e j)
      = Cert.Spec.proj (x m c) (Ws m c) (bs m c) (Cert.Spec.row (src m c (ix1 e))) j := by
  rw [W6_v6 m ρ c]
  show (StableHlo.after (hostOps1_1 (F := Ideal)) (W3 m ρ c) (Proc.devRef .tc main_v6) : S800000x128.Idx → EReal) (ix2 e j) = _
  rw [take0, W3_src m ρ c, takeFn_apply _ D.src_range]
  exact KProj.hsrc_apply m ρ c _ j

/-- Row e of the second gathered table is the destination-side projection of the node its destination word names. -/
theorem hd_apply (D : InDom m c) (e : Fin 800000) (j : Fin 128) :
    (W6 (F := Ideal) m ρ c (Proc.devRef .tc main_v7) : S800000x128.Idx → EReal) (ix2 e j)
      = Cert.Spec.proj (x m c) (Wd m c) (bd m c) (Cert.Spec.row (dst m c (ix1 e))) j := by
  rw [W6_v7 m ρ c]
  show (StableHlo.after (hostOps1_2 (F := Ideal)) (W4 m ρ c) (Proc.devRef .tc main_v7) : S800000x128.Idx → EReal) (ix2 e j) = _
  rw [take1, W4_dst m ρ c, takeFn_apply _ D.dst_range, W4_v5 m ρ c]
  exact KProj.hdst_apply m ρ c _ j

/-- The edge bias as a row. -/
theorem be_row (j : Fin 128) :
    (W6 (F := Ideal) m ρ c (Proc.devRef .tc main_v8) : S1x128.Idx → EReal) (ix2 0 j) = be m c (ix1 j) := by
  show (StableHlo.after (hostOps1_3 (F := Ideal)) (W5 m ρ c) (Proc.devRef .tc main_v8) : S1x128.Idx → EReal) (ix2 0 j) = _
  rw [relay, W5_be m ρ c]

/-- The edge features and the edge weight are as launched. -/
theorem ef_kept : (W6 (F := Ideal) m ρ c (Proc.devRef .tc main_arg1) : S800000x32.Idx → EReal) = ef m c :=
  W6_arg m ρ c main_arg1 (by no_write hostOps0) (by decide) (by no_write hostOps1) (by no_write hostOps1_1)
    (by no_write hostOps1_2) (by no_write hostOps1_3)
theorem We_kept : (W6 (F := Ideal) m ρ c (Proc.devRef .tc main_arg8) : S32x128.Idx → EReal) = We m c :=
  W6_arg m ρ c main_arg8 (by no_write hostOps0) (by decide) (by no_write hostOps1) (by no_write hostOps1_1)
    (by no_write hostOps1_2) (by no_write hostOps1_3)

end Cert.KernelIdeal.KGather

end
-- ==== Proof.KEdge.lean ====
/-
  What the second launch leaves: the pre-activation of every edge and the two rows of column sums, as the
  specification names them. The launch's own value (for any entry contents) read at the entry contents the gathers left.
-/
import proofs.«410141_j3496103379076_1_alg».proof.Proof.Gen.KernelIdeal.Frame
import proofs.«410141_j3496103379076_1_alg».proof.Proof.Spec
import proofs.«410141_j3496103379076_1_alg».proof.Proof.KArgs
import proofs.«410141_j3496103379076_1_alg».proof.Proof.Region1
import proofs.«410141_j3496103379076_1_alg».proof.Proof.KGather
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.ShloMosaic.ValueIdx Idealize.ShloMosaic.Pipeline
open Cert.KernelIdeal Cert.KernelIdeal.Gen
open Cert.KernelIdeal.KV

namespace Cert.KernelIdeal.KEdge

variable (m : (ℓ : Loc nD τ sig) → Buf (Elt Ideal) ℓ) (ρ : Dev nD → PrngReg) (c : Dev nD)

/-- The launch's pre-activation, read at the contents the gathers left, is the specification's: the two gathered rows
    are the two projections, the feature and weight arrays are the arguments, the bias row is the bias. -/
theorem m_eq (D : InDom m c) (e : Fin 800000) (j : Fin 128) :
    Region1.m (V6 (F := Ideal) m ρ) c e j
      = Cert.Spec.pre (x m c) (ef m c) (src m c) (dst m c) (Ws m c) (bs m c) (Wd m c) (bd m c) (We m c) (be m c) e j := by
  have e0 : Region1.hs (V6 (F := Ideal) m ρ) c (ix2 e j)
      = Cert.Spec.proj (x m c) (Ws m c) (bs m c) (Cert.Spec.row (src m c (ix1 e))) j := KGather.hs_apply m ρ c D e j
  have e1 : Region1.hd (V6 (F := Ideal) m ρ) c (ix2 e j)
      = Cert.Spec.proj (x m c) (Wd m c) (bd m c) (Cert.Spec.row (dst m c (ix1 e))) j := KGather.hd_apply m ρ c D e j
  have e2 : Region1.be (V6 (F := Ideal) m ρ) c (ix2 0 j) = be m c (ix1 j) := KGather.be_row m ρ c j
  have e3 : Region1.ef (V6 (F := Ideal) m ρ) c = ef m c := KGather.ef_kept m ρ c
  have e4 : Region1.we (V6 (F := Ideal) m ρ) c = We m c := KGather.We_kept m ρ c
  unfold Region1.m
  rw [e0, e1, e2, e3, e4]
  rfl

theorem pre_apply (D : InDom m c) (e : Fin 800000) (j : Fin 128) :
    (W7 (F := Ideal) m ρ c (Proc.devRef .tc main_v9_0) : S800000x128.Idx → EReal) (ix2 e j)
      = Cert.Spec.pre (x m c) (ef m c) (src m c) (dst m c) (Ws m c) (bs m c) (Wd m c) (bd m c) (We m c) (be m c) e j := by
  have h1 : (W7 (F := Ideal) m ρ c (Proc.devRef .tc main_v9_0) : S800000x128.Idx → EReal)
      = Region1.mArr (V6 (F := Ideal) m ρ) c := W7_arr (F := Ideal) m ρ c 5
  rw [h1, Region1.m_apply]
  exact m_eq m ρ c D e j

theorem sum_apply (D : InDom m c) (j : Fin 128) :
    (W7 (F := Ideal) m ρ c (Proc.devRef .tc main_v9_1) : S1x128.Idx → EReal) (ix2 0 j)
      = Cert.Spec.preSum (x m c) (ef m c) (src m c) (dst m c) (Ws m c) (bs m c) (Wd m c) (bd m c) (We m c) (be m c) j := by
  have h1 : (W7 (F := Ideal) m ρ c (Proc.devRef .tc main_v9_1) : S1x128.Idx → EReal)
      = Region1.sumArr (V6 (F := Ideal) m ρ) c := W7_arr (F := Ideal) m ρ c 6
  have h2 : Region1.sumArr (V6 (F := Ideal) m ρ) c (ix2 0 j)
      = ∑ e : Fin 800000, Region1.m (V6 (F := Ideal) m ρ) c e j := Region1.sum_apply _ c j
  have h3 : (∑ e : Fin 800000, Region1.m (V6 (F := Ideal) m ρ) c e j)
      = Cert.Spec.preSum (x m c) (ef m c) (src m c) (dst m c) (Ws m c) (bs m c) (Wd m c) (bd m c) (We m c) (be m c) j :=
    Finset.sum_congr rfl fun e _ => m_eq m ρ c D e j
  exact (congrFun h1 (ix2 0 j)).trans (h2.trans h3)

theorem sumSq_apply (D : InDom m c) (j : Fin 128) :
    (W7 (F := Ideal) m ρ c (Proc.devRef .tc main_v9_2) : S1x128.Idx → EReal) (ix2 0 j)
      = Cert.Spec.preSumSq (x m c) (ef m c) (src m c) (dst m c) (Ws m c) (bs m c) (Wd m c) (bd m c) (We m c) (be m c) j := by
  have h1 : (W7 (F := Ideal) m ρ c (Proc.devRef .tc main_v9_2) : S1x128.Idx → EReal)
      = Region1.sqArr (V6 (F := Ideal) m ρ) c := W7_arr (F := Ideal) m ρ c 7
  have h2 : Region1.sqArr (V6 (F := Ideal) m ρ) c (ix2 0 j)
      = ∑ e : Fin 800000, Region1.m (V6 (F := Ideal) m ρ) c e j * Region1.m (V6 (F := Ideal) m ρ) c e j :=
    Region1.sq_apply _ c j
  have h3 : (∑ e : Fin 800000, Region1.m (V6 (F := Ideal) m ρ) c e j * Region1.m (V6 (F := Ideal) m ρ) c e j)
      = Cert.Spec.preSumSq (x m c) (ef m c) (src m c) (dst m c) (Ws m c) (bs m c) (Wd m c) (bd m c) (We m c) (be m c) j :=
    Finset.sum_congr rfl fun e _ => by rw [m_eq m ρ c D e j]
  exact (congrFun h1 (ix2 0 j)).trans (h2.trans h3)

end Cert.KernelIdeal.KEdge

end
-- ==== Proof.KStats.lean ====
/-
  The edge statistics as the third launch finds them: the mean is the row of sums divided by the number of edges, the
  variance the row of sums of squares divided by it minus the squared mean, each relaid as a 1×128 row; the scale and
  the shift relaid likewise; the pre-activations untouched.
-/
import proofs.«410141_j3496103379076_1_alg».proof.Proof.Gen.KernelIdeal.Frame
import proofs.«410141_j3496103379076_1_alg».proof.Proof.Spec
import proofs.«410141_j3496103379076_1_alg».proof.Proof.KArgs
import proofs.«410141_j3496103379076_1_alg».proof.Proof.KEdge
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run

set_option maxRecDepth 16384

noncomputable section

open Idealize.ShloMosaic Idealize.ShloMosaic.TcCoe Idealize.ShloMosaic.ValueIdx Idealize.ShloMosaic.Pipeline
open Cert.KernelIdeal Cert.KernelIdeal.Gen
open Cert.KernelIdeal.KV

namespace Cert.KernelIdeal.KStats

variable (m : (ℓ : Loc nD τ sig) → Buf (Elt Ideal) ℓ) (ρ : Dev nD → PrngReg) (c : Dev nD)

/-! ## What the stretch between the second and the third launch leaves, as arrays

Each of the four rows the third launch reads is one chain of the stretch's operations, over the second launch's two rows
of sums or over an argument; every buffer the stretch does not write is as the second launch left it. -/

/-- The divisor: the edge-count word broadcast along a vector of 128. -/
abbrev cnt : FVec Ideal S128 .f32 :=
  broadcastInDim S128 ![] bcast_S_S128 (constant (F := Ideal) S_ .f32 0x49435000#32)

/-- The row of sums, and the row of sums of squares, as the second launch left them, relaid as vectors of 128. -/
abbrev sumV : FVec Ideal S128 .f32 :=
  shapeCast S128 (W7 (F := Ideal) m ρ c (Proc.devRef .tc main_v9_1) : S1x128.Idx → EReal) shapeCasts_S1x128_S128
abbrev sumSqV : FVec Ideal S128 .f32 :=
  shapeCast S128 (W7 (F := Ideal) m ρ c (Proc.devRef .tc main_v9_2) : S1x128.Idx → EReal) shapeCasts_S1x128_S128

/-- The mean as a vector of 128: the sums over the divisor. -/
abbrev meanV : FVec Ideal S128 .f32 := Host.divf (F := Ideal) (sumV m ρ c) cnt

/-- The variance as a vector of 128: the sums of squares over the divisor, minus the squared mean. -/
abbrev varV : FVec Ideal S128 .f32 :=
  subf (Host.divf (F := Ideal) (sumSqV m ρ c) cnt) (mulf (meanV m ρ c) (meanV m ρ c))

/-- The mean row is the mean vector relaid as 1×128. -/
theorem v18_eq :
    (W8 (F := Ideal) m ρ c (Proc.devRef .tc main_v18) : S1x128.Idx → EReal)
      = shapeCast S1x128 (meanV m ρ c) shapeCasts_S128_S1x128 := by
  show StableHlo.after hostOps2 _ (Proc.devRef .tc main_v18) = _
  after_results
  rfl

/-- The variance row is the variance vector relaid as 1×128. -/
theorem v19_eq :
    (W8 (F := Ideal) m ρ c (Proc.devRef .tc main_v19) : S1x128.Idx → EReal)
      = shapeCast S1x128 (varV m ρ c) shapeCasts_S128_S1x128 := by
  show StableHlo.after hostOps2 _ (Proc.devRef .tc main_v19) = _
  after_results
  rfl

/-- No operation before the third launch writes the scale argument, and neither of the first two launches holds it as
    a window: the second launch's exit reads it as launched. -/
theorem W7_arg10 :
    W7 (F := Ideal) m ρ c (Proc.devRef .tc main_arg10) = m ((c : Thread nD τ).loc main_arg10) := by
  rw [W7_of_ne m ρ c main_arg10 (by decide)]
  show StableHlo.after hostOps1_3 (StableHlo.after hostOps1_2 (StableHlo.after hostOps1_1
    (StableHlo.after hostOps1 (W2 m ρ c)))) (Proc.devRef .tc main_arg10) = _
  after_results
  rw [W2_of_ne m ρ c main_arg10 (by decide)]
  show StableHlo.after hostOps0 _ (Proc.devRef .tc main_arg10) = _
  after_results

/-- The same of the shift argument. -/
theorem W7_arg11 :
    W7 (F := Ideal) m ρ c (Proc.devRef .tc main_arg11) = m ((c : Thread nD τ).loc main_arg11) := by
  rw [W7_of_ne m ρ c main_arg11 (by decide)]
  show StableHlo.after hostOps1_3 (StableHlo.after hostOps1_2 (StableHlo.after hostOps1_1
    (StableHlo.after hostOps1 (W2 m ρ c)))) (Proc.devRef .tc main_arg11) = _
  after_results
  rw [W2_of_ne m ρ c main_arg11 (by decide)]
  show StableHlo.after hostOps0 _ (Proc.devRef .tc main_arg11) = _
  after_results

/-- The scale row is the scale argument relaid as 1×128. -/
theorem v20_eq :
    (W8 (F := Ideal) m ρ c (Proc.devRef .tc main_v20) : S1x128.Idx → EReal)
      = shapeCast S1x128 (gm m c) shapeCasts_S128_S1x128 := by
  show StableHlo.after hostOps2 _ (Proc.devRef .tc main_v20) = _
  after_results
  rw [W7_arg10 m ρ c]
  rfl

/-- The shift row is the shift argument relaid as 1×128. -/
theorem v21_eq :
    (W8 (F := Ideal) m ρ c (Proc.devRef .tc main_v21) : S1x128.Idx → EReal)
      = shapeCast S1x128 (bm m c) shapeCasts_S128_S1x128 := by
  show StableHlo.after hostOps2 _ (Proc.devRef .tc main_v21) = _
  after_results
  rw [W7_arg11 m ρ c]
  rfl

/-- The stretch writes no pre-activation: that array is as the second launch left it. -/
theorem pre_same :
    W8 (F := Ideal) m ρ c (Proc.devRef .tc main_v9_0) = W7 (F := Ideal) m ρ c (Proc.devRef .tc main_v9_0) := by
  show StableHlo.after hostOps2 _ (Proc.devRef .tc main_v9_0) = _
  after_results

/-! ## The vectors read at a column -/

/-- The divisor is the edge count at every column. -/
theorem cnt_apply (i : S128.Idx) : cnt i = Cert.Spec.nEdges :=
  (broadcastInDim_scalar_apply bcast_S_S128 _ i).trans rfl

/-- The vector of sums at column j is the specification's column sum. -/
theorem sumV_apply (D : InDom m c) (j : Fin 128) :
    sumV m ρ c (ix1 j)
      = Cert.Spec.preSum (x m c) (ef m c) (src m c) (dst m c) (Ws m c) (bs m c) (Wd m c) (bd m c) (We m c) (be m c) j :=
  (shapeCast_1a_a_apply _ shapeCasts_S1x128_S128 j).trans (KEdge.sum_apply m ρ c D j)

/-- The vector of sums of squares at column j is the specification's column sum of squares. -/
theorem sumSqV_apply (D : InDom m c) (j : Fin 128) :
    sumSqV m ρ c (ix1 j)
      = Cert.Spec.preSumSq (x m c) (ef m c) (src m c) (dst m c) (Ws m c) (bs m c) (Wd m c) (bd m c) (We m c) (be m c) j :=
  (shapeCast_1a_a_apply _ shapeCasts_S1x128_S128 j).trans (KEdge.sumSq_apply m ρ c D j)

/-- The mean vector at column j is the specification's mean. -/
theorem meanV_apply (D : InDom m c) (j : Fin 128) :
    meanV m ρ c (ix1 j)
      = Cert.Spec.preMean (x m c) (ef m c) (src m c) (dst m c) (Ws m c) (bs m c) (Wd m c) (bd m c) (We m c) (be m c) j := by
  refine (hostDivf_apply (sumV m ρ c) cnt (ix1 j)).trans ?_
  rw [sumV_apply m ρ c D j, cnt_apply]
  rfl

/-- The variance vector at column j is the specification's mean of squares minus squared mean. -/
theorem varV_apply (D : InDom m c) (j : Fin 128) :
    varV m ρ c (ix1 j)
      = Cert.Spec.varSq (x m c) (ef m c) (src m c) (dst m c) (Ws m c) (bs m c) (Wd m c) (bd m c) (We m c) (be m c) j := by
  refine (subf_apply _ _ (ix1 j)).trans ?_
  rw [mulf_apply, meanV_apply m ρ c D j, hostDivf_apply, sumSqV_apply m ρ c D j, cnt_apply]
  rfl

/-! ## The four rows and the pre-activations, as the third launch finds them -/

theorem mean_row (D : InDom m c) (j : Fin 128) :
    (W8 (F := Ideal) m ρ c (Proc.devRef .tc main_v18) : S1x128.Idx → EReal) (ix2 0 j)
      = Cert.Spec.preMean (x m c) (ef m c) (src m c) (dst m c) (Ws m c) (bs m c) (Wd m c) (bd m c) (We m c) (be m c) j := by
  rw [v18_eq m ρ c, shapeCast_a_1a_apply]
  exact meanV_apply m ρ c D j

theorem var_row (D : InDom m c) (j : Fin 128) :
    (W8 (F := Ideal) m ρ c (Proc.devRef .tc main_v19) : S1x128.Idx → EReal) (ix2 0 j)
      = Cert.Spec.varSq (x m c) (ef m c) (src m c) (dst m c) (Ws m c) (bs m c) (Wd m c) (bd m c) (We m c) (be m c) j := by
  rw [v19_eq m ρ c, shapeCast_a_1a_apply]
  exact varV_apply m ρ c D j

theorem gm_row (j : Fin 128) :
    (W8 (F := Ideal) m ρ c (Proc.devRef .tc main_v20) : S1x128.Idx → EReal) (ix2 0 j) = gm m c (ix1 j) := by
  rw [v20_eq m ρ c, shapeCast_a_1a_apply]

theorem bm_row (j : Fin 128) :
    (W8 (F := Ideal) m ρ c (Proc.devRef .tc main_v21) : S1x128.Idx → EReal) (ix2 0 j) = bm m c (ix1 j) := by
  rw [v21_eq m ρ c, shapeCast_a_1a_apply]

theorem pre_kept (D : InDom m c) (e : Fin 800000) (j : Fin 128) :
    (W8 (F := Ideal) m ρ c (Proc.devRef .tc main_v9_0) : S800000x128.Idx → EReal) (ix2 e j)
      = Cert.Spec.pre (x m c) (ef m c) (src m c) (dst m c) (Ws m c) (bs m c) (Wd m c) (bd m c) (We m c) (be m c) e j := by
  rw [pre_same m ρ c]
  exact KEdge.pre_apply m ρ c D e j

end Cert.KernelIdeal.KStats

end
-- ==== Proof.KAct.lean ====
/-
  What the third launch leaves: every edge's message, at the variance the kernel program computes (mean of squares
  minus squared mean).
-/
import proofs.«410141_j3496103379076_1_alg».proof.Proof.Gen.KernelIdeal.Frame
import proofs.«410141_j3496103379076_1_alg».proof.Proof.Spec
import proofs.«410141_j3496103379076_1_alg».proof.Proof.KArgs
import proofs.«410141_j3496103379076_1_alg».proof.Proof.Region2
import proofs.«410141_j3496103379076_1_alg».proof.Proof.KStats
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.ShloMosaic.ValueIdx Idealize.ShloMosaic.Pipeline
open Cert.KernelIdeal Cert.KernelIdeal.Gen
open Cert.KernelIdeal.KV

namespace Cert.KernelIdeal.KAct

variable (m : (ℓ : Loc nD τ sig) → Buf (Elt Ideal) ℓ) (ρ : Dev nD → PrngReg) (c : Dev nD)

/-- One normalised entry of the launch, read at the contents the statistics left, is the specification's normalised
    pre-activation at the variance "mean of squares minus squared mean": the entry is the pre-activation, the four rows
    are the edge mean, that variance, the scale and the shift. -/
theorem nrm_eq (D : InDom m c) (e : Fin 800000) (j : Fin 128) :
    Region2.nrm (V8 (F := Ideal) m ρ) c e j
      = Cert.Spec.preNorm (x m c) (ef m c) (src m c) (dst m c) (Ws m c) (bs m c) (Wd m c) (bd m c) (We m c) (be m c) (gm m c) (bm m c)
          (Cert.Spec.varSq (x m c) (ef m c) (src m c) (dst m c) (Ws m c) (bs m c) (Wd m c) (bd m c) (We m c) (be m c)) e j := by
  have e0 : Region2.mIn (V8 (F := Ideal) m ρ) c (ix2 e j)
      = Cert.Spec.pre (x m c) (ef m c) (src m c) (dst m c) (Ws m c) (bs m c) (Wd m c) (bd m c) (We m c) (be m c) e j :=
    KStats.pre_kept m ρ c D e j
  have e1 : Region2.mean (V8 (F := Ideal) m ρ) c (ix2 0 j)
      = Cert.Spec.preMean (x m c) (ef m c) (src m c) (dst m c) (Ws m c) (bs m c) (Wd m c) (bd m c) (We m c) (be m c) j :=
    KStats.mean_row m ρ c D j
  have e2 : Region2.var (V8 (F := Ideal) m ρ) c (ix2 0 j)
      = Cert.Spec.varSq (x m c) (ef m c) (src m c) (dst m c) (Ws m c) (bs m c) (Wd m c) (bd m c) (We m c) (be m c) j :=
    KStats.var_row m ρ c D j
  have e3 : Region2.gam (V8 (F := Ideal) m ρ) c (ix2 0 j) = gm m c (ix1 j) := KStats.gm_row m ρ c j
  have e4 : Region2.bet (V8 (F := Ideal) m ρ) c (ix2 0 j) = bm m c (ix1 j) := KStats.bm_row m ρ c j
  unfold Region2.nrm
  rw [e0, e1, e2, e3, e4]
  rfl

theorem msg_arr (D : InDom m c) :
    (W9 (F := Ideal) m ρ c (Proc.devRef .tc main_v22) : S800000x64.Idx → EReal)
      = Cert.Spec.msgArr (x m c) (ef m c) (src m c) (dst m c) (Ws m c) (bs m c) (Wd m c) (bd m c) (We m c) (be m c) (gm m c) (bm m c) (Cert.Spec.varSq (x m c) (ef m c) (src m c) (dst m c) (Ws m c) (bs m c) (Wd m c) (bd m c) (We m c) (be m c)) := by
  funext i
  obtain ⟨e, j, rfl⟩ : ∃ (e : Fin 800000) (j : Fin 64), i = ix2 e j := ⟨i 0, i 1, eq_ix2 i⟩
  have h1 : (W9 (F := Ideal) m ρ c (Proc.devRef .tc main_v22) : S800000x64.Idx → EReal)
      = Region2.outArr (V8 (F := Ideal) m ρ) c := W9_arr (F := Ideal) m ρ c 5
  have h2 : Region2.outArr (V8 (F := Ideal) m ρ) c (ix2 e j)
      = Ideal.logistic (Region2.nrm (V8 (F := Ideal) m ρ) c e ⟨j.val, by omega⟩)
          * Cert.Spec.softplus (Region2.nrm (V8 (F := Ideal) m ρ) c e ⟨j.val + 64, by omega⟩) :=
    Region2.out_apply _ c e j
  rw [nrm_eq m ρ c D, nrm_eq m ρ c D] at h2
  exact (congrFun h1 (ix2 e j)).trans h2

end Cert.KernelIdeal.KAct

end
-- ==== Proof.VarIdentity.lean ====
/-
  The one place the two programs differ: the variance of a column of the edge pre-activation. On real numbers
  a_1 … a_n with mean μ = (Σ a_e) / n, the mean of squares minus μ² equals the mean of (a_e − μ)²: expand the square,
  Σ (a_e − μ)² = Σ a_e² − 2 μ Σ a_e + n μ² = Σ a_e² − n μ². On the extended reals this needs every a_e real (at an
  infinity neither side is a number's variance), which the domain gives: a pre-activation is a finite sum of products
  of reals. It also needs the divisor to BE the count n = 800000, which is what the float word 0x49435000 denotes.
-/
import proofs.«410141_j3496103379076_1_alg».proof.Proof.Spec
import Idealize.ShloMosaic.PureOps.Ideal
import Mathlib.Data.EReal.Operations
import Mathlib.Algebra.BigOperators.Group.Finset.Basic
import Mathlib.Tactic.Ring
import Mathlib.Tactic.FieldSimp

noncomputable section

namespace Cert.Spec

open Idealize.ShloMosaic Idealize.ShloMosaic.ValueIdx

/-- The divisor word denotes the number of edges. -/
theorem nEdges_eq : nEdges = ((800000 : ℝ) : EReal) := by
  simp [nEdges, Ideal.ofBits, Ideal.ieee, -EReal.coe_mul]; norm_num

/-- The divisor word of the node statistics denotes the number of nodes. -/
theorem nNodes_eq : nNodes = ((50000 : ℝ) : EReal) := by
  simp [nNodes, Ideal.ofBits, Ideal.ieee, -EReal.coe_mul]; norm_num

namespace VarIdentity

/-- A finite sum of real numbers, taken on the extended reals, is the real sum. -/
theorem coe_sum {ι : Type*} (s : Finset ι) (f : ι → ℝ) :
    ∑ i ∈ s, (f i : EReal) = ((∑ i ∈ s, f i : ℝ) : EReal) := by
  classical
  refine Finset.induction_on s (by simp) (fun a s h ih => ?_)
  rw [Finset.sum_insert h, Finset.sum_insert h, ih, EReal.coe_add]

/-- The extended reals that are real numbers are closed under sum, product and finite sums. -/
theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by simp only [hg]; exact coe_sum s g⟩

/-- The variance identity on real numbers, over any finite index type whose size is the divisor: the mean of squares
    minus the squared mean is the mean of squared deviations. Division is written as the product with the reciprocal,
    the form division by a nonzero real takes on the extended reals. -/
theorem real_var {ι : Type*} [Fintype ι] (f : ι → ℝ) (n : ℝ) (hn : n = (Fintype.card ι : ℝ)) (h0 : n ≠ 0) :
    (∑ i, f i * f i) * (1 / n) - ((∑ i, f i) * (1 / n)) * ((∑ i, f i) * (1 / n))
      = (∑ i, (f i - (∑ i, f i) * (1 / n)) * (f i - (∑ i, f i) * (1 / n))) * (1 / n) := by
  have h1 : ∀ μ : ℝ, ∑ i, (f i - μ) * (f i - μ) = (∑ i, f i * f i) - 2 * μ * (∑ i, f i) + n * (μ * μ) := by
    intro μ
    have h2 : ∀ i, (f i - μ) * (f i - μ) = f i * f i - 2 * μ * f i + μ * μ := fun i => by ring
    simp only [h2, Finset.sum_add_distrib, Finset.sum_sub_distrib, ← Finset.mul_sum, Finset.sum_const,
      Finset.card_univ, nsmul_eq_mul, hn]
    ring
  rw [h1]; field_simp; ring

end VarIdentity

section
variable {x : SN64.Idx → EReal} {ef : SE32.Idx → EReal} {src dst : SE.Idx → BitVec 32}
  {Ws : S64x128.Idx → EReal} {bs : S128.Idx → EReal} {Wd : S64x128.Idx → EReal} {bd : S128.Idx → EReal}
  {We : S32x128.Idx → EReal} {be gm bm : S128.Idx → EReal} {gn bn : S64.Idx → EReal}

/-- In the domain every pre-activation is a real number. -/
theorem pre_real (D : Dom x ef src dst Ws bs Wd bd We be gm bm gn bn) (e : Fin 800000) (j : Fin 128) :
    ∃ r : ℝ, pre x ef src dst Ws bs Wd bd We be e j = (r : EReal) := by
  have hproj : ∀ (W : S64x128.Idx → EReal) (b : S128.Idx → EReal), (∀ i, ∃ r : ℝ, W i = (r : EReal)) →
      (∀ i, ∃ r : ℝ, b i = (r : EReal)) → ∀ n : Fin 50000, ∃ r : ℝ, proj x W b n j = (r : EReal) := by
    intro W b hW hb n
    exact VarIdentity.real_add
      (VarIdentity.real_sum _ _ (fun k => VarIdentity.real_mul (D.x_real _) (hW _))) (hb _)
  have hedge : ∃ r : ℝ, edgeLin ef We be e j = (r : EReal) :=
    VarIdentity.real_add
      (VarIdentity.real_sum _ _ (fun k => VarIdentity.real_mul (D.ef_real _) (D.We_real _))) (D.be_real _)
  exact VarIdentity.real_add
    (VarIdentity.real_add (hproj Ws bs D.Ws_real D.bs_real _) (hproj Wd bd D.Wd_real D.bd_real _)) hedge

/-- In the domain the two variances are one. -/
theorem varSq_eq_varDev (D : Dom x ef src dst Ws bs Wd bd We be gm bm gn bn) (j : Fin 128) :
    varSq x ef src dst Ws bs Wd bd We be j = varDev x ef src dst Ws bs Wd bd We be j := by
  choose a ha using fun e : Fin 800000 => pre_real D e j
  have h0 : (800000 : ℝ) ≠ 0 := by norm_num
  have hcard : (800000 : ℝ) = (Fintype.card (Fin 800000) : ℝ) := by simp
  simp only [varSq, varDev, preMean, preSum, preSumSq, ha, nEdges_eq, Ideal.div_coe h0,
    ← EReal.coe_mul, VarIdentity.coe_sum, ← EReal.coe_sub]
  exact congrArg _ (VarIdentity.real_var a 800000 hcard h0)

end

end Cert.Spec

end
-- ==== Proof.KNodeStats.lean ====
/-
  The received sums and the node statistics as the fourth launch finds them. The scatter-add of the messages into an
  array of zeros by the destination words is the specification's received sums; the column means are the sums divided by
  the number of nodes; the column variances are the means of squared deviations, the program's divisor being that number
  minus the integer 0 converted, and its guard "divisor > 0" true; all relaid as 1×64 rows, with the scale and the shift.

  First, about the pure operations alone and any array of received sums (no program is mentioned there, and the shape
  facts are arguments): the column sum read as a sum down the column, the column means, and the outlined variance function
  read at a column. Then what each of the three stretches of operations before the fourth launch leaves in the buffers
  that launch reads, from any contents before the stretch; and last the six facts, each of these at the contents the run
  has there.
-/
import proofs.«410141_j3496103379076_1_alg».proof.Proof.Gen.KernelIdeal.Frame
import proofs.«410141_j3496103379076_1_alg».proof.Proof.Spec
import proofs.«410141_j3496103379076_1_alg».proof.Proof.SpecNode
import proofs.«410141_j3496103379076_1_alg».proof.Proof.KArgs
import proofs.«410141_j3496103379076_1_alg».proof.Proof.KAct
import proofs.«410141_j3496103379076_1_alg».proof.Proof.VarIdentity
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run

set_option maxRecDepth 16384

noncomputable section

open Idealize.ShloMosaic Idealize.ShloMosaic.ValueIdx

namespace Cert.Spec.NodeStats

abbrev P0 : Shape := ⟨0, ![]⟩
abbrev P1x64 : Shape := ⟨2, ![1, 64]⟩

/-- A host column sum of a [50000, 64] array at column j: the initial value plus the sum down the column. -/
theorem colSum_apply (hh : SN64.Idx → EReal) (hred : SN64.ReducesTo [0] S64) (hS : 0 < P0.numel)
    (init : P0.Idx → EReal) (j : Fin 64) :
    Host.reduceAdd (F := Ideal) (φ := .f32) hh init hred hS (ix1 j) = init ix0 + ∑ n : Fin 50000, hh (ix2 n j) := by
  have hR : SN64.Reduces [0] S64 := by decide
  rw [hostReduceAdd_apply, Ideal.hostReduceAdd_single hred hR, eq_ix0 (Shape.Idx.first hS)]
  show init ix0 + ∑ k : Fin 50000, hh (hR.lift (ix1 j) k) = _
  refine congrArg (init ix0 + ·) (Finset.sum_congr rfl fun n _ => congrArg hh ?_)
  funext c
  match c with
  | ⟨0, _⟩ => exact Fin.ext rfl
  | ⟨1, _⟩ => exact Fin.ext rfl

/-- The divisor word is a positive real. -/
theorem nNodes_pos : (0 : EReal) < nNodes := by
  rw [nNodes_eq]; exact EReal.coe_pos.mpr (by norm_num)

/-- The column means as the programs compute them: the host column sum from the zero word, divided by the divisor word
    broadcast along the columns. -/
theorem mean_apply (hh : SN64.Idx → EReal) (hred : SN64.ReducesTo [0] S64) (hS : 0 < P0.numel)
    (b0_64 : P0.BroadcastsInDim S64 (![] : Fin 0 → Fin S64.rank)) (j : Fin 64) :
    Host.divf (F := Ideal) (φ := .f32)
        (Host.reduceAdd (F := Ideal) (φ := .f32) hh (constant (F := Ideal) P0 .f32 0x00000000#32) hred hS)
        (broadcastInDim S64 ![] b0_64 (constant (F := Ideal) P0 .f32 0x47435000#32)) (ix1 j)
      = nodeMean hh j := by
  rw [hostDivf_apply, colSum_apply, broadcastInDim_scalar_apply, constant_apply, constant_apply, Ideal.ofBits_zero_f32,
    zero_add]
  rfl

/-- The column variances as the outlined variance function computes them from an array and an integer word: the column
    means kept as a one-row matrix and broadcast down the rows, the deviations, their squares, the squares' column sums,
    the divisor word less the integer converted, the quotient, and the quotient kept where the divisor is positive. -/
def varChain (hred : SN64.ReducesTo [0] S64) (hS : 0 < P0.numel)
    (b64_1x64 : S64.BroadcastsInDim P1x64 (![1] : Fin 1 → Fin P1x64.rank))
    (b0_1x64 : P0.BroadcastsInDim P1x64 (![] : Fin 0 → Fin P1x64.rank))
    (b1x64_N : P1x64.BroadcastsInDim SN64 (![0, 1] : Fin 2 → Fin SN64.rank))
    (b0_64 : P0.BroadcastsInDim S64 (![] : Fin 0 → Fin S64.rank))
    (hh : SN64.Idx → EReal) (cI : P0.Idx → BitVec 32) : S64.Idx → EReal :=
  let v0 : FVec Ideal S64 .f32 := Host.reduceAdd (F := Ideal) (φ := .f32) hh (constant (F := Ideal) P0 .f32 0x00000000#32) hred hS
  let v1 : FVec Ideal P1x64 .f32 := broadcastInDim P1x64 ![1] b64_1x64 v0
  let v2 : FVec Ideal P1x64 .f32 := broadcastInDim P1x64 ![] b0_1x64 (constant (F := Ideal) P0 .f32 0x47435000#32)
  let v3 : FVec Ideal P1x64 .f32 := Host.divf (F := Ideal) v1 v2
  let v4 : FVec Ideal SN64 .f32 := broadcastInDim SN64 ![0, 1] b1x64_N v3
  let v5 : FVec Ideal SN64 .f32 := subf (F := Ideal) hh v4
  let v6 : FVec Ideal SN64 .f32 := mulf (F := Ideal) v5 v5
  let v7 : FVec Ideal P0 .f32 := sitofp (F := Ideal) .f32 cI
  let v8 : FVec Ideal P0 .f32 := subf (F := Ideal) (constant (F := Ideal) P0 .f32 0x47435000#32) v7
  let v9 : FVec Ideal S64 .f32 := Host.reduceAdd (F := Ideal) (φ := .f32) v6 (constant (F := Ideal) P0 .f32 0x00000000#32) hred hS
  let v10 : FVec Ideal S64 .f32 := broadcastInDim S64 ![] b0_64 v8
  let v11 : FVec Ideal S64 .f32 := Host.divf (F := Ideal) v9 v10
  let v12 : IVec P0 1 := cmpf (F := Ideal) .ogt v8 (constant (F := Ideal) P0 .f32 0x00000000#32)
  select (broadcastInDim S64 ![] b0_64 v12) v11
    (broadcastInDim S64 ![] b0_64 (id (constant (F := Ideal) P0 .f32 0x7FC00000#32)))

/-- The column means kept as a one-row matrix, at (0, j). -/
theorem meanRow_apply (hh : SN64.Idx → EReal) (hred : SN64.ReducesTo [0] S64) (hS : 0 < P0.numel)
    (b64_1x64 : S64.BroadcastsInDim P1x64 (![1] : Fin 1 → Fin P1x64.rank))
    (b0_1x64 : P0.BroadcastsInDim P1x64 (![] : Fin 0 → Fin P1x64.rank)) (j : Fin 64) :
    Host.divf (F := Ideal) (φ := .f32)
        (broadcastInDim P1x64 ![1] b64_1x64
          (Host.reduceAdd (F := Ideal) (φ := .f32) hh (constant (F := Ideal) P0 .f32 0x00000000#32) hred hS))
        (broadcastInDim P1x64 ![] b0_1x64 (constant (F := Ideal) P0 .f32 0x47435000#32)) (ix2 (0 : Fin 1) j)
      = nodeMean hh j := by
  rw [hostDivf_apply, broadcastInDim_apply _ b64_1x64 _ (ix2 (0 : Fin 1) j) (ix1 j) (fun a => match a with | ⟨0, _⟩ => rfl),
    colSum_apply, broadcastInDim_scalar_apply, constant_apply, constant_apply, Ideal.ofBits_zero_f32, zero_add]
  rfl

/-- A one-row matrix broadcast down the rows reads its row. -/
theorem rowBcast_apply (M : P1x64.Idx → EReal) (b1x64_N : P1x64.BroadcastsInDim SN64 (![0, 1] : Fin 2 → Fin SN64.rank))
    (n : Fin 50000) (j : Fin 64) :
    broadcastInDim SN64 ![0, 1] b1x64_N M (ix2 n j) = M (ix2 (0 : Fin 1) j) :=
  broadcastInDim_apply _ b1x64_N M (ix2 n j) (ix2 (0 : Fin 1) j)
    (fun a => match a with | ⟨0, _⟩ => rfl | ⟨1, _⟩ => rfl)

/-- The variance's divisor: the divisor word less the integer zero converted is the divisor word. -/
theorem divisor_apply (cI : P0.Idx → BitVec 32) (hc : cI ix0 = 0#32) :
    (subf (F := Ideal) (constant (F := Ideal) P0 .f32 0x47435000#32) (sitofp (F := Ideal) .f32 cI) : FVec Ideal P0 .f32) ix0
      = nNodes := by
  rw [subf_apply, constant_apply, sitofp_apply, hc]
  show nNodes - (((0#32 : BitVec 32).toInt : ℝ) : EReal) = nNodes
  simp

/-- The guard "divisor > 0" holds. -/
theorem guard_one : FloatOps.cmpf (F := Ideal) (φ := .f32) .ogt nNodes (Ideal.ofBits .f32 0x00000000#32) = 1#1 := by
  show Ideal.cmp .ogt nNodes (Ideal.ofBits .f32 0x00000000#32) = 1#1
  rw [Ideal.ofBits_zero_f32]
  unfold Ideal.cmp
  simp [nNodes_pos]

/-- The outlined variance function at column j is the specification's column variance. -/
theorem varChain_apply (hred : SN64.ReducesTo [0] S64) (hS : 0 < P0.numel)
    (b64_1x64 : S64.BroadcastsInDim P1x64 (![1] : Fin 1 → Fin P1x64.rank))
    (b0_1x64 : P0.BroadcastsInDim P1x64 (![] : Fin 0 → Fin P1x64.rank))
    (b1x64_N : P1x64.BroadcastsInDim SN64 (![0, 1] : Fin 2 → Fin SN64.rank))
    (b0_64 : P0.BroadcastsInDim S64 (![] : Fin 0 → Fin S64.rank))
    (hh : SN64.Idx → EReal) (cI : P0.Idx → BitVec 32) (hc : cI ix0 = 0#32) (j : Fin 64) :
    varChain hred hS b64_1x64 b0_1x64 b1x64_N b0_64 hh cI (ix1 j) = nodeVar hh j := by
  dsimp only [varChain]
  rw [select_apply, broadcastInDim_scalar_apply, cmpf_apply, divisor_apply cI hc, constant_apply, guard_one, select_one,
    hostDivf_apply, colSum_apply, broadcastInDim_scalar_apply, divisor_apply cI hc, constant_apply, Ideal.ofBits_zero_f32,
    zero_add]
  unfold nodeVar
  refine congrArg (Ideal.div · nNodes) (Finset.sum_congr rfl fun n _ => ?_)
  rw [mulf_apply, subf_apply, rowBcast_apply, meanRow_apply]

end Cert.Spec.NodeStats

open Idealize.ShloMosaic.TcCoe Idealize.ShloMosaic.Pipeline
open Cert.KernelIdeal Cert.KernelIdeal.Gen
open Cert.KernelIdeal.KV

namespace Cert.KernelIdeal.KNodeStats

variable (m : (ℓ : Loc nD τ sig) → Buf (Elt Ideal) ℓ) (ρ : Dev nD → PrngReg) (c : Dev nD)

/-- The received sums the kernel program computes. -/
abbrev h : Cert.Spec.SN64.Idx → EReal :=
  Cert.Spec.received (Cert.Spec.msgArr (x m c) (ef m c) (src m c) (dst m c) (Ws m c) (bs m c) (Wd m c) (bd m c) (We m c) (be m c) (gm m c) (bm m c) (Cert.Spec.varSq (x m c) (ef m c) (src m c) (dst m c) (Ws m c) (bs m c) (Wd m c) (bd m c) (We m c) (be m c))) (dst m c)

/-- A buffer that no operation of a host stretch writes holds after the stretch what it held before. -/
local macro "not_written" : tactic =>
  `(tactic| (refine StableHlo.after_of_forall_not_mem _ _ (List.forall_iff_forall_mem.mp ?_)
             simp only [hostOps3, hostOps3_1, hostOps3_2, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

theorem x_kept : (W12 (F := Ideal) m ρ c (Proc.devRef .tc main_arg0) : S50000x64.Idx → EReal) = x m c :=
  (((W13_arr m ρ c 0).trans (((dat3 (V12 m ρ) c).arrAt_in 0 rfl _).trans (A_eq3 (V12 m ρ) c 0))).symm).trans
    (W13_main_arg0 m ρ c)

/-- The destination words are as launched when the scatter reads them. -/
theorem dst_kept : (W9 (F := Ideal) m ρ c (Proc.devRef .tc main_arg3) : S800000.Idx → BitVec 32) = dst m c := by
  have e13 : W13 (F := Ideal) m ρ c (Proc.devRef .tc main_arg3) = W12 (F := Ideal) m ρ c (Proc.devRef .tc main_arg3) :=
    W13_of_ne m ρ c main_arg3 (by decide)
  have e12 : W12 (F := Ideal) m ρ c (Proc.devRef .tc main_arg3) = W11 (F := Ideal) m ρ c (Proc.devRef .tc main_arg3) := by
    not_written
  have e11 : W11 (F := Ideal) m ρ c (Proc.devRef .tc main_arg3) = W10 (F := Ideal) m ρ c (Proc.devRef .tc main_arg3) := by
    not_written
  have e10 : W10 (F := Ideal) m ρ c (Proc.devRef .tc main_arg3) = W9 (F := Ideal) m ρ c (Proc.devRef .tc main_arg3) := by
    not_written
  exact ((e13.trans (e12.trans (e11.trans e10))).symm).trans (W13_main_arg3 m ρ c)

/-- The scatter-add as the program writes it is the specification's received sums. -/
theorem scatter_eq (D : InDom m c) :
    Host.scatterAdd (F := Ideal) (φ := .f32) scatter_S50000x64_S800000x1_S800000x64_1_0_0_1
        (broadcastInDim S50000x64 ![] bcast_S_S50000x64 (constant (F := Ideal) S_ .f32 0x00000000#32))
        (broadcastInDim S800000x1 ![0] bcast_S800000_S800000x1_0
          (W9 (F := Ideal) m ρ c (Proc.devRef .tc main_arg3) : S800000.Idx → BitVec 32))
        (W9 (F := Ideal) m ρ c (Proc.devRef .tc main_v22) : S800000x64.Idx → EReal)
      = h m c := by
  have hz : (broadcastInDim S50000x64 ![] bcast_S_S50000x64 (constant (F := Ideal) S_ .f32 0x00000000#32) : S50000x64.Idx → EReal)
      = fun _ => Ideal.ofBits .f32 0x00000000#32 :=
    funext fun i => by rw [broadcastInDim_scalar_apply, constant_apply]
  have hcol : (broadcastInDim S800000x1 ![0] bcast_S800000_S800000x1_0 (dst m c) : S800000x1.Idx → BitVec 32)
      = fun i => dst m c (ix1 (i 0)) :=
    funext fun i => broadcastInDim_apply _ bcast_S800000_S800000x1_0 (dst m c) i (ix1 (i 0))
      (fun a => match a with | ⟨0, _⟩ => rfl)
  have hs : scatter_S50000x64_S800000x1_S800000x64_1_0_0_1 = Cert.Spec.scatDims := rfl
  rw [dst_kept, KAct.msg_arr m ρ c D, hz, hcol, hs]
  rfl

/-! What each of the three host stretches before the fourth launch leaves in the buffers read below, from ANY contents
    `V` before the stretch: each operation's result at its own buffer is its function of its operands' contents. -/
section Stretch

variable (V : Valuation τ sig (Elt Ideal))

/-- The first stretch's scatter. -/
theorem ops3_v25 :
    (StableHlo.after hostOps3 V (Proc.devRef .tc main_v25) : S50000x64.Idx → EReal)
      = Host.scatterAdd (F := Ideal) (φ := .f32) scatter_S50000x64_S800000x1_S800000x64_1_0_0_1
          (broadcastInDim S50000x64 ![] bcast_S_S50000x64 (constant (F := Ideal) S_ .f32 0x00000000#32))
          (broadcastInDim S800000x1 ![0] bcast_S800000_S800000x1_0 (V (Proc.devRef .tc main_arg3) : S800000.Idx → BitVec 32))
          (V (Proc.devRef .tc main_v22) : S800000x64.Idx → EReal) := by
  after_results

/-- The first stretch's column means, from the scatter's buffer. -/
theorem ops3_v28 :
    (StableHlo.after hostOps3 V (Proc.devRef .tc main_v28) : S64.Idx → EReal)
      = Host.divf (F := Ideal) (φ := .f32)
          (Host.reduceAdd (F := Ideal) (φ := .f32)
            (StableHlo.after hostOps3 V (Proc.devRef .tc main_v25) : S50000x64.Idx → EReal)
            (constant (F := Ideal) S_ .f32 0x00000000#32) reducesTo_S50000x64_S64_d0 h_S_)
          (broadcastInDim S64 ![] bcast_S_S64 (constant (F := Ideal) S_ .f32 0x47435000#32)) := by
  rw [ops3_v25]
  after_results

/-- The first stretch's integer word. -/
theorem ops3_c : (StableHlo.after hostOps3 V (Proc.devRef .tc main_c) : S_.Idx → BitVec 32) = constantI S_ 32 0#32 := by
  after_results

/-- The second stretch is the outlined variance function of the scatter's buffer and the integer word. -/
theorem ops31_v29 :
    (StableHlo.after hostOps3_1 V (Proc.devRef .tc main_v29) : S64.Idx → EReal)
      = Cert.Spec.NodeStats.varChain reducesTo_S50000x64_S64_d0 h_S_ bcast_S64_S1x64_1 bcast_S_S1x64
          bcast_S1x64_S50000x64_0_1 bcast_S_S64
          (V (Proc.devRef .tc main_v25) : S50000x64.Idx → EReal) (V (Proc.devRef .tc main_c) : S_.Idx → BitVec 32) := by
  after_results_simp
  rfl

/-- The third stretch's four one-row matrices. -/
theorem ops32_v30 :
    (StableHlo.after hostOps3_2 V (Proc.devRef .tc main_v30) : S1x64.Idx → EReal)
      = shapeCast S1x64 (V (Proc.devRef .tc main_v28) : S64.Idx → EReal) shapeCasts_S64_S1x64 := by
  after_results; rfl
theorem ops32_v31 :
    (StableHlo.after hostOps3_2 V (Proc.devRef .tc main_v31) : S1x64.Idx → EReal)
      = shapeCast S1x64 (V (Proc.devRef .tc main_v29) : S64.Idx → EReal) shapeCasts_S64_S1x64 := by
  after_results; rfl
theorem ops32_v32 :
    (StableHlo.after hostOps3_2 V (Proc.devRef .tc main_v32) : S1x64.Idx → EReal)
      = shapeCast S1x64 (V (Proc.devRef .tc main_arg12) : S64.Idx → EReal) shapeCasts_S64_S1x64 := by
  after_results; rfl
theorem ops32_v33 :
    (StableHlo.after hostOps3_2 V (Proc.devRef .tc main_v33) : S1x64.Idx → EReal)
      = shapeCast S1x64 (V (Proc.devRef .tc main_arg13) : S64.Idx → EReal) shapeCasts_S64_S1x64 := by
  after_results; rfl

end Stretch

/-- After the first stretch the scatter's buffer holds the received sums. -/
theorem h_W10 (D : InDom m c) :
    (W10 (F := Ideal) m ρ c (Proc.devRef .tc main_v25) : S50000x64.Idx → EReal) = h m c :=
  (ops3_v25 (W9 (F := Ideal) m ρ c)).trans (scatter_eq m ρ c D)

theorem h_arr (D : InDom m c) :
    (W12 (F := Ideal) m ρ c (Proc.devRef .tc main_v25) : S50000x64.Idx → EReal) = h m c := by
  have e12 : W12 (F := Ideal) m ρ c (Proc.devRef .tc main_v25) = W11 (F := Ideal) m ρ c (Proc.devRef .tc main_v25) := by
    not_written
  have e11 : W11 (F := Ideal) m ρ c (Proc.devRef .tc main_v25) = W10 (F := Ideal) m ρ c (Proc.devRef .tc main_v25) := by
    not_written
  exact (e12.trans e11).trans (h_W10 m ρ c D)

theorem mean_row (D : InDom m c) (j : Fin 64) :
    (W12 (F := Ideal) m ρ c (Proc.devRef .tc main_v30) : S1x64.Idx → EReal) (ix2 0 j) = Cert.Spec.nodeMean (h m c) j := by
  have e30 : (W12 (F := Ideal) m ρ c (Proc.devRef .tc main_v30) : S1x64.Idx → EReal)
      = shapeCast S1x64 (W11 (F := Ideal) m ρ c (Proc.devRef .tc main_v28) : S64.Idx → EReal) shapeCasts_S64_S1x64 :=
    ops32_v30 (W11 (F := Ideal) m ρ c)
  have e11 : W11 (F := Ideal) m ρ c (Proc.devRef .tc main_v28) = W10 (F := Ideal) m ρ c (Proc.devRef .tc main_v28) := by
    not_written
  have e28 : (W10 (F := Ideal) m ρ c (Proc.devRef .tc main_v28) : S64.Idx → EReal)
      = Host.divf (F := Ideal) (φ := .f32)
          (Host.reduceAdd (F := Ideal) (φ := .f32) (W10 (F := Ideal) m ρ c (Proc.devRef .tc main_v25) : S50000x64.Idx → EReal)
            (constant (F := Ideal) S_ .f32 0x00000000#32) reducesTo_S50000x64_S64_d0 h_S_)
          (broadcastInDim S64 ![] bcast_S_S64 (constant (F := Ideal) S_ .f32 0x47435000#32)) :=
    ops3_v28 (W9 (F := Ideal) m ρ c)
  rw [e30, shapeCast_a_1a_apply, e11, e28, h_W10 m ρ c D]
  exact Cert.Spec.NodeStats.mean_apply _ _ _ _ j

theorem var_row (D : InDom m c) (j : Fin 64) :
    (W12 (F := Ideal) m ρ c (Proc.devRef .tc main_v31) : S1x64.Idx → EReal) (ix2 0 j) = Cert.Spec.nodeVar (h m c) j := by
  have e31 : (W12 (F := Ideal) m ρ c (Proc.devRef .tc main_v31) : S1x64.Idx → EReal)
      = shapeCast S1x64 (W11 (F := Ideal) m ρ c (Proc.devRef .tc main_v29) : S64.Idx → EReal) shapeCasts_S64_S1x64 :=
    ops32_v31 (W11 (F := Ideal) m ρ c)
  have e29 : (W11 (F := Ideal) m ρ c (Proc.devRef .tc main_v29) : S64.Idx → EReal)
      = Cert.Spec.NodeStats.varChain reducesTo_S50000x64_S64_d0 h_S_ bcast_S64_S1x64_1 bcast_S_S1x64
          bcast_S1x64_S50000x64_0_1 bcast_S_S64
          (W10 (F := Ideal) m ρ c (Proc.devRef .tc main_v25) : S50000x64.Idx → EReal)
          (W10 (F := Ideal) m ρ c (Proc.devRef .tc main_c) : S_.Idx → BitVec 32) :=
    ops31_v29 (W10 (F := Ideal) m ρ c)
  have ec : (W10 (F := Ideal) m ρ c (Proc.devRef .tc main_c) : S_.Idx → BitVec 32) = constantI S_ 32 0#32 :=
    ops3_c (W9 (F := Ideal) m ρ c)
  rw [e31, shapeCast_a_1a_apply, e29, h_W10 m ρ c D, ec]
  exact Cert.Spec.NodeStats.varChain_apply _ _ _ _ _ _ _ _ rfl j

theorem gn_row (j : Fin 64) :
    (W12 (F := Ideal) m ρ c (Proc.devRef .tc main_v32) : S1x64.Idx → EReal) (ix2 0 j) = gn m c (ix1 j) := by
  have e32 : (W12 (F := Ideal) m ρ c (Proc.devRef .tc main_v32) : S1x64.Idx → EReal)
      = shapeCast S1x64 (W11 (F := Ideal) m ρ c (Proc.devRef .tc main_arg12) : S64.Idx → EReal) shapeCasts_S64_S1x64 :=
    ops32_v32 (W11 (F := Ideal) m ρ c)
  have e13 : W13 (F := Ideal) m ρ c (Proc.devRef .tc main_arg12) = W12 (F := Ideal) m ρ c (Proc.devRef .tc main_arg12) :=
    W13_of_ne m ρ c main_arg12 (by decide)
  have e12 : W12 (F := Ideal) m ρ c (Proc.devRef .tc main_arg12) = W11 (F := Ideal) m ρ c (Proc.devRef .tc main_arg12) := by
    not_written
  have e : (W11 (F := Ideal) m ρ c (Proc.devRef .tc main_arg12) : S64.Idx → EReal) = gn m c :=
    ((e13.trans e12).symm).trans (W13_main_arg12 m ρ c)
  rw [e32, shapeCast_a_1a_apply, e]

theorem bn_row (j : Fin 64) :
    (W12 (F := Ideal) m ρ c (Proc.devRef .tc main_v33) : S1x64.Idx → EReal) (ix2 0 j) = bn m c (ix1 j) := by
  have e33 : (W12 (F := Ideal) m ρ c (Proc.devRef .tc main_v33) : S1x64.Idx → EReal)
      = shapeCast S1x64 (W11 (F := Ideal) m ρ c (Proc.devRef .tc main_arg13) : S64.Idx → EReal) shapeCasts_S64_S1x64 :=
    ops32_v33 (W11 (F := Ideal) m ρ c)
  have e13 : W13 (F := Ideal) m ρ c (Proc.devRef .tc main_arg13) = W12 (F := Ideal) m ρ c (Proc.devRef .tc main_arg13) :=
    W13_of_ne m ρ c main_arg13 (by decide)
  have e12 : W12 (F := Ideal) m ρ c (Proc.devRef .tc main_arg13) = W11 (F := Ideal) m ρ c (Proc.devRef .tc main_arg13) := by
    not_written
  have e : (W11 (F := Ideal) m ρ c (Proc.devRef .tc main_arg13) : S64.Idx → EReal) = bn m c :=
    ((e13.trans e12).symm).trans (W13_main_arg13 m ρ c)
  rw [e33, shapeCast_a_1a_apply, e]

end Cert.KernelIdeal.KNodeStats

end
-- ==== Proof.KOut.lean ====
/-
  The kernel program's result: what the last boundary of its run holds for the result array is the specification's
  last stage applied to the node features and the received sums.
-/
import proofs.«410141_j3496103379076_1_alg».proof.Proof.Gen.KernelIdeal.Frame
import proofs.«410141_j3496103379076_1_alg».proof.Proof.Spec
import proofs.«410141_j3496103379076_1_alg».proof.Proof.SpecNode
import proofs.«410141_j3496103379076_1_alg».proof.Proof.KArgs
import proofs.«410141_j3496103379076_1_alg».proof.Proof.Region3
import proofs.«410141_j3496103379076_1_alg».proof.Proof.KNodeStats
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.ShloMosaic.ValueIdx Idealize.ShloMosaic.Pipeline
open Cert.KernelIdeal Cert.KernelIdeal.Gen
open Cert.KernelIdeal.KV

namespace Cert.KernelIdeal.KOut

variable (m : (ℓ : Loc nD τ sig) → Buf (Elt Ideal) ℓ) (ρ : Dev nD → PrngReg) (c : Dev nD)

theorem out_arr (D : InDom m c) :
    (W13 (F := Ideal) m ρ c (Proc.devRef .tc main_v34) : S50000x64.Idx → EReal)
      = Cert.Spec.outOf (x m c) (Cert.KernelIdeal.KNodeStats.h m c) (gn m c) (bn m c) := by
  funext i
  obtain ⟨n, j, rfl⟩ : ∃ (n : Fin 50000) (j : Fin 64), i = ix2 n j := ⟨i 0, i 1, eq_ix2 i⟩
  have h1 : (W13 (F := Ideal) m ρ c (Proc.devRef .tc main_v34) : S50000x64.Idx → EReal)
      = Region3.outArr (V12 (F := Ideal) m ρ) c := W13_arr (F := Ideal) m ρ c 6
  have h2 : Region3.outArr (V12 (F := Ideal) m ρ) c (ix2 n j)
      = Cert.Spec.softplus (Region3.nf (V12 (F := Ideal) m ρ) c (ix2 n j)
          + Cert.Spec.norm (Region3.hIn (V12 (F := Ideal) m ρ) c (ix2 n j)) (Region3.mean (V12 (F := Ideal) m ρ) c (ix2 0 j))
              (Region3.var (V12 (F := Ideal) m ρ) c (ix2 0 j)) (Region3.gam (V12 (F := Ideal) m ρ) c (ix2 0 j))
              (Region3.bet (V12 (F := Ideal) m ρ) c (ix2 0 j))) :=
    Region3.out_apply _ c n j
  have e0 : Region3.nf (V12 (F := Ideal) m ρ) c = x m c := KNodeStats.x_kept m ρ c
  have e1 : Region3.hIn (V12 (F := Ideal) m ρ) c = KNodeStats.h m c := KNodeStats.h_arr m ρ c D
  have e2 : Region3.mean (V12 (F := Ideal) m ρ) c (ix2 0 j) = Cert.Spec.nodeMean (KNodeStats.h m c) j :=
    KNodeStats.mean_row m ρ c D j
  have e3 : Region3.var (V12 (F := Ideal) m ρ) c (ix2 0 j) = Cert.Spec.nodeVar (KNodeStats.h m c) j :=
    KNodeStats.var_row m ρ c D j
  have e4 : Region3.gam (V12 (F := Ideal) m ρ) c (ix2 0 j) = gn m c (ix1 j) := KNodeStats.gn_row m ρ c j
  have e5 : Region3.bet (V12 (F := Ideal) m ρ) c (ix2 0 j) = bn m c (ix1 j) := KNodeStats.bn_row m ρ c j
  rw [e0, e1, e2, e3, e4, e5] at h2
  exact (congrFun h1 (ix2 n j)).trans h2

end Cert.KernelIdeal.KOut

end
-- ==== Proof.RefRun.lean ====
/-
  The run of the reference program read back. Its @main is ONE straight line of host operations: the ninety-two
  operations @main states itself, and, at each of its four calls, the callee's operations over that call's own
  buffers (the variance function's twenty-two, three of them the select function's it calls in turn; the softplus
  function's fourteen), 164 in all, in program order. A call of a module-local function is its body applied to
  the operands' and the call's buffers, so unfolding the six bodies and re-associating the sequencing leaves
  exactly that line. The signature scopes no buffer and no semaphore and every operation touches TensorCore
  references only, so from any memory with zero counters every weakly fair execution of @main terminates with
  each buffer at the line's fold over the launch contents.
-/
import proofs.«410141_j3496103379076_1_alg».proof.ReferenceIdeal
import proofs.«410141_j3496103379076_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded. The two node projections (a product with a weight matrix
    plus a bias row), each gathered along one of the two endpoint index vectors (a negative index first wrapped
    by the node count 50000); their sum plus the edge projection. The first normalisation over the 800000 rows:
    the column mean; the variance function's line in call 0's buffers (the mean again, the centred squares'
    column sum over the row count less the integer operand, its select between that quotient and a quiet NaN
    in call 0's own call); the centred value times the reciprocal root of the variance plus a small constant,
    scaled and shifted by two rows. The two column halves: the logistic function of the first times the
    softplus function's line (call 1's buffers) on the second. The scatter-add of that product onto a zero
    50000 × 64 table at the rows of the second index vector. The second normalisation over the 50000 rows (call 2
    and its call), the sum with the first argument, and the softplus line once more (call 3's buffers). -/
abbrev ops : List (HloOp τ sig (Elt F)) :=
  [ StableHlo.binary main_arg0 main_arg4 main_v0 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg5 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.binary main_arg0 main_arg6 main_v4 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg7 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v8 (broadcastInDim S800000 ![] bcast_S_S800000 : (⟨S_, .i32⟩ : BufTy).Contents (Elt F) → (⟨S800000, .i32⟩ : BufTy).Contents (Elt F)),
    StableHlo.binary main_arg2 main_v8 main_v9 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v10 (broadcastInDim S800000 ![] bcast_S_S800000 : (⟨S_, .i32⟩ : BufTy).Contents (Elt F) → (⟨S800000, .i32⟩ : BufTy).Contents (Elt F)),
    StableHlo.binary main_arg2 main_v10 main_v11 (addi : (⟨S800000, .i32⟩ : BufTy).Contents (Elt F) → (⟨S800000, .i32⟩ : BufTy).Contents (Elt F) → (⟨S800000, .i32⟩ : BufTy).Contents (Elt F)),
    StableHlo.ternary main_v9 main_v11 main_arg2 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v12 main_v13 (broadcastInDim S800000x1 ![0] bcast_S800000_S800000x1_0 : (⟨S800000, .i32⟩ : BufTy).Contents (Elt F) → (⟨S800000x1, .i32⟩ : BufTy).Contents (Elt F)),
    StableHlo.binary main_v3 main_v13 main_v14 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 0#32),
    StableHlo.unary main_c_1 main_v15 (broadcastInDim S800000 ![] bcast_S_S800000 : (⟨S_, .i32⟩ : BufTy).Contents (Elt F) → (⟨S800000, .i32⟩ : BufTy).Contents (Elt F)),
    StableHlo.binary main_arg3 main_v15 main_v16 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v17 (broadcastInDim S800000 ![] bcast_S_S800000 : (⟨S_, .i32⟩ : BufTy).Contents (Elt F) → (⟨S800000, .i32⟩ : BufTy).Contents (Elt F)),
    StableHlo.binary main_arg3 main_v17 main_v18 (addi : (⟨S800000, .i32⟩ : BufTy).Contents (Elt F) → (⟨S800000, .i32⟩ : BufTy).Contents (Elt F) → (⟨S800000, .i32⟩ : BufTy).Contents (Elt F)),
    StableHlo.ternary main_v16 main_v18 main_arg3 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v19 main_v20 (broadcastInDim S800000x1 ![0] bcast_S800000_S800000x1_0 : (⟨S800000, .i32⟩ : BufTy).Contents (Elt F) → (⟨S800000x1, .i32⟩ : BufTy).Contents (Elt F)),
    StableHlo.binary main_v7 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v14 main_v21 main_v22 (addf : (⟨S800000x128, .f32⟩ : BufTy).Contents (Elt F) → (⟨S800000x128, .f32⟩ : BufTy).Contents (Elt F) → (⟨S800000x128, .f32⟩ : BufTy).Contents (Elt F)),
    StableHlo.binary main_arg1 main_arg8 main_v23 ((fun l r => Host.dotGeneral dot_S800000x32_S32x128_S800000x128_1_0_0_1_n_n none l r) : (⟨S800000x32, .f32⟩ : BufTy).Contents (Elt F) → (⟨S32x128, .f32⟩ : BufTy).Contents (Elt F) → (⟨S800000x128, .f32⟩ : BufTy).Contents (Elt F)),
    StableHlo.unary main_arg9 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S800000x128 ![0, 1] bcast_S1x128_S800000x128_0_1 : (⟨S1x128, .f32⟩ : BufTy).Contents (Elt F) → (⟨S800000x128, .f32⟩ : BufTy).Contents (Elt F)),
    StableHlo.binary main_v23 main_v25 main_v26 (addf : (⟨S800000x128, .f32⟩ : BufTy).Contents (Elt F) → (⟨S800000x128, .f32⟩ : BufTy).Contents (Elt F) → (⟨S800000x128, .f32⟩ : BufTy).Contents (Elt F)),
    StableHlo.binary main_v22 main_v26 main_v27 (addf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.binary main_v27 main_cst main_v28 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    StableHlo.nullary main_cst_3 (constant S_ .f32 0x49435000#32),
    StableHlo.unary main_cst_3 main_v29 (broadcastInDim S128 ![] bcast_S_S128 : (⟨S_, .f32⟩ : BufTy).Contents (Elt F) → (⟨S128, .f32⟩ : BufTy).Contents (Elt F)),
    StableHlo.binary main_v28 main_v29 main_v30 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v27 : StableHlo.TRef sig ⟨S800000x128, .f32⟩) main_call0.cst main_call0.v0 (fun x v => Host.reduceAdd x v reducesTo_S800000x128_S128_d0 h_S_),
    StableHlo.TRef.unary main_call0.v0 main_call0.v1 (broadcastInDim S1x128 ![1] bcast_S128_S1x128_1),
    StableHlo.TRef.nullary main_call0.cst_0 (constant S_ .f32 0x49435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S800000x128 ![0, 1] bcast_S1x128_S800000x128_0_1),
    StableHlo.TRef.binary (.of main_v27 : StableHlo.TRef sig ⟨S800000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x49435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S800000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v30 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S800000x128 ![0, 1] bcast_S1x128_S800000x128_0_1 : (⟨S1x128, .f32⟩ : BufTy).Contents (Elt F) → (⟨S800000x128, .f32⟩ : BufTy).Contents (Elt F)),
    StableHlo.binary main_v27 main_v33 main_v34 (subf : (⟨S800000x128, .f32⟩ : BufTy).Contents (Elt F) → (⟨S800000x128, .f32⟩ : BufTy).Contents (Elt F) → (⟨S800000x128, .f32⟩ : BufTy).Contents (Elt F)),
    StableHlo.nullary main_cst_5 (constant S_ .f32 0x3727C5AC#32),
    StableHlo.unary main_cst_5 main_v35 (broadcastInDim S128 ![] bcast_S_S128 : (⟨S_, .f32⟩ : BufTy).Contents (Elt F) → (⟨S128, .f32⟩ : BufTy).Contents (Elt F)),
    StableHlo.binary main_v31 main_v35 main_v36 (addf : (⟨S128, .f32⟩ : BufTy).Contents (Elt F) → (⟨S128, .f32⟩ : BufTy).Contents (Elt F) → (⟨S128, .f32⟩ : BufTy).Contents (Elt F)),
    StableHlo.unary main_v36 main_v37 (Host.rsqrt : (⟨S128, .f32⟩ : BufTy).Contents (Elt F) → (⟨S128, .f32⟩ : BufTy).Contents (Elt F)),
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S800000x128 ![0, 1] bcast_S1x128_S800000x128_0_1 : (⟨S1x128, .f32⟩ : BufTy).Contents (Elt F) → (⟨S800000x128, .f32⟩ : BufTy).Contents (Elt F)),
    StableHlo.binary main_v34 main_v39 main_v40 (mulf : (⟨S800000x128, .f32⟩ : BufTy).Contents (Elt F) → (⟨S800000x128, .f32⟩ : BufTy).Contents (Elt F) → (⟨S800000x128, .f32⟩ : BufTy).Contents (Elt F)),
    StableHlo.unary main_arg10 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S800000x128 ![0, 1] bcast_S1x128_S800000x128_0_1 : (⟨S1x128, .f32⟩ : BufTy).Contents (Elt F) → (⟨S800000x128, .f32⟩ : BufTy).Contents (Elt F)),
    StableHlo.binary main_v40 main_v42 main_v43 (mulf : (⟨S800000x128, .f32⟩ : BufTy).Contents (Elt F) → (⟨S800000x128, .f32⟩ : BufTy).Contents (Elt F) → (⟨S800000x128, .f32⟩ : BufTy).Contents (Elt F)),
    StableHlo.unary main_arg11 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S800000x128 ![0, 1] bcast_S1x128_S800000x128_0_1 : (⟨S1x128, .f32⟩ : BufTy).Contents (Elt F) → (⟨S800000x128, .f32⟩ : BufTy).Contents (Elt F)),
    StableHlo.binary main_v43 main_v45 main_v46 (addf : (⟨S800000x128, .f32⟩ : BufTy).Contents (Elt F) → (⟨S800000x128, .f32⟩ : BufTy).Contents (Elt F) → (⟨S800000x128, .f32⟩ : BufTy).Contents (Elt F)),
    StableHlo.unary main_v46 main_v47 ((extractStridedSlice S800000x64 ![0, 0] · slices_S800000x128_S800000x64_0_0) : (⟨S800000x128, .f32⟩ : BufTy).Contents (Elt F) → (⟨S800000x64, .f32⟩ : BufTy).Contents (Elt F)),
    StableHlo.unary main_v46 main_v48 ((extractStridedSlice S800000x64 ![0, 64] · slices_S800000x128_S800000x64_0_64) : (⟨S800000x128, .f32⟩ : BufTy).Contents (Elt F) → (⟨S800000x64, .f32⟩ : BufTy).Contents (Elt F)),
    StableHlo.unary main_v47 main_v49 (Host.negf : (⟨S800000x64, .f32⟩ : BufTy).Contents (Elt F) → (⟨S800000x64, .f32⟩ : BufTy).Contents (Elt F)),
    StableHlo.unary main_v49 main_v50 (Host.exp : (⟨S800000x64, .f32⟩ : BufTy).Contents (Elt F) → (⟨S800000x64, .f32⟩ : BufTy).Contents (Elt F)),
    StableHlo.nullary main_cst_6 (constant S_ .f32 0x3F800000#32),
    StableHlo.unary main_cst_6 main_v51 (broadcastInDim S800000x64 ![] bcast_S_S800000x64 : (⟨S_, .f32⟩ : BufTy).Contents (Elt F) → (⟨S800000x64, .f32⟩ : BufTy).Contents (Elt F)),
    StableHlo.binary main_v51 main_v50 main_v52 (addf : (⟨S800000x64, .f32⟩ : BufTy).Contents (Elt F) → (⟨S800000x64, .f32⟩ : BufTy).Contents (Elt F) → (⟨S800000x64, .f32⟩ : BufTy).Contents (Elt F)),
    StableHlo.nullary main_cst_7 (constant S_ .f32 0x3F800000#32),
    StableHlo.unary main_cst_7 main_v53 (broadcastInDim S800000x64 ![] bcast_S_S800000x64 : (⟨S_, .f32⟩ : BufTy).Contents (Elt F) → (⟨S800000x64, .f32⟩ : BufTy).Contents (Elt F)),
    StableHlo.binary main_v53 main_v52 main_v54 (Host.divf : (⟨S800000x64, .f32⟩ : BufTy).Contents (Elt F) → (⟨S800000x64, .f32⟩ : BufTy).Contents (Elt F) → (⟨S800000x64, .f32⟩ : BufTy).Contents (Elt F)),
    StableHlo.TRef.nullary main_call1.cst (constant S_ .f32 0x00000000#32),
    StableHlo.TRef.unary main_call1.cst main_call1.v0 (broadcastInDim S800000x64 ![] bcast_S_S800000x64),
    StableHlo.TRef.binary (.of main_v48 : StableHlo.TRef sig ⟨S800000x64, .f32⟩) main_call1.v0 main_call1.v1 maximumf,
    StableHlo.TRef.unary main_call1.cst main_call1.v2 (broadcastInDim S800000x64 ![] bcast_S_S800000x64),
    StableHlo.TRef.binary (.of main_v48 : StableHlo.TRef sig ⟨S800000x64, .f32⟩) main_call1.v2 main_call1.v3 subf,
    StableHlo.TRef.binary main_call1.v3 main_call1.v3 main_call1.v4 (cmpf .une),
    StableHlo.TRef.unary main_call1.cst main_call1.v5 (broadcastInDim S800000x64 ![] bcast_S_S800000x64),
    StableHlo.TRef.binary (.of main_v48 : StableHlo.TRef sig ⟨S800000x64, .f32⟩) main_call1.v5 main_call1.v6 addf,
    StableHlo.TRef.unary main_call1.v3 main_call1.v7 Host.absf,
    StableHlo.TRef.unary main_call1.v7 main_call1.v8 Host.negf,
    StableHlo.TRef.unary main_call1.v8 main_call1.v9 Host.exp,
    StableHlo.TRef.unary main_call1.v9 main_call1.v10 Host.log1p,
    StableHlo.TRef.binary main_call1.v1 main_call1.v10 main_call1.v11 addf,
    StableHlo.TRef.ternary main_call1.v4 main_call1.v6 main_call1.v11 main_call1.v12 select,
    StableHlo.binary main_v54 main_v55 main_v56 (mulf : (⟨S800000x64, .f32⟩ : BufTy).Contents (Elt F) → (⟨S800000x64, .f32⟩ : BufTy).Contents (Elt F) → (⟨S800000x64, .f32⟩ : BufTy).Contents (Elt F)),
    StableHlo.nullary main_cst_8 (constant S_ .f32 0x00000000#32),
    StableHlo.unary main_cst_8 main_v57 (broadcastInDim S50000x64 ![] bcast_S_S50000x64 : (⟨S_, .f32⟩ : BufTy).Contents (Elt F) → (⟨S50000x64, .f32⟩ : BufTy).Contents (Elt F)),
    StableHlo.unary main_arg3 main_v58 (broadcastInDim S800000x1 ![0] bcast_S800000_S800000x1_0 : (⟨S800000, .i32⟩ : BufTy).Contents (Elt F) → (⟨S800000x1, .i32⟩ : BufTy).Contents (Elt F)),
    StableHlo.ternary main_v57 main_v58 main_v56 main_v59 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_9 (constant S_ .f32 0x00000000#32),
    StableHlo.binary main_v59 main_cst_9 main_v60 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_10 (constant S_ .f32 0x47435000#32),
    StableHlo.unary main_cst_10 main_v61 (broadcastInDim S64 ![] bcast_S_S64 : (⟨S_, .f32⟩ : BufTy).Contents (Elt F) → (⟨S64, .f32⟩ : BufTy).Contents (Elt F)),
    StableHlo.binary main_v60 main_v61 main_v62 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call2.cst (constant S_ .f32 0x00000000#32),
    StableHlo.TRef.binary (.of main_v59 : StableHlo.TRef sig ⟨S50000x64, .f32⟩) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v59 : StableHlo.TRef sig ⟨S50000x64, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v62 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S50000x64 ![0, 1] bcast_S1x64_S50000x64_0_1 : (⟨S1x64, .f32⟩ : BufTy).Contents (Elt F) → (⟨S50000x64, .f32⟩ : BufTy).Contents (Elt F)),
    StableHlo.binary main_v59 main_v65 main_v66 (subf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x3727C5AC#32),
    StableHlo.unary main_cst_12 main_v67 (broadcastInDim S64 ![] bcast_S_S64 : (⟨S_, .f32⟩ : BufTy).Contents (Elt F) → (⟨S64, .f32⟩ : BufTy).Contents (Elt F)),
    StableHlo.binary main_v63 main_v67 main_v68 (addf : (⟨S64, .f32⟩ : BufTy).Contents (Elt F) → (⟨S64, .f32⟩ : BufTy).Contents (Elt F) → (⟨S64, .f32⟩ : BufTy).Contents (Elt F)),
    StableHlo.unary main_v68 main_v69 (Host.rsqrt : (⟨S64, .f32⟩ : BufTy).Contents (Elt F) → (⟨S64, .f32⟩ : BufTy).Contents (Elt F)),
    StableHlo.unary main_v69 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S50000x64 ![0, 1] bcast_S1x64_S50000x64_0_1 : (⟨S1x64, .f32⟩ : BufTy).Contents (Elt F) → (⟨S50000x64, .f32⟩ : BufTy).Contents (Elt F)),
    StableHlo.binary main_v66 main_v71 main_v72 (mulf : (⟨S50000x64, .f32⟩ : BufTy).Contents (Elt F) → (⟨S50000x64, .f32⟩ : BufTy).Contents (Elt F) → (⟨S50000x64, .f32⟩ : BufTy).Contents (Elt F)),
    StableHlo.unary main_arg12 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S50000x64 ![0, 1] bcast_S1x64_S50000x64_0_1 : (⟨S1x64, .f32⟩ : BufTy).Contents (Elt F) → (⟨S50000x64, .f32⟩ : BufTy).Contents (Elt F)),
    StableHlo.binary main_v72 main_v74 main_v75 (mulf : (⟨S50000x64, .f32⟩ : BufTy).Contents (Elt F) → (⟨S50000x64, .f32⟩ : BufTy).Contents (Elt F) → (⟨S50000x64, .f32⟩ : BufTy).Contents (Elt F)),
    StableHlo.unary main_arg13 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S50000x64 ![0, 1] bcast_S1x64_S50000x64_0_1 : (⟨S1x64, .f32⟩ : BufTy).Contents (Elt F) → (⟨S50000x64, .f32⟩ : BufTy).Contents (Elt F)),
    StableHlo.binary main_v75 main_v77 main_v78 (addf : (⟨S50000x64, .f32⟩ : BufTy).Contents (Elt F) → (⟨S50000x64, .f32⟩ : BufTy).Contents (Elt F) → (⟨S50000x64, .f32⟩ : BufTy).Contents (Elt F)),
    StableHlo.binary main_arg0 main_v78 main_v79 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v79 : StableHlo.TRef sig ⟨S50000x64, .f32⟩) main_call3.v0 main_call3.v1 maximumf,
    StableHlo.TRef.unary main_call3.cst main_call3.v2 (broadcastInDim S50000x64 ![] bcast_S_S50000x64),
    StableHlo.TRef.binary (.of main_v79 : StableHlo.TRef sig ⟨S50000x64, .f32⟩) main_call3.v2 main_call3.v3 subf,
    StableHlo.TRef.binary main_call3.v3 main_call3.v3 main_call3.v4 (cmpf .une),
    StableHlo.TRef.unary main_call3.cst main_call3.v5 (broadcastInDim S50000x64 ![] bcast_S_S50000x64),
    StableHlo.TRef.binary (.of main_v79 : StableHlo.TRef sig ⟨S50000x64, .f32⟩) main_call3.v5 main_call3.v6 addf,
    StableHlo.TRef.unary main_call3.v3 main_call3.v7 Host.absf,
    StableHlo.TRef.unary main_call3.v7 main_call3.v8 Host.negf,
    StableHlo.TRef.unary main_call3.v8 main_call3.v9 Host.exp,
    StableHlo.TRef.unary main_call3.v9 main_call3.v10 Host.log1p,
    StableHlo.TRef.binary main_call3.v1 main_call3.v10 main_call3.v11 addf,
    StableHlo.TRef.ternary main_call3.v4 main_call3.v6 main_call3.v11 main_call3.v12 select ]

set_option maxRecDepth 8192 in
/-- @main is that straight line: its two windows and the six function bodies unfolded at their calls, both
    sides are one chain of single steps once sequencing is re-associated. -/
theorem main_eq (c : Dev nD) : main (F := F) c = seq ops := by
  simp only [main, main_part0, main_part1, fn_where.body, fn_var.body, fn_softplus.body, fn_where_1.body, fn_var_0.body, fn_softplus_2.body, seq, bind_assoc, pure_bind]

/-- No TensorCore buffer is scoped. -/
theorem scopedRefs_eq : (Finset.univ.filter fun b : Ref sig .tc => b.isScoped) = ∅ := by decide
/-- There is no semaphore, so none is scoped. -/
theorem scopedSems_eq : (Finset.univ.filter fun sm : SemLoc sig => sm.isScoped .tc) = ∅ := by decide

set_option maxRecDepth 8192 in
/-- Every operation of the line touches TensorCore references only: each is one of the four builders. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    unary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., binary_bufs_sub .., nullary_bufs_sub ..,
    unary_bufs_sub .., unary_bufs_sub .., ternary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub ..⟩

/-- At the compiled mesh, for any float values, from any memory with zero counters: every weakly fair execution
    of @main on the TensorCores terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefCut.lean ====
/-
  The reference program's straight line cut into five consecutive stretches, and its fold read stretch by
  stretch: the contents after the whole line are the contents after the fifth stretch run from what the fourth
  left, and so on down to the launch contents. The cut is at results later stretches read whole: the edge
  pre-activation, the first variance, the gated message, the second variance.
-/
import proofs.«410141_j3496103379076_1_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first stretch: the two node projections, their gathers along the wrapped endpoint indices, the edge
    projection, and the sum of the three (the edge pre-activation, the last operation's result). -/
abbrev ops1 : List (HloOp τ sig (Elt F)) :=
  [ StableHlo.binary main_arg0 main_arg4 main_v0 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg5 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.binary main_arg0 main_arg6 main_v4 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg7 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v8 (broadcastInDim S800000 ![] bcast_S_S800000 : (⟨S_, .i32⟩ : BufTy).Contents (Elt F) → (⟨S800000, .i32⟩ : BufTy).Contents (Elt F)),
    StableHlo.binary main_arg2 main_v8 main_v9 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v10 (broadcastInDim S800000 ![] bcast_S_S800000 : (⟨S_, .i32⟩ : BufTy).Contents (Elt F) → (⟨S800000, .i32⟩ : BufTy).Contents (Elt F)),
    StableHlo.binary main_arg2 main_v10 main_v11 (addi : (⟨S800000, .i32⟩ : BufTy).Contents (Elt F) → (⟨S800000, .i32⟩ : BufTy).Contents (Elt F) → (⟨S800000, .i32⟩ : BufTy).Contents (Elt F)),
    StableHlo.ternary main_v9 main_v11 main_arg2 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v12 main_v13 (broadcastInDim S800000x1 ![0] bcast_S800000_S800000x1_0 : (⟨S800000, .i32⟩ : BufTy).Contents (Elt F) → (⟨S800000x1, .i32⟩ : BufTy).Contents (Elt F)),
    StableHlo.binary main_v3 main_v13 main_v14 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 0#32),
    StableHlo.unary main_c_1 main_v15 (broadcastInDim S800000 ![] bcast_S_S800000 : (⟨S_, .i32⟩ : BufTy).Contents (Elt F) → (⟨S800000, .i32⟩ : BufTy).Contents (Elt F)),
    StableHlo.binary main_arg3 main_v15 main_v16 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v17 (broadcastInDim S800000 ![] bcast_S_S800000 : (⟨S_, .i32⟩ : BufTy).Contents (Elt F) → (⟨S800000, .i32⟩ : BufTy).Contents (Elt F)),
    StableHlo.binary main_arg3 main_v17 main_v18 (addi : (⟨S800000, .i32⟩ : BufTy).Contents (Elt F) → (⟨S800000, .i32⟩ : BufTy).Contents (Elt F) → (⟨S800000, .i32⟩ : BufTy).Contents (Elt F)),
    StableHlo.ternary main_v16 main_v18 main_arg3 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v19 main_v20 (broadcastInDim S800000x1 ![0] bcast_S800000_S800000x1_0 : (⟨S800000, .i32⟩ : BufTy).Contents (Elt F) → (⟨S800000x1, .i32⟩ : BufTy).Contents (Elt F)),
    StableHlo.binary main_v7 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v14 main_v21 main_v22 (addf : (⟨S800000x128, .f32⟩ : BufTy).Contents (Elt F) → (⟨S800000x128, .f32⟩ : BufTy).Contents (Elt F) → (⟨S800000x128, .f32⟩ : BufTy).Contents (Elt F)),
    StableHlo.binary main_arg1 main_arg8 main_v23 ((fun l r => Host.dotGeneral dot_S800000x32_S32x128_S800000x128_1_0_0_1_n_n none l r) : (⟨S800000x32, .f32⟩ : BufTy).Contents (Elt F) → (⟨S32x128, .f32⟩ : BufTy).Contents (Elt F) → (⟨S800000x128, .f32⟩ : BufTy).Contents (Elt F)),
    StableHlo.unary main_arg9 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S800000x128 ![0, 1] bcast_S1x128_S800000x128_0_1 : (⟨S1x128, .f32⟩ : BufTy).Contents (Elt F) → (⟨S800000x128, .f32⟩ : BufTy).Contents (Elt F)),
    StableHlo.binary main_v23 main_v25 main_v26 (addf : (⟨S800000x128, .f32⟩ : BufTy).Contents (Elt F) → (⟨S800000x128, .f32⟩ : BufTy).Contents (Elt F) → (⟨S800000x128, .f32⟩ : BufTy).Contents (Elt F)),
    StableHlo.binary main_v22 main_v26 main_v27 (addf : (⟨S800000x128, .f32⟩ : BufTy).Contents (Elt F) → (⟨S800000x128, .f32⟩ : BufTy).Contents (Elt F) → (⟨S800000x128, .f32⟩ : BufTy).Contents (Elt F)) ]

/-- The second stretch: the pre-activation's column sum and mean over the 800000 rows, and the variance function's
    line in call 0's buffers, its select (the last operation) included. -/
abbrev ops2 : List (HloOp τ sig (Elt F)) :=
  [ StableHlo.nullary main_cst (constant S_ .f32 0x00000000#32),
    StableHlo.binary main_v27 main_cst main_v28 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    StableHlo.nullary main_cst_3 (constant S_ .f32 0x49435000#32),
    StableHlo.unary main_cst_3 main_v29 (broadcastInDim S128 ![] bcast_S_S128 : (⟨S_, .f32⟩ : BufTy).Contents (Elt F) → (⟨S128, .f32⟩ : BufTy).Contents (Elt F)),
    StableHlo.binary main_v28 main_v29 main_v30 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v27 : StableHlo.TRef sig ⟨S800000x128, .f32⟩) main_call0.cst main_call0.v0 (fun x v => Host.reduceAdd x v reducesTo_S800000x128_S128_d0 h_S_),
    StableHlo.TRef.unary main_call0.v0 main_call0.v1 (broadcastInDim S1x128 ![1] bcast_S128_S1x128_1),
    StableHlo.TRef.nullary main_call0.cst_0 (constant S_ .f32 0x49435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S800000x128 ![0, 1] bcast_S1x128_S800000x128_0_1),
    StableHlo.TRef.binary (.of main_v27 : StableHlo.TRef sig ⟨S800000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x49435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S800000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- The third stretch: the first normalisation's affine map, the two column halves, the logistic function of the
    first written out, the softplus line of call 1 on the second, and their product (the last operation). -/
abbrev ops3 : List (HloOp τ sig (Elt F)) :=
  [ StableHlo.unary main_v30 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S800000x128 ![0, 1] bcast_S1x128_S800000x128_0_1 : (⟨S1x128, .f32⟩ : BufTy).Contents (Elt F) → (⟨S800000x128, .f32⟩ : BufTy).Contents (Elt F)),
    StableHlo.binary main_v27 main_v33 main_v34 (subf : (⟨S800000x128, .f32⟩ : BufTy).Contents (Elt F) → (⟨S800000x128, .f32⟩ : BufTy).Contents (Elt F) → (⟨S800000x128, .f32⟩ : BufTy).Contents (Elt F)),
    StableHlo.nullary main_cst_5 (constant S_ .f32 0x3727C5AC#32),
    StableHlo.unary main_cst_5 main_v35 (broadcastInDim S128 ![] bcast_S_S128 : (⟨S_, .f32⟩ : BufTy).Contents (Elt F) → (⟨S128, .f32⟩ : BufTy).Contents (Elt F)),
    StableHlo.binary main_v31 main_v35 main_v36 (addf : (⟨S128, .f32⟩ : BufTy).Contents (Elt F) → (⟨S128, .f32⟩ : BufTy).Contents (Elt F) → (⟨S128, .f32⟩ : BufTy).Contents (Elt F)),
    StableHlo.unary main_v36 main_v37 (Host.rsqrt : (⟨S128, .f32⟩ : BufTy).Contents (Elt F) → (⟨S128, .f32⟩ : BufTy).Contents (Elt F)),
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S800000x128 ![0, 1] bcast_S1x128_S800000x128_0_1 : (⟨S1x128, .f32⟩ : BufTy).Contents (Elt F) → (⟨S800000x128, .f32⟩ : BufTy).Contents (Elt F)),
    StableHlo.binary main_v34 main_v39 main_v40 (mulf : (⟨S800000x128, .f32⟩ : BufTy).Contents (Elt F) → (⟨S800000x128, .f32⟩ : BufTy).Contents (Elt F) → (⟨S800000x128, .f32⟩ : BufTy).Contents (Elt F)),
    StableHlo.unary main_arg10 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S800000x128 ![0, 1] bcast_S1x128_S800000x128_0_1 : (⟨S1x128, .f32⟩ : BufTy).Contents (Elt F) → (⟨S800000x128, .f32⟩ : BufTy).Contents (Elt F)),
    StableHlo.binary main_v40 main_v42 main_v43 (mulf : (⟨S800000x128, .f32⟩ : BufTy).Contents (Elt F) → (⟨S800000x128, .f32⟩ : BufTy).Contents (Elt F) → (⟨S800000x128, .f32⟩ : BufTy).Contents (Elt F)),
    StableHlo.unary main_arg11 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S800000x128 ![0, 1] bcast_S1x128_S800000x128_0_1 : (⟨S1x128, .f32⟩ : BufTy).Contents (Elt F) → (⟨S800000x128, .f32⟩ : BufTy).Contents (Elt F)),
    StableHlo.binary main_v43 main_v45 main_v46 (addf : (⟨S800000x128, .f32⟩ : BufTy).Contents (Elt F) → (⟨S800000x128, .f32⟩ : BufTy).Contents (Elt F) → (⟨S800000x128, .f32⟩ : BufTy).Contents (Elt F)),
    StableHlo.unary main_v46 main_v47 ((extractStridedSlice S800000x64 ![0, 0] · slices_S800000x128_S800000x64_0_0) : (⟨S800000x128, .f32⟩ : BufTy).Contents (Elt F) → (⟨S800000x64, .f32⟩ : BufTy).Contents (Elt F)),
    StableHlo.unary main_v46 main_v48 ((extractStridedSlice S800000x64 ![0, 64] · slices_S800000x128_S800000x64_0_64) : (⟨S800000x128, .f32⟩ : BufTy).Contents (Elt F) → (⟨S800000x64, .f32⟩ : BufTy).Contents (Elt F)),
    StableHlo.unary main_v47 main_v49 (Host.negf : (⟨S800000x64, .f32⟩ : BufTy).Contents (Elt F) → (⟨S800000x64, .f32⟩ : BufTy).Contents (Elt F)),
    StableHlo.unary main_v49 main_v50 (Host.exp : (⟨S800000x64, .f32⟩ : BufTy).Contents (Elt F) → (⟨S800000x64, .f32⟩ : BufTy).Contents (Elt F)),
    StableHlo.nullary main_cst_6 (constant S_ .f32 0x3F800000#32),
    StableHlo.unary main_cst_6 main_v51 (broadcastInDim S800000x64 ![] bcast_S_S800000x64 : (⟨S_, .f32⟩ : BufTy).Contents (Elt F) → (⟨S800000x64, .f32⟩ : BufTy).Contents (Elt F)),
    StableHlo.binary main_v51 main_v50 main_v52 (addf : (⟨S800000x64, .f32⟩ : BufTy).Contents (Elt F) → (⟨S800000x64, .f32⟩ : BufTy).Contents (Elt F) → (⟨S800000x64, .f32⟩ : BufTy).Contents (Elt F)),
    StableHlo.nullary main_cst_7 (constant S_ .f32 0x3F800000#32),
    StableHlo.unary main_cst_7 main_v53 (broadcastInDim S800000x64 ![] bcast_S_S800000x64 : (⟨S_, .f32⟩ : BufTy).Contents (Elt F) → (⟨S800000x64, .f32⟩ : BufTy).Contents (Elt F)),
    StableHlo.binary main_v53 main_v52 main_v54 (Host.divf : (⟨S800000x64, .f32⟩ : BufTy).Contents (Elt F) → (⟨S800000x64, .f32⟩ : BufTy).Contents (Elt F) → (⟨S800000x64, .f32⟩ : BufTy).Contents (Elt F)),
    StableHlo.TRef.nullary main_call1.cst (constant S_ .f32 0x00000000#32),
    StableHlo.TRef.unary main_call1.cst main_call1.v0 (broadcastInDim S800000x64 ![] bcast_S_S800000x64),
    StableHlo.TRef.binary (.of main_v48 : StableHlo.TRef sig ⟨S800000x64, .f32⟩) main_call1.v0 main_call1.v1 maximumf,
    StableHlo.TRef.unary main_call1.cst main_call1.v2 (broadcastInDim S800000x64 ![] bcast_S_S800000x64),
    StableHlo.TRef.binary (.of main_v48 : StableHlo.TRef sig ⟨S800000x64, .f32⟩) main_call1.v2 main_call1.v3 subf,
    StableHlo.TRef.binary main_call1.v3 main_call1.v3 main_call1.v4 (cmpf .une),
    StableHlo.TRef.unary main_call1.cst main_call1.v5 (broadcastInDim S800000x64 ![] bcast_S_S800000x64),
    StableHlo.TRef.binary (.of main_v48 : StableHlo.TRef sig ⟨S800000x64, .f32⟩) main_call1.v5 main_call1.v6 addf,
    StableHlo.TRef.unary main_call1.v3 main_call1.v7 Host.absf,
    StableHlo.TRef.unary main_call1.v7 main_call1.v8 Host.negf,
    StableHlo.TRef.unary main_call1.v8 main_call1.v9 Host.exp,
    StableHlo.TRef.unary main_call1.v9 main_call1.v10 Host.log1p,
    StableHlo.TRef.binary main_call1.v1 main_call1.v10 main_call1.v11 addf,
    StableHlo.TRef.ternary main_call1.v4 main_call1.v6 main_call1.v11 main_call1.v12 select,
    StableHlo.binary main_v54 main_v55 main_v56 (mulf : (⟨S800000x64, .f32⟩ : BufTy).Contents (Elt F) → (⟨S800000x64, .f32⟩ : BufTy).Contents (Elt F) → (⟨S800000x64, .f32⟩ : BufTy).Contents (Elt F)) ]

/-- The fourth stretch: the zero table, the index column, the scatter-add, its column mean over the 50000 rows, and
    the variance function's line in call 2's buffers, its select (the last operation) included. -/
abbrev ops4 : List (HloOp τ sig (Elt F)) :=
  [ StableHlo.nullary main_cst_8 (constant S_ .f32 0x00000000#32),
    StableHlo.unary main_cst_8 main_v57 (broadcastInDim S50000x64 ![] bcast_S_S50000x64 : (⟨S_, .f32⟩ : BufTy).Contents (Elt F) → (⟨S50000x64, .f32⟩ : BufTy).Contents (Elt F)),
    StableHlo.unary main_arg3 main_v58 (broadcastInDim S800000x1 ![0] bcast_S800000_S800000x1_0 : (⟨S800000, .i32⟩ : BufTy).Contents (Elt F) → (⟨S800000x1, .i32⟩ : BufTy).Contents (Elt F)),
    StableHlo.ternary main_v57 main_v58 main_v56 main_v59 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_9 (constant S_ .f32 0x00000000#32),
    StableHlo.binary main_v59 main_cst_9 main_v60 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_10 (constant S_ .f32 0x47435000#32),
    StableHlo.unary main_cst_10 main_v61 (broadcastInDim S64 ![] bcast_S_S64 : (⟨S_, .f32⟩ : BufTy).Contents (Elt F) → (⟨S64, .f32⟩ : BufTy).Contents (Elt F)),
    StableHlo.binary main_v60 main_v61 main_v62 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call2.cst (constant S_ .f32 0x00000000#32),
    StableHlo.TRef.binary (.of main_v59 : StableHlo.TRef sig ⟨S50000x64, .f32⟩) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v59 : StableHlo.TRef sig ⟨S50000x64, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]

/-- The fifth stretch: the second normalisation's affine map, the sum with the first argument, and the softplus
    line of call 3, whose select writes the result. -/
abbrev ops5 : List (HloOp τ sig (Elt F)) :=
  [ StableHlo.unary main_v62 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S50000x64 ![0, 1] bcast_S1x64_S50000x64_0_1 : (⟨S1x64, .f32⟩ : BufTy).Contents (Elt F) → (⟨S50000x64, .f32⟩ : BufTy).Contents (Elt F)),
    StableHlo.binary main_v59 main_v65 main_v66 (subf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x3727C5AC#32),
    StableHlo.unary main_cst_12 main_v67 (broadcastInDim S64 ![] bcast_S_S64 : (⟨S_, .f32⟩ : BufTy).Contents (Elt F) → (⟨S64, .f32⟩ : BufTy).Contents (Elt F)),
    StableHlo.binary main_v63 main_v67 main_v68 (addf : (⟨S64, .f32⟩ : BufTy).Contents (Elt F) → (⟨S64, .f32⟩ : BufTy).Contents (Elt F) → (⟨S64, .f32⟩ : BufTy).Contents (Elt F)),
    StableHlo.unary main_v68 main_v69 (Host.rsqrt : (⟨S64, .f32⟩ : BufTy).Contents (Elt F) → (⟨S64, .f32⟩ : BufTy).Contents (Elt F)),
    StableHlo.unary main_v69 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S50000x64 ![0, 1] bcast_S1x64_S50000x64_0_1 : (⟨S1x64, .f32⟩ : BufTy).Contents (Elt F) → (⟨S50000x64, .f32⟩ : BufTy).Contents (Elt F)),
    StableHlo.binary main_v66 main_v71 main_v72 (mulf : (⟨S50000x64, .f32⟩ : BufTy).Contents (Elt F) → (⟨S50000x64, .f32⟩ : BufTy).Contents (Elt F) → (⟨S50000x64, .f32⟩ : BufTy).Contents (Elt F)),
    StableHlo.unary main_arg12 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S50000x64 ![0, 1] bcast_S1x64_S50000x64_0_1 : (⟨S1x64, .f32⟩ : BufTy).Contents (Elt F) → (⟨S50000x64, .f32⟩ : BufTy).Contents (Elt F)),
    StableHlo.binary main_v72 main_v74 main_v75 (mulf : (⟨S50000x64, .f32⟩ : BufTy).Contents (Elt F) → (⟨S50000x64, .f32⟩ : BufTy).Contents (Elt F) → (⟨S50000x64, .f32⟩ : BufTy).Contents (Elt F)),
    StableHlo.unary main_arg13 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S50000x64 ![0, 1] bcast_S1x64_S50000x64_0_1 : (⟨S1x64, .f32⟩ : BufTy).Contents (Elt F) → (⟨S50000x64, .f32⟩ : BufTy).Contents (Elt F)),
    StableHlo.binary main_v75 main_v77 main_v78 (addf : (⟨S50000x64, .f32⟩ : BufTy).Contents (Elt F) → (⟨S50000x64, .f32⟩ : BufTy).Contents (Elt F) → (⟨S50000x64, .f32⟩ : BufTy).Contents (Elt F)),
    StableHlo.binary main_arg0 main_v78 main_v79 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v79 : StableHlo.TRef sig ⟨S50000x64, .f32⟩) main_call3.v0 main_call3.v1 maximumf,
    StableHlo.TRef.unary main_call3.cst main_call3.v2 (broadcastInDim S50000x64 ![] bcast_S_S50000x64),
    StableHlo.TRef.binary (.of main_v79 : StableHlo.TRef sig ⟨S50000x64, .f32⟩) main_call3.v2 main_call3.v3 subf,
    StableHlo.TRef.binary main_call3.v3 main_call3.v3 main_call3.v4 (cmpf .une),
    StableHlo.TRef.unary main_call3.cst main_call3.v5 (broadcastInDim S50000x64 ![] bcast_S_S50000x64),
    StableHlo.TRef.binary (.of main_v79 : StableHlo.TRef sig ⟨S50000x64, .f32⟩) main_call3.v5 main_call3.v6 addf,
    StableHlo.TRef.unary main_call3.v3 main_call3.v7 Host.absf,
    StableHlo.TRef.unary main_call3.v7 main_call3.v8 Host.negf,
    StableHlo.TRef.unary main_call3.v8 main_call3.v9 Host.exp,
    StableHlo.TRef.unary main_call3.v9 main_call3.v10 Host.log1p,
    StableHlo.TRef.binary main_call3.v1 main_call3.v10 main_call3.v11 addf,
    StableHlo.TRef.ternary main_call3.v4 main_call3.v6 main_call3.v11 main_call3.v12 select ]

/-- The line is its five stretches in a row: both sides are the same literal list. -/
theorem ops_cut : (ops : List (HloOp τ sig (Elt F))) = ops1 ++ ops2 ++ ops3 ++ ops4 ++ ops5 := rfl

/-- The contents after the first stretch, from contents `V`. -/
abbrev U1 (V : Valuation τ sig (Elt F)) : Valuation τ sig (Elt F) := after ops1 V
/-- The contents after the second stretch, run from what the first left. -/
abbrev U2 (V : Valuation τ sig (Elt F)) : Valuation τ sig (Elt F) := after ops2 (U1 V)
/-- The contents after the third stretch, run from what the second left. -/
abbrev U3 (V : Valuation τ sig (Elt F)) : Valuation τ sig (Elt F) := after ops3 (U2 V)
/-- The contents after the fourth stretch, run from what the third left. -/
abbrev U4 (V : Valuation τ sig (Elt F)) : Valuation τ sig (Elt F) := after ops4 (U3 V)
/-- The contents after the fifth stretch, run from what the fourth left. -/
abbrev U5 (V : Valuation τ sig (Elt F)) : Valuation τ sig (Elt F) := after ops5 (U4 V)

/-- The fold over two lines in a row is the second line's fold run from the first's. -/
private theorem after_append_aux : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append_aux l₁ l₂]

/-- The whole line's fold is the five stretches' folds composed. -/
theorem after_cut (V : Valuation τ sig (Elt F)) : after ops V = U5 V := by
  rw [ops_cut, after_append_aux, after_append_aux, after_append_aux, after_append_aux]

end Cert.ReferenceIdeal.HandRun

end
-- ==== Proof.RefArgs.lean ====
/-
  The reference program's run with its post in the shape the claims take: the result array ends at the fold of the
  operations over the launch contents, and each of the fourteen argument arrays ends as launched: every buffer is
  written by exactly one operation, and no operation writes an argument.
-/
import proofs.«410141_j3496103379076_1_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fourteen argument arrays of @main. -/
abbrev args : List (Ref sig .tc) :=
  [main_arg0, main_arg1, main_arg2, main_arg3, main_arg4, main_arg5, main_arg6, main_arg7, main_arg8, main_arg9,
    main_arg10, main_arg11, main_arg12, main_arg13]

/-- An operation whose one written buffer is not an argument writes no argument: distinct references are
    distinct device buffers. -/
theorem keeps {op : HloOp τ sig (Elt F)} {y : Ref sig .tc} (hw : op.writes = {Proc.devRef .tc y}) (hy : y ∉ args) :
    ∀ r ∈ args, Proc.devRef (τ := τ) .tc r ∉ op.writes := fun r hr h => by
  rw [hw, Finset.mem_singleton] at h
  exact hy (Proc.devRef_injective _ h ▸ hr)

/-- Each of the line's operations writes its own result buffer only, and none of those is an argument. -/
theorem ops_keep : (ops : List (HloOp τ sig (Elt F))).Forall fun op => ∀ r ∈ args, Proc.devRef (τ := τ) .tc r ∉ op.writes := by
  repeat' apply And.intro
  all_goals exact keeps rfl (by decide)

/-- So the fold of the line leaves every argument at what it held before. -/
theorem arg_keep (V : Valuation τ sig (Elt F)) {r : Ref sig .tc} (hr : r ∈ args) :
    after ops V (r : DevRef τ sig) = V (r : DevRef τ sig) :=
  after_of_forall_not_mem ops V fun op hop => List.forall_iff_forall_mem.mp ops_keep op hop r hr

/-- The run: the result at the fold's value, the arguments as launched. -/
theorem run_post (m : (ℓ : Loc nD τ sig) → Buf (Elt F) ℓ) (ρ : Dev nD → PrngReg) :
    θ_run defs (onTc (τ := τ) (main (F := F))) ⟨m, fun _ => 0, ρ⟩ fun r => ∀ c : Dev nD,
        r.2.mem ((c.tc : Thread nD τ).loc main_v80) = after ops (launchContents m c) (main_v80 : DevRef τ sig)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13) :=
  (θ_run defs _ _).mono
    (fun r h c => ⟨h c main_v80,
      (h c main_arg0).trans (arg_keep _ (by decide)), (h c main_arg1).trans (arg_keep _ (by decide)), (h c main_arg2).trans (arg_keep _ (by decide)),
      (h c main_arg3).trans (arg_keep _ (by decide)), (h c main_arg4).trans (arg_keep _ (by decide)), (h c main_arg5).trans (arg_keep _ (by decide)),
      (h c main_arg6).trans (arg_keep _ (by decide)), (h c main_arg7).trans (arg_keep _ (by decide)), (h c main_arg8).trans (arg_keep _ (by decide)),
      (h c main_arg9).trans (arg_keep _ (by decide)), (h c main_arg10).trans (arg_keep _ (by decide)), (h c main_arg11).trans (arg_keep _ (by decide)),
      (h c main_arg12).trans (arg_keep _ (by decide)), (h c main_arg13).trans (arg_keep _ (by decide))⟩)
    (run_main m ρ)

end Cert.ReferenceIdeal.HandRun

end
-- ==== Proof.RArgs.lean ====
/-
  The fourteen argument arrays of the reference program as a valuation of its buffers holds them, at their literal
  types, and the received sums the reference computes from them.
-/
import proofs.«410141_j3496103379076_1_alg».proof.Proof.RefCut
import proofs.«410141_j3496103379076_1_alg».proof.Proof.Spec
import proofs.«410141_j3496103379076_1_alg».proof.Proof.SpecNode
import Idealize.ShloMosaic.Lib.ValueIdx
import Idealize.ShloMosaic.Lib.Pipeline.Value
import Idealize.ShloMosaic.PureOps.Ideal.Laws

set_option maxRecDepth 16384

noncomputable section

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.HandRun

namespace Cert.ReferenceIdeal.RV

variable (V : Valuation τ sig (Elt Ideal))

abbrev x : Cert.Spec.SN64.Idx → EReal := V (main_arg0 : DevRef τ sig)
abbrev ef : Cert.Spec.SE32.Idx → EReal := V (main_arg1 : DevRef τ sig)
abbrev src : Cert.Spec.SE.Idx → BitVec 32 := V (main_arg2 : DevRef τ sig)
abbrev dst : Cert.Spec.SE.Idx → BitVec 32 := V (main_arg3 : DevRef τ sig)
abbrev Ws : Cert.Spec.S64x128.Idx → EReal := V (main_arg4 : DevRef τ sig)
abbrev bs : Cert.Spec.S128.Idx → EReal := V (main_arg5 : DevRef τ sig)
abbrev Wd : Cert.Spec.S64x128.Idx → EReal := V (main_arg6 : DevRef τ sig)
abbrev bd : Cert.Spec.S128.Idx → EReal := V (main_arg7 : DevRef τ sig)
abbrev We : Cert.Spec.S32x128.Idx → EReal := V (main_arg8 : DevRef τ sig)
abbrev be : Cert.Spec.S128.Idx → EReal := V (main_arg9 : DevRef τ sig)
abbrev gm : Cert.Spec.S128.Idx → EReal := V (main_arg10 : DevRef τ sig)
abbrev bm : Cert.Spec.S128.Idx → EReal := V (main_arg11 : DevRef τ sig)
abbrev gn : Cert.Spec.S64.Idx → EReal := V (main_arg12 : DevRef τ sig)
abbrev bn : Cert.Spec.S64.Idx → EReal := V (main_arg13 : DevRef τ sig)

/-- The arrays are in the domain. -/
abbrev InDom : Prop :=
  Cert.Spec.Dom (x V) (ef V) (src V) (dst V) (Ws V) (bs V) (Wd V) (bd V) (We V) (be V) (gm V) (bm V) (gn V) (bn V)

/-- The received sums the reference computes: the messages at the mean of squared deviations. -/
abbrev hR : Cert.Spec.SN64.Idx → EReal :=
  Cert.Spec.received (Cert.Spec.msgArr (x V) (ef V) (src V) (dst V) (Ws V) (bs V) (Wd V) (bd V) (We V) (be V) (gm V) (bm V) (Cert.Spec.varDev (x V) (ef V) (src V) (dst V) (Ws V) (bs V) (Wd V) (bd V) (We V) (be V))) (dst V)

end Cert.ReferenceIdeal.RV

end
-- ==== Proof.RPre.lean ====
/-
  The reference's edge pre-activation, after the first stretch of its run: each node projection is a product with a
  64×128 weight plus a bias row broadcast over the rows; each gather first moves a negative word up by 50000 and then
  reads the table at the word held inside the table, which in the domain is the word's own row; the edge term is a
  product with the 32×128 weight plus its bias row; the three are added as (source + destination) + edge.
-/
import proofs.«410141_j3496103379076_1_alg».proof.Proof.RefCut
import proofs.«410141_j3496103379076_1_alg».proof.Proof.Spec
import proofs.«410141_j3496103379076_1_alg».proof.Proof.SpecNode
import proofs.«410141_j3496103379076_1_alg».proof.Proof.RArgs
import Idealize.ShloMosaic.Lib.ValueIdx
import Idealize.ShloMosaic.Lib.Pipeline.Value
import Idealize.ShloMosaic.Lib.StackMember
import Idealize.ShloMosaic.PureOps.Ideal.Laws

set_option maxRecDepth 16384

noncomputable section

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.HandRun
open Cert.ReferenceIdeal.RV

namespace Cert.ReferenceIdeal.RPre

/-! ## Words that index a node -/

/-- A word that reads, signed, as a number from 0 to 49999 reads the same unsigned. -/
theorem toNat_of_range {w : BitVec 32} (h0 : 0 ≤ w.toInt) (h1 : w.toInt < 50000) : w.toInt.toNat = w.toNat ∧ w.toNat < 50000 := by
  have h := BitVec.toInt_eq_toNat_cond w
  have hl := w.isLt
  split at h <;> omega

/-- Such a word is not below zero: the signed comparison with the zero word is the bit 0. -/
theorem slt_zero_of_nonneg {w : BitVec 32} (h0 : 0 ≤ w.toInt) : IntOp.cmpi .slt w 0#32 = 0#1 := by
  unfold IntOp.cmpi
  have hz : (0#32 : BitVec 32).toInt = 0 := by decide
  simp only [BitVec.slt, hz]
  rw [decide_eq_false (not_lt.mpr h0)]
  rfl

/-- The row such a word selects is the word's own value. -/
theorem row_of_range {w : BitVec 32} (h0 : 0 ≤ w.toInt) (h1 : w.toInt < 50000) :
    (⟨min w.toInt.toNat 49999, by omega⟩ : Fin 50000) = Cert.Spec.row w := by
  unfold Cert.Spec.row
  exact Fin.ext (by show min w.toInt.toNat 49999 = min w.toNat 49999; rw [(toNat_of_range h0 h1).1])

/-! ## The layout operations of the stretch, read at an index -/

/-- A bias row laid under a unit axis and broadcast down the rows reads, at (n, j), the bias at j. -/
theorem bias_apply {N : Nat} (h1 : S128.BroadcastsInDim S1x128 (![1] : Fin 1 → Fin S1x128.rank))
    (h2 : S1x128.BroadcastsInDim (⟨2, ![N, 128]⟩ : Shape) (![0, 1] : Fin 2 → Fin 2))
    (b : S128.Idx → EReal) (n : Fin N) (j : Fin 128) :
    broadcastInDim (⟨2, ![N, 128]⟩ : Shape) ![0, 1] h2 (broadcastInDim S1x128 ![1] h1 b) (ix2 n j) = b (ix1 j) := by
  refine (broadcastInDim_apply _ h2 _ (ix2 n j) (ix2 (0 : Fin 1) j) ?_).trans
    (broadcastInDim_apply _ h1 _ (ix2 (0 : Fin 1) j) (ix1 j) ?_)
  · intro a; match a with
    | ⟨0, _⟩ => rfl
    | ⟨1, _⟩ => rfl
  · intro a; match a with
    | ⟨0, _⟩ => rfl

/-- An index vector laid out as a column reads, at (e, 0), the vector at e. -/
theorem column_apply (h : S800000.BroadcastsInDim S800000x1 (![0] : Fin 1 → Fin S800000x1.rank))
    (c : S800000.Idx → BitVec 32) (e : Fin 800000) :
    broadcastInDim S800000x1 ![0] h c (ix2 e (0 : Fin 1)) = c (ix1 e) := by
  refine broadcastInDim_apply _ h _ (ix2 e (0 : Fin 1)) (ix1 e) ?_
  intro a; match a with
  | ⟨0, _⟩ => rfl

/-- The wrap of a negative word by the node count leaves a word that is not negative as it is. -/
theorem wrap_apply (h0 : S_.BroadcastsInDim S800000 (![] : Fin 0 → Fin S800000.rank)) (w : IVec S800000 32) (e : Fin 800000)
    (hr : 0 ≤ (w (ix1 e)).toInt) :
    select (cmpi .slt w (broadcastInDim S800000 ![] h0 (constantI S_ 32 0#32)))
      (addi w (broadcastInDim S800000 ![] h0 (constantI S_ 32 50000#32))) w (ix1 e) = w (ix1 e) := by
  show Scalar.select (IntOp.cmpi .slt (w (ix1 e)) 0#32) _ _ = _
  rw [slt_zero_of_nonneg hr, select_zero]

/-! ## The gather of table rows, read at an index -/

/-- The gather of rows of a 50000-row table at a column of start words reads, at (e, j), the table at column j of the
    row the e-th word names: the word read signed and held inside the table. -/
theorem gather_row_apply (T : S50000x128.Idx → EReal) (idx : IVec S800000x1 32) (e : Fin 800000) (j : Fin 128) :
    Host.gather gather_S50000x128_S800000x1_S800000x128_1_0_n_n_0_1_1128 T idx (ix2 e j)
      = T (ix2 (⟨min (idx (ix2 e (0 : Fin 1))).toInt.toNat 49999, by omega⟩ : Fin 50000) j) := by
  unfold Host.gather
  congr 1
  funext a
  refine Fin.ext ?_
  match a with
  | ⟨0, _⟩ =>
    show gather_S50000x128_S800000x1_S800000x128_1_0_n_n_0_1_1128.start (ix2 e j) idx 0
        + gather_S50000x128_S800000x1_S800000x128_1_0_n_n_0_1_1128.batchCoord (ix2 e j) 0
        + gather_S50000x128_S800000x1_S800000x128_1_0_n_n_0_1_1128.offCoord (ix2 e j) 0 = _
    rw [GatherDims.batchCoord_eq_zero _ _ _ (show (0 : Fin 2) ∉ gather_S50000x128_S800000x1_S800000x128_1_0_n_n_0_1_1128.operandBatchingDims from List.not_mem_nil),
      GatherDims.offCoord_eq_zero _ _ _ (fun h => ((GatherDims.mem_sKept _ _).mp h).1 (show (0 : Fin 2) ∈ gather_S50000x128_S800000x1_S800000x128_1_0_n_n_0_1_1128.collapsedSliceDims from List.mem_singleton.mpr rfl))]
    simp only [Nat.add_zero]
    unfold GatherDims.start
    rw [dif_pos (show (0 : Fin 2) ∈ gather_S50000x128_S800000x1_S800000x128_1_0_n_n_0_1_1128.startIndexMap from List.mem_singleton.mpr rfl)]
    have hsi : gather_S50000x128_S800000x1_S800000x128_1_0_n_n_0_1_1128.siIdx (ix2 e j)
        ⟨List.idxOf (0 : Fin 2) gather_S50000x128_S800000x1_S800000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S50000x128_S800000x1_S800000x128_1_0_n_n_0_1_1128.start (ix2 e j) idx 1
        + gather_S50000x128_S800000x1_S800000x128_1_0_n_n_0_1_1128.batchCoord (ix2 e j) 1
        + gather_S50000x128_S800000x1_S800000x128_1_0_n_n_0_1_1128.offCoord (ix2 e j) 1 = j.val
    rw [GatherDims.batchCoord_eq_zero _ _ _ (show (1 : Fin 2) ∉ gather_S50000x128_S800000x1_S800000x128_1_0_n_n_0_1_1128.operandBatchingDims from List.not_mem_nil)]
    unfold GatherDims.start
    rw [dif_neg (show (1 : Fin 2) ∉ gather_S50000x128_S800000x1_S800000x128_1_0_n_n_0_1_1128.startIndexMap from by decide)]
    unfold GatherDims.offCoord
    rw [dif_pos (show (1 : Fin 2) ∈ gather_S50000x128_S800000x1_S800000x128_1_0_n_n_0_1_1128.sKept from by decide)]
    simp only [Nat.zero_add, Nat.add_zero]
    rfl

/-! ## The two products, read at an index -/

/-- A node projection's product at (n, j): the sum over the 64 features. -/
theorem nodeDot_apply (X : FVec Ideal S50000x64 .f32) (W : FVec Ideal S64x128 .f32) (n : Fin 50000) (j : Fin 128) :
    Host.dotGeneral dot_S50000x64_S64x128_S50000x128_1_0_0_1_n_n none X W (ix2 n j)
      = ∑ k : Fin 64, X (ix2 n k) * W (ix2 k j) :=
  Idealize.ShloMosaic.StackMember.dotGeneral_plain_apply (m := 50000) (n := 128) (k := 64) none X W n j

/-- The edge term's product at (e, j): the sum over the 32 edge features. -/
theorem edgeDot_apply (X : FVec Ideal S800000x32 .f32) (W : FVec Ideal S32x128 .f32) (e : Fin 800000) (j : Fin 128) :
    Host.dotGeneral dot_S800000x32_S32x128_S800000x128_1_0_0_1_n_n none X W (ix2 e j)
      = ∑ k : Fin 32, X (ix2 e k) * W (ix2 k j) :=
  Idealize.ShloMosaic.StackMember.dotGeneral_plain_apply (m := 800000) (n := 128) (k := 32) none X W e j

/-! ## One gathered node projection, and the pre-activation -/

/-- A node projection gathered along a column of wrapped words, read at (e, j): where the e-th word indexes a node, the
    projection of that node at column j. -/
theorem gathered_proj_apply (X : FVec Ideal S50000x64 .f32) (W : FVec Ideal S64x128 .f32) (b : FVec Ideal S128 .f32)
    (w : IVec S800000 32) (e : Fin 800000) (j : Fin 128)
    (h0 : 0 ≤ (w (ix1 e)).toInt) (h1 : (w (ix1 e)).toInt < 50000) :
    Host.gather gather_S50000x128_S800000x1_S800000x128_1_0_n_n_0_1_1128
        (addf (Host.dotGeneral dot_S50000x64_S64x128_S50000x128_1_0_0_1_n_n none X W)
          (broadcastInDim S50000x128 ![0, 1] bcast_S1x128_S50000x128_0_1 (broadcastInDim S1x128 ![1] bcast_S128_S1x128_1 b)))
        (broadcastInDim S800000x1 ![0] bcast_S800000_S800000x1_0
          (select (cmpi .slt w (broadcastInDim S800000 ![] bcast_S_S800000 (constantI S_ 32 0#32)))
            (addi w (broadcastInDim S800000 ![] bcast_S_S800000 (constantI S_ 32 50000#32))) w))
        (ix2 e j)
      = Cert.Spec.proj X W b (Cert.Spec.row (w (ix1 e))) j := by
  refine (gather_row_apply _ _ e j).trans ?_
  have hrow : (⟨min ((broadcastInDim S800000x1 ![0] bcast_S800000_S800000x1_0
          (select (cmpi .slt w (broadcastInDim S800000 ![] bcast_S_S800000 (constantI S_ 32 0#32)))
            (addi w (broadcastInDim S800000 ![] bcast_S_S800000 (constantI S_ 32 50000#32))) w)) (ix2 e (0 : Fin 1))).toInt.toNat 49999,
        by omega⟩ : Fin 50000) = Cert.Spec.row (w (ix1 e)) := by
    rw [← row_of_range h0 h1]
    refine Fin.ext ?_
    show min _ 49999 = min _ 49999
    rw [column_apply, wrap_apply _ _ _ h0]
  rw [hrow]
  unfold Cert.Spec.proj
  exact congrArg₂ (· + ·) (nodeDot_apply X W _ j) (bias_apply _ _ b _ j)

variable (V : Valuation τ sig (Elt Ideal))

theorem pre_apply (D : InDom V) (e : Fin 800000) (j : Fin 128) :
    (U1 (F := Ideal) V (main_v27 : DevRef τ sig) : S800000x128.Idx → EReal) (ix2 e j)
      = Cert.Spec.pre (x V) (ef V) (src V) (dst V) (Ws V) (bs V) (Wd V) (bd V) (We V) (be V) e j := by
  show (after ops1 V (main_v27 : DevRef τ sig) : S800000x128.Idx → EReal) (ix2 e j) = _
  after_results_simp
  simp only [addf_apply]
  rw [gathered_proj_apply _ _ _ _ e j (D.src_range (ix1 e)).1 (D.src_range (ix1 e)).2,
    gathered_proj_apply _ _ _ _ e j (D.dst_range (ix1 e)).1 (D.dst_range (ix1 e)).2,
    edgeDot_apply, bias_apply]
  rfl

end Cert.ReferenceIdeal.RPre

end
-- ==== Proof.RStats.lean ====
/-
  The reference's edge statistics, after the second stretch: the column mean is the column sum (from the initial value
  0) over the number of edges; the variance function recomputes that mean, sums the squared deviations from it, divides
  by the number of edges less the integer 0 converted, and keeps the quotient because that divisor is positive.

  First the pure operations on any [800000, 128] array: a column sum read as the sum down the column, a row laid out as a
  one-row matrix and a one-row matrix repeated down the rows read at an entry, and the variance function's line, named
  piece by piece (the mean row, the deviations, the divisor) and read at a column. Then what the stretch leaves in the
  mean buffer, the variance buffer and the pre-activation buffer from any contents before it; last the three facts, at
  the contents the first stretch leaves.
-/
import proofs.«410141_j3496103379076_1_alg».proof.Proof.RefCut
import proofs.«410141_j3496103379076_1_alg».proof.Proof.Spec
import proofs.«410141_j3496103379076_1_alg».proof.Proof.SpecNode
import proofs.«410141_j3496103379076_1_alg».proof.Proof.RArgs
import proofs.«410141_j3496103379076_1_alg».proof.Proof.RPre
import proofs.«410141_j3496103379076_1_alg».proof.Proof.VarIdentity
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.HandRun
open Cert.ReferenceIdeal.RV

namespace Cert.ReferenceIdeal.RStats

/-! ## The pure operations on an [800000, 128] array -/

/-- The column sum of an [800000, 128] array from the initial value zero, at column j. -/
theorem colsum_apply (a : S800000x128.Idx → EReal) (j : Fin 128) :
    (Host.reduceAdd (F := Ideal) (φ := .f32) a (constant (F := Ideal) S_ .f32 0x00000000#32) reducesTo_S800000x128_S128_d0 h_S_ : S128.Idx → EReal) (ix1 j)
      = ∑ e : Fin 800000, a (ix2 e j) := by
  rw [hostReduceAdd_apply]
  have h : S800000x128.Reduces [0] S128 := by decide
  rw [Ideal.hostReduceAdd_single _ h, constant_apply, Ideal.ofBits_zero_f32, zero_add]
  refine Finset.sum_congr rfl fun e _ => congrArg a ?_
  funext d
  match d with
  | ⟨0, _⟩ => exact Fin.ext rfl
  | ⟨1, _⟩ => exact Fin.ext rfl

/-- A row of 128 entries laid out as a [1, 128] array reads the row. -/
theorem row_apply {α : Type} (x : S128.Idx → α) (r : Fin 1) (j : Fin 128) :
    broadcastInDim S1x128 ![1] bcast_S128_S1x128_1 x (ix2 r j) = x (ix1 j) := by
  refine broadcastInDim_apply _ _ x _ (ix1 j) fun a => ?_
  match a with
  | ⟨0, _⟩ => rfl

/-- A [1, 128] array repeated down 800000 rows reads its one row. -/
theorem rows_apply {α : Type} (x : S1x128.Idx → α) (e : Fin 800000) (j : Fin 128) :
    broadcastInDim S800000x128 ![0, 1] bcast_S1x128_S800000x128_0_1 x (ix2 e j) = x (ix2 (0 : Fin 1) j) := by
  refine broadcastInDim_apply _ _ x _ (ix2 (0 : Fin 1) j) fun a => ?_
  match a with
  | ⟨0, _⟩ => rfl
  | ⟨1, _⟩ => rfl

/-- A scalar repeated along 128 columns reads the scalar. -/
theorem splat_apply {α : Type} (x : S_.Idx → α) (j : Fin 128) :
    broadcastInDim S128 ![] bcast_S_S128 x (ix1 j) = x ix0 :=
  broadcastInDim_scalar_apply _ x _

/-- The column means of an [800000, 128] array kept as a one-row matrix: the column sums from zero laid out as a row,
    over the edge-count word laid out as a row. -/
def meanRow (a : S800000x128.Idx → EReal) : S1x128.Idx → EReal :=
  Host.divf (F := Ideal) (φ := .f32)
    (broadcastInDim S1x128 ![1] bcast_S128_S1x128_1
      (Host.reduceAdd (F := Ideal) (φ := .f32) a (constant (F := Ideal) S_ .f32 0x00000000#32) reducesTo_S800000x128_S128_d0 h_S_))
    (broadcastInDim S1x128 ![] bcast_S_S1x128 (constant (F := Ideal) S_ .f32 0x49435000#32))

/-- The deviations from the column means: the array less the mean row repeated down the rows. -/
def devs (a : S800000x128.Idx → EReal) : S800000x128.Idx → EReal :=
  subf (F := Ideal) (φ := .f32) a (broadcastInDim S800000x128 ![0, 1] bcast_S1x128_S800000x128_0_1 (meanRow a))

/-- The variance's divisor: the edge-count word less the integer word 0 converted. -/
def divisor : S_.Idx → EReal :=
  subf (F := Ideal) (φ := .f32) (constant (F := Ideal) S_ .f32 0x49435000#32)
    (sitofp (F := Ideal) .f32 (constantI S_ 32 0#32))

/-- The variance function's line on an [800000, 128] array: the column sums of the squared deviations over the divisor,
    kept where the divisor is above zero, a fixed word elsewhere. -/
def varLine (a : S800000x128.Idx → EReal) : S128.Idx → EReal :=
  select (broadcastInDim S128 ![] bcast_S_S128 (cmpf (F := Ideal) (φ := .f32) .ogt divisor (constant (F := Ideal) S_ .f32 0x00000000#32)))
    (Host.divf (F := Ideal) (φ := .f32)
      (Host.reduceAdd (F := Ideal) (φ := .f32) (mulf (F := Ideal) (φ := .f32) (devs a) (devs a))
        (constant (F := Ideal) S_ .f32 0x00000000#32) reducesTo_S800000x128_S128_d0 h_S_)
      (broadcastInDim S128 ![] bcast_S_S128 divisor))
    (broadcastInDim S128 ![] bcast_S_S128 (id (constant (F := Ideal) S_ .f32 0x7FC00000#32)))

/-- The edge-count word is a positive real. -/
theorem nEdges_pos : (0 : EReal) < Cert.Spec.nEdges := by
  rw [Cert.Spec.nEdges_eq]; exact EReal.coe_pos.mpr (by norm_num)

/-- The divisor is the edge count: the integer word 0 converts to the real 0. -/
theorem divisor_apply : divisor ix0 = Cert.Spec.nEdges := by
  unfold divisor
  rw [subf_apply, constant_apply, sitofp_apply]
  show Cert.Spec.nEdges - (((0#32 : BitVec 32).toInt : ℝ) : EReal) = Cert.Spec.nEdges
  simp

/-- The guard "the divisor is above zero" holds. -/
theorem guard_apply :
    FloatOps.cmpf (F := Ideal) (φ := .f32) .ogt Cert.Spec.nEdges (Ideal.ofBits .f32 0x00000000#32) = 1#1 := by
  rw [Ideal.cmpf_def, Ideal.ofBits_zero_f32]
  unfold Ideal.cmp
  simp [nEdges_pos]

/-- The mean row at column j: the sum down the column over the edge count. -/
theorem meanRow_apply (a : S800000x128.Idx → EReal) (j : Fin 128) :
    meanRow a (ix2 (0 : Fin 1) j) = Ideal.div (∑ e : Fin 800000, a (ix2 e j)) Cert.Spec.nEdges := by
  unfold meanRow
  rw [hostDivf_apply, row_apply, colsum_apply, broadcastInDim_scalar_apply, constant_apply]
  rfl

/-- A deviation: the entry less its column's mean. -/
theorem devs_apply (a : S800000x128.Idx → EReal) (e : Fin 800000) (j : Fin 128) :
    devs a (ix2 e j) = a (ix2 e j) - Ideal.div (∑ e' : Fin 800000, a (ix2 e' j)) Cert.Spec.nEdges := by
  unfold devs
  rw [subf_apply, rows_apply, meanRow_apply]

/-- The variance function's line at column j: the mean of the squared deviations from the column's mean. -/
theorem varLine_apply (a : S800000x128.Idx → EReal) (j : Fin 128) :
    varLine a (ix1 j)
      = Ideal.div (∑ e : Fin 800000,
          (a (ix2 e j) - Ideal.div (∑ e' : Fin 800000, a (ix2 e' j)) Cert.Spec.nEdges)
            * (a (ix2 e j) - Ideal.div (∑ e' : Fin 800000, a (ix2 e' j)) Cert.Spec.nEdges)) Cert.Spec.nEdges := by
  unfold varLine
  rw [select_apply, splat_apply, cmpf_apply, divisor_apply, constant_apply, guard_apply, select_one, hostDivf_apply,
    colsum_apply, splat_apply, divisor_apply]
  refine congrArg (Ideal.div · Cert.Spec.nEdges) (Finset.sum_congr rfl fun e _ => ?_)
  rw [mulf_apply, devs_apply]

/-! ## What the second stretch leaves, from any contents before it -/

/-- Contents written to a call's buffer and read back from it are the contents written. -/
theorem ofBuf_toBuf {T : BufTy} (x : TRef sig T) (v : T.Contents (Elt Ideal)) : x.ofBuf (x.toBuf v) = v := by
  obtain ⟨r, h, _, _⟩ := x
  subst h
  rfl

/-- At the pre-activation buffer, the integer-constant buffer and the variance buffer the value's type is the buffer's
    own, so reading or writing contents through the typed reference changes nothing. -/
theorem ofBuf_v27 (h1 h2 h3) (v : (main_v27 : Ref sig .tc).ty.Contents (Elt Ideal)) :
    (TRef.of (T := ⟨S800000x128, .f32⟩) main_v27 h1 h2 h3).ofBuf v = v := rfl
theorem ofBuf_c4 (h1 h2 h3) (v : (main_c_4 : Ref sig .tc).ty.Contents (Elt Ideal)) :
    (TRef.of (T := ⟨S_, .i32⟩) main_c_4 h1 h2 h3).ofBuf v = v := rfl
theorem toBuf_v31 (h1 h2 h3) (v : (⟨S128, .f32⟩ : BufTy).Contents (Elt Ideal)) :
    (TRef.of (T := ⟨S128, .f32⟩) main_v31 h1 h2 h3).toBuf v = v := rfl

/-- After the second stretch the mean buffer holds, at column j, the column sum of what the stretch found in the
    pre-activation buffer, divided by the edge count. -/
theorem mean_of (W : Valuation τ sig (Elt Ideal)) (j : Fin 128) :
    (StableHlo.after (ops2 (F := Ideal)) W (main_v30 : DevRef τ sig) : S128.Idx → EReal) (ix1 j)
      = Ideal.div (∑ e : Fin 800000, (W (main_v27 : DevRef τ sig) : S800000x128.Idx → EReal) (ix2 e j)) Cert.Spec.nEdges := by
  after_results_simp
  rw [hostDivf_apply, colsum_apply, broadcastInDim_scalar_apply, constant_apply]
  rfl

/-- After the second stretch the variance buffer holds the variance function's line on what the stretch found in the
    pre-activation buffer. -/
theorem var_read (W : Valuation τ sig (Elt Ideal)) :
    (StableHlo.after (ops2 (F := Ideal)) W (main_v31 : DevRef τ sig) : S128.Idx → EReal)
      = varLine (W (main_v27 : DevRef τ sig)) := by
  after_results_simp
  simp only [ofBuf_toBuf, ofBuf_v27, ofBuf_c4, toBuf_v31]
  rfl

/-- The second stretch writes nothing into the pre-activation buffer. -/
theorem pre_read (W : Valuation τ sig (Elt Ideal)) :
    (StableHlo.after (ops2 (F := Ideal)) W (main_v27 : DevRef τ sig) : S800000x128.Idx → EReal)
      = W (main_v27 : DevRef τ sig) := by
  after_results_simp

/-! ## The three facts, at the contents the first stretch leaves -/

variable (V : Valuation τ sig (Elt Ideal))

theorem mean_apply (D : InDom V) (j : Fin 128) :
    (U2 (F := Ideal) V (main_v30 : DevRef τ sig) : S128.Idx → EReal) (ix1 j) = Cert.Spec.preMean (x V) (ef V) (src V) (dst V) (Ws V) (bs V) (Wd V) (bd V) (We V) (be V) j := by
  refine (mean_of (U1 (F := Ideal) V) j).trans ?_
  unfold Cert.Spec.preMean Cert.Spec.preSum
  exact congrArg (Ideal.div · Cert.Spec.nEdges) (Finset.sum_congr rfl fun e _ => RPre.pre_apply V D e j)

theorem var_apply (D : InDom V) (j : Fin 128) :
    (U2 (F := Ideal) V (main_v31 : DevRef τ sig) : S128.Idx → EReal) (ix1 j) = Cert.Spec.varDev (x V) (ef V) (src V) (dst V) (Ws V) (bs V) (Wd V) (bd V) (We V) (be V) j := by
  have hp : ∀ e : Fin 800000, (U1 (F := Ideal) V (main_v27 : DevRef τ sig) : S800000x128.Idx → EReal) (ix2 e j)
      = Cert.Spec.pre (x V) (ef V) (src V) (dst V) (Ws V) (bs V) (Wd V) (bd V) (We V) (be V) e j :=
    fun e => RPre.pre_apply V D e j
  refine (congrFun (var_read (U1 (F := Ideal) V)) (ix1 j)).trans ?_
  rw [varLine_apply]
  unfold Cert.Spec.varDev Cert.Spec.preMean Cert.Spec.preSum
  simp only [hp]

theorem pre_kept (D : InDom V) (e : Fin 800000) (j : Fin 128) :
    (U2 (F := Ideal) V (main_v27 : DevRef τ sig) : S800000x128.Idx → EReal) (ix2 e j)
      = Cert.Spec.pre (x V) (ef V) (src V) (dst V) (Ws V) (bs V) (Wd V) (bd V) (We V) (be V) e j :=
  (congrFun (pre_read (U1 (F := Ideal) V)) (ix2 e j)).trans (RPre.pre_apply V D e j)

end Cert.ReferenceIdeal.RStats

end
-- ==== Proof.RAct.lean ====
/-
  The reference's messages, after the third stretch: every pre-activation normalised column by column, the first 64
  columns through 1 / (1 + e^(−·)), the last 64 through softplus (guarded by a test x ≠ x no extended real satisfies),
  and the two halves multiplied.
-/
import proofs.«410141_j3496103379076_1_alg».proof.Proof.RefCut
import proofs.«410141_j3496103379076_1_alg».proof.Proof.Spec
import proofs.«410141_j3496103379076_1_alg».proof.Proof.SpecNode
import proofs.«410141_j3496103379076_1_alg».proof.Proof.RArgs
import proofs.«410141_j3496103379076_1_alg».proof.Proof.RStats
import Idealize.ShloMosaic.Lib.ValueIdx
import Idealize.ShloMosaic.Lib.Pipeline.Value
import Idealize.ShloMosaic.PureOps.Ideal.Laws
import Idealize.ShloMosaic.Lib.IdealHost
import Idealize.ShloMosaic.Lib.ValueLayout

set_option maxRecDepth 16384

noncomputable section

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.HandRun
open Cert.ReferenceIdeal.RV

namespace Cert.ReferenceIdeal.RAct

variable (V : Valuation τ sig (Elt Ideal))

/-! ## Layout: a row broadcast down the edges, and the two column halves -/

/-- A vector of 128 laid as one row and repeated down the 800000 rows reads, at (e, j), its entry j. -/
theorem bcast_row (v : S128.Idx → EReal) (e : Fin 800000) (j : Fin 128) :
    broadcastInDim S800000x128 ![0, 1] bcast_S1x128_S800000x128_0_1
        (broadcastInDim S1x128 ![1] bcast_S128_S1x128_1 v) (ix2 e j) = v (ix1 j) :=
  (broadcastInDim_apply _ _ _ (ix2 e j) (ix2 (0 : Fin 1) j) (fun a => by
      match a with
      | ⟨0, _⟩ => rfl
      | ⟨1, _⟩ => rfl)).trans
    (broadcastInDim_apply _ _ _ (ix2 (0 : Fin 1) j) (ix1 j) (fun a => by
      match a with
      | ⟨0, _⟩ => rfl))

/-- The first 64 columns: entry (e, j) is the array's entry (e, j). -/
theorem slice_lo (T : S800000x128.Idx → EReal) (e : Fin 800000) (j : Fin 64) :
    extractStridedSlice S800000x64 ![0, 0] T slices_S800000x128_S800000x64_0_0 (ix2 e j)
      = T (ix2 e ⟨j.val, by omega⟩) :=
  slice2_axis1_apply 0 T _ e j ⟨j.val, by omega⟩ (Nat.zero_add _).symm

/-- The last 64 columns: entry (e, j) is the array's entry (e, j + 64). -/
theorem slice_hi (T : S800000x128.Idx → EReal) (e : Fin 800000) (j : Fin 64) :
    extractStridedSlice S800000x64 ![0, 64] T slices_S800000x128_S800000x64_0_64 (ix2 e j)
      = T (ix2 e ⟨j.val + 64, by omega⟩) :=
  slice2_axis1_apply 64 T _ e j ⟨j.val + 64, by omega⟩ (Nat.add_comm _ _)

/-! ## The two scalar lines -/

/-- No extended real differs from itself. -/
theorem cmp_une_self (d : EReal) : Ideal.cmp .une d d = 0#1 := by
  simp [Ideal.cmp]

/-- 1 / (1 + e^(−a)), the two ones given as the float word of 1, is the logistic function. -/
theorem logistic_line (a : EReal) :
    Ideal.div (Ideal.ofBits .f32 0x3F800000#32) (Ideal.ofBits .f32 0x3F800000#32 + Ideal.exp (-a)) = Ideal.logistic a := by
  rw [Ideal.ofBits_one_f32]; rfl

/-- The guarded softplus line, its zeros given as the float word of 0: the guard a − 0 ≠ a − 0 never holds, so the
    line is max(a, 0) + log(1 + e^(−|a − 0|)), and a − 0 is a. -/
theorem softplus_line (a : EReal) :
    Scalar.select (Ideal.cmp .une (a - Ideal.ofBits .f32 0x00000000#32) (a - Ideal.ofBits .f32 0x00000000#32))
        (a + Ideal.ofBits .f32 0x00000000#32)
        (max a (Ideal.ofBits .f32 0x00000000#32)
          + Ideal.log1p (Ideal.exp (-(FloatOps.absf (F := Ideal) (φ := .f32) (a - Ideal.ofBits .f32 0x00000000#32)))))
      = Cert.Spec.softplus a := by
  rw [cmp_une_self, select_zero, Ideal.ofBits_zero_f32, sub_zero]
  rfl

/-! ## The stretch's two composed arrays, for any operands -/

/-- The affine normalisation as the stretch composes it: (a − mean) · rsqrt(var + ε) · γ + β, the four vectors each
    laid as a row and repeated down the edges. -/
def normArr (a : S800000x128.Idx → EReal) (mu va g b : S128.Idx → EReal) : S800000x128.Idx → EReal :=
  addf
    (mulf
      (mulf
        (subf a (broadcastInDim S800000x128 ![0, 1] bcast_S1x128_S800000x128_0_1 (broadcastInDim S1x128 ![1] bcast_S128_S1x128_1 mu)))
        (broadcastInDim S800000x128 ![0, 1] bcast_S1x128_S800000x128_0_1
          (broadcastInDim S1x128 ![1] bcast_S128_S1x128_1
            (Host.rsqrt (addf va (broadcastInDim S128 ![] bcast_S_S128 (constant (F := Ideal) S_ .f32 0x3727C5AC#32)))))))
      (broadcastInDim S800000x128 ![0, 1] bcast_S1x128_S800000x128_0_1 (broadcastInDim S1x128 ![1] bcast_S128_S1x128_1 g)))
    (broadcastInDim S800000x128 ![0, 1] bcast_S1x128_S800000x128_0_1 (broadcastInDim S1x128 ![1] bcast_S128_S1x128_1 b))

theorem normArr_apply (a : S800000x128.Idx → EReal) (mu va g b : S128.Idx → EReal) (e : Fin 800000) (j : Fin 128) :
    normArr a mu va g b (ix2 e j)
      = Cert.Spec.norm (a (ix2 e j)) (mu (ix1 j)) (va (ix1 j)) (g (ix1 j)) (b (ix1 j)) := by
  unfold normArr
  rw [addf_apply, mulf_apply, mulf_apply, subf_apply, bcast_row, bcast_row, bcast_row, bcast_row]
  rfl

/-- The gated product as the stretch composes it from the normalised array T: 1 / (1 + e^(−·)) of the first 64
    columns times the guarded softplus line of the last 64. -/
def actArr (T : S800000x128.Idx → EReal) : S800000x64.Idx → EReal :=
  mulf
    (Host.divf (broadcastInDim S800000x64 ![] bcast_S_S800000x64 (constant (F := Ideal) S_ .f32 0x3F800000#32))
      (addf (broadcastInDim S800000x64 ![] bcast_S_S800000x64 (constant (F := Ideal) S_ .f32 0x3F800000#32))
        (Host.exp (Host.negf (extractStridedSlice S800000x64 ![0, 0] T slices_S800000x128_S800000x64_0_0)))))
    (select
      (cmpf .une
        (subf (extractStridedSlice S800000x64 ![0, 64] T slices_S800000x128_S800000x64_0_64)
          (broadcastInDim S800000x64 ![] bcast_S_S800000x64 (constant (F := Ideal) S_ .f32 0x00000000#32)))
        (subf (extractStridedSlice S800000x64 ![0, 64] T slices_S800000x128_S800000x64_0_64)
          (broadcastInDim S800000x64 ![] bcast_S_S800000x64 (constant (F := Ideal) S_ .f32 0x00000000#32))))
      (addf (extractStridedSlice S800000x64 ![0, 64] T slices_S800000x128_S800000x64_0_64)
        (broadcastInDim S800000x64 ![] bcast_S_S800000x64 (constant (F := Ideal) S_ .f32 0x00000000#32)))
      (addf
        (maximumf (extractStridedSlice S800000x64 ![0, 64] T slices_S800000x128_S800000x64_0_64)
          (broadcastInDim S800000x64 ![] bcast_S_S800000x64 (constant (F := Ideal) S_ .f32 0x00000000#32)))
        (Host.log1p (Host.exp (Host.negf (Host.absf
          (subf (extractStridedSlice S800000x64 ![0, 64] T slices_S800000x128_S800000x64_0_64)
            (broadcastInDim S800000x64 ![] bcast_S_S800000x64 (constant (F := Ideal) S_ .f32 0x00000000#32)))))))))

theorem actArr_apply (T : S800000x128.Idx → EReal) (e : Fin 800000) (j : Fin 64) :
    actArr T (ix2 e j)
      = Ideal.logistic (T (ix2 e ⟨j.val, by omega⟩)) * Cert.Spec.softplus (T (ix2 e ⟨j.val + 64, by omega⟩)) := by
  unfold actArr
  rw [← logistic_line, ← softplus_line, ← slice_lo T e j, ← slice_hi T e j]
  rfl

/-! ## The stretch read from any contents -/

/-- What the third stretch leaves in its last result, from any contents W: the gated product of the normalisation of
    W's pre-activations by W's mean and variance vectors and its scale and shift arguments. -/
theorem stretch3 (W : Valuation τ sig (Elt Ideal)) :
    (after ops3 W (main_v56 : DevRef τ sig) : S800000x64.Idx → EReal)
      = actArr (normArr (W (main_v27 : DevRef τ sig)) (W (main_v30 : DevRef τ sig)) (W (main_v31 : DevRef τ sig))
          (W (main_arg10 : DevRef τ sig)) (W (main_arg11 : DevRef τ sig))) := by
  after_results_simp
  unfold actArr normArr
  rfl

/-- No operation of the first two stretches writes the scale argument … -/
theorem gm_kept : (U2 (F := Ideal) V (main_arg10 : DevRef τ sig) : S128.Idx → EReal) = gm V := by
  show (after ops2 (after ops1 V) (main_arg10 : DevRef τ sig) : S128.Idx → EReal) = V (main_arg10 : DevRef τ sig)
  after_results_simp

/-- … nor the shift argument. -/
theorem bm_kept : (U2 (F := Ideal) V (main_arg11 : DevRef τ sig) : S128.Idx → EReal) = bm V := by
  show (after ops2 (after ops1 V) (main_arg11 : DevRef τ sig) : S128.Idx → EReal) = V (main_arg11 : DevRef τ sig)
  after_results_simp

theorem msg_arr (D : InDom V) :
    (U3 (F := Ideal) V (main_v56 : DevRef τ sig) : S800000x64.Idx → EReal)
      = Cert.Spec.msgArr (x V) (ef V) (src V) (dst V) (Ws V) (bs V) (Wd V) (bd V) (We V) (be V) (gm V) (bm V) (Cert.Spec.varDev (x V) (ef V) (src V) (dst V) (Ws V) (bs V) (Wd V) (bd V) (We V) (be V)) := by
  funext i
  obtain ⟨e, j, rfl⟩ : ∃ (e : Fin 800000) (j : Fin 64), i = ix2 e j := ⟨i 0, i 1, eq_ix2 i⟩
  have h1 : (U3 (F := Ideal) V (main_v56 : DevRef τ sig) : S800000x64.Idx → EReal)
      = actArr (normArr (U2 (F := Ideal) V (main_v27 : DevRef τ sig)) (U2 (F := Ideal) V (main_v30 : DevRef τ sig))
          (U2 (F := Ideal) V (main_v31 : DevRef τ sig)) (U2 (F := Ideal) V (main_arg10 : DevRef τ sig))
          (U2 (F := Ideal) V (main_arg11 : DevRef τ sig))) := stretch3 (U2 (F := Ideal) V)
  rw [h1, actArr_apply, normArr_apply, normArr_apply, gm_kept V, bm_kept V,
    RStats.pre_kept V D, RStats.pre_kept V D, RStats.mean_apply V D, RStats.mean_apply V D,
    RStats.var_apply V D, RStats.var_apply V D]
  rfl

end Cert.ReferenceIdeal.RAct

end
-- ==== Proof.RNode.lean ====
/-
  The reference's received sums and node statistics, after the fourth stretch: the scatter-add of the messages into
  zeros by the destination words; the column mean; the variance function once more, on 50000 rows.

  The stretch is read in two parts. Its first four operations build the table of zeros, lay the destination words out as
  a one-column table and scatter-add the messages: with the program's dimension numbers shown to be the specification's,
  that is the specification's received sums. The remaining twenty-eight operations are read from whatever the four left,
  the received sums' buffer being one array there: the column mean is the column sum from the zero word over the
  node-count word, and the variance function's twenty-two operations are the chain of pure operations whose value at a
  column is the mean of squared deviations (both facts about the pure operations alone are the node-statistics section's).
-/
import proofs.«410141_j3496103379076_1_alg».proof.Proof.RefCut
import proofs.«410141_j3496103379076_1_alg».proof.Proof.Spec
import proofs.«410141_j3496103379076_1_alg».proof.Proof.SpecNode
import proofs.«410141_j3496103379076_1_alg».proof.Proof.RArgs
import proofs.«410141_j3496103379076_1_alg».proof.Proof.RAct
import proofs.«410141_j3496103379076_1_alg».proof.Proof.VarIdentity
import proofs.«410141_j3496103379076_1_alg».proof.Proof.KNodeStats
import Idealize.ShloMosaic.Lib.ValueIdx
import Idealize.ShloMosaic.Lib.Pipeline.Value
import Idealize.ShloMosaic.PureOps.Ideal.Laws

set_option maxRecDepth 16384

noncomputable section

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.HandRun
open Cert.ReferenceIdeal.RV

namespace Cert.ReferenceIdeal.RNode

variable (V : Valuation τ sig (Elt Ideal))

/-! ## The received sums -/

/-- No operation of the first three stretches writes the destination words. -/
theorem dst_keep :
    (U3 (F := Ideal) V (main_arg3 : DevRef τ sig) : S800000.Idx → BitVec 32) = dst V := by
  show (StableHlo.after ops3 (StableHlo.after ops2 (StableHlo.after ops1 V)) (main_arg3 : DevRef τ sig) : S800000.Idx → BitVec 32) = _
  after_results_simp

/-- The scalar zero word broadcast to the node table is the table that holds the zero word everywhere. -/
theorem zeros_eq :
    (broadcastInDim S50000x64 ![] bcast_S_S50000x64 (constant (F := Ideal) S_ FTy.f32 0x00000000#32) : S50000x64.Idx → EReal)
      = fun _ => Ideal.ofBits .f32 0x00000000#32 := by
  funext i; rfl

/-- The destination words laid out as a one-column table read, at row e, the e-th word. -/
theorem col_eq (d : S800000.Idx → BitVec 32) :
    (broadcastInDim S800000x1 ![0] bcast_S800000_S800000x1_0 d : S800000x1.Idx → BitVec 32) = fun i => d (ix1 (i 0)) := by
  funext i
  refine broadcastInDim_apply _ _ _ _ (ix1 (i 0)) (fun a => ?_)
  fin_cases a
  rfl

/-- The program's scatter dimension numbers are the specification's: the same four lists, and a proof. -/
theorem dims_eq : scatter_S50000x64_S800000x1_S800000x64_1_0_0_1 = Cert.Spec.scatDims := rfl

theorem h_arr (D : InDom V) :
    (U4 (F := Ideal) V (main_v59 : DevRef τ sig) : S50000x64.Idx → EReal) = hR V := by
  have h56 := RAct.msg_arr V D
  have h3 := dst_keep V
  show (StableHlo.after ops4 (U3 V) (main_v59 : DevRef τ sig) : S50000x64.Idx → EReal) = _
  generalize U3 (F := Ideal) V = W at h56 h3 ⊢
  after_results_simp
  rw [h56, h3, zeros_eq, col_eq, dims_eq]
  rfl

/-! ## The stretch in two parts -/

/-- The fold over two lines in a row is the second line's fold run from the first's. -/
theorem after_append : ∀ (l₁ l₂ : List (HloOp τ sig (Elt Ideal))) (W : Valuation τ sig (Elt Ideal)),
    StableHlo.after (l₁ ++ l₂) W = StableHlo.after l₂ (StableHlo.after l₁ W)
  | [], _, _ => rfl
  | op :: l₁, l₂, W => by rw [List.cons_append, after_cons, after_cons, after_append l₁ l₂]

/-- The fourth stretch is its first four operations (the zeros, the index column, the scatter-add) and then the
    statistics' twenty-eight, run from what the four left. -/
theorem after_ops4 (W : Valuation τ sig (Elt Ideal)) :
    StableHlo.after (ops4 (F := Ideal)) W = StableHlo.after ((ops4 (F := Ideal)).drop 4) (StableHlo.after ((ops4 (F := Ideal)).take 4) W) := by
  rw [← after_append, List.take_append_drop]

/-- The statistics' operations do not write the received sums' buffer. -/
theorem tail_v59 (W : Valuation τ sig (Elt Ideal)) :
    (StableHlo.after ((ops4 (F := Ideal)).drop 4) W (main_v59 : DevRef τ sig) : S50000x64.Idx → EReal) = W (main_v59 : DevRef τ sig) := by
  simp only [ops4, List.drop_succ_cons, List.drop_zero]
  after_results_simp

/-- The column mean's buffer after the statistics' operations, from any contents: the column sum of the received sums'
    buffer from the zero word, divided by the node-count word along the columns. -/
theorem tail_v62 (W : Valuation τ sig (Elt Ideal)) :
    (StableHlo.after ((ops4 (F := Ideal)).drop 4) W (main_v62 : DevRef τ sig) : S64.Idx → EReal)
      = Host.divf (Host.reduceAdd (F := Ideal) (φ := .f32) (W (main_v59 : DevRef τ sig) : S50000x64.Idx → EReal) (constant (F := Ideal) S_ .f32 0x00000000#32) reducesTo_S50000x64_S64_d0 h_S_)
          (broadcastInDim S64 ![] bcast_S_S64 (constant (F := Ideal) S_ .f32 0x47435000#32)) := by
  simp only [ops4, List.drop_succ_cons, List.drop_zero]
  after_results_simp

/-- The variance function's result buffer after the statistics' operations, from any contents: its twenty-two operations
    applied to the received sums' buffer and the integer zero word. The received sums' buffer is one array here, so the two
    sides differ only by the chain's definition and by transports along equations between equal buffer types. -/
theorem tail_v63 (W : Valuation τ sig (Elt Ideal)) :
    (StableHlo.after ((ops4 (F := Ideal)).drop 4) W (main_v63 : DevRef τ sig) : S64.Idx → EReal)
      = Cert.Spec.NodeStats.varChain reducesTo_S50000x64_S64_d0 h_S_ bcast_S64_S1x64_1 bcast_S_S1x64 bcast_S1x64_S50000x64_0_1 bcast_S_S64
          (W (main_v59 : DevRef τ sig) : S50000x64.Idx → EReal) (constantI S_ 32 0#32) := by
  simp only [ops4, List.drop_succ_cons, List.drop_zero]
  after_results_simp
  rfl

/-! ## The node statistics -/

theorem mean_apply (D : InDom V) (j : Fin 64) :
    (U4 (F := Ideal) V (main_v62 : DevRef τ sig) : S64.Idx → EReal) (ix1 j) = Cert.Spec.nodeMean (hR V) j := by
  have h59 : (StableHlo.after ops4 (U3 V) (main_v59 : DevRef τ sig) : S50000x64.Idx → EReal) = hR V := h_arr V D
  show (StableHlo.after ops4 (U3 V) (main_v62 : DevRef τ sig) : S64.Idx → EReal) (ix1 j) = _
  rw [after_ops4] at h59 ⊢
  generalize StableHlo.after ((ops4 (F := Ideal)).take 4) (U3 V) = W at h59 ⊢
  rw [tail_v59] at h59
  rw [tail_v62, h59]
  exact Cert.Spec.NodeStats.mean_apply (hR V) _ _ _ j

theorem var_apply (D : InDom V) (j : Fin 64) :
    (U4 (F := Ideal) V (main_v63 : DevRef τ sig) : S64.Idx → EReal) (ix1 j) = Cert.Spec.nodeVar (hR V) j := by
  have h59 : (StableHlo.after ops4 (U3 V) (main_v59 : DevRef τ sig) : S50000x64.Idx → EReal) = hR V := h_arr V D
  show (StableHlo.after ops4 (U3 V) (main_v63 : DevRef τ sig) : S64.Idx → EReal) (ix1 j) = _
  rw [after_ops4] at h59 ⊢
  generalize StableHlo.after ((ops4 (F := Ideal)).take 4) (U3 V) = W at h59 ⊢
  rw [tail_v59] at h59
  rw [tail_v63, h59]
  exact Cert.Spec.NodeStats.varChain_apply _ _ _ _ _ _ (hR V) _ rfl j

end Cert.ReferenceIdeal.RNode

end
-- ==== Proof.ROut.lean ====
/-
  The reference's result: the received sums normalised column by column, added to the node features, through
  softplus; read off the whole run's fold.

  The fifth stretch is read at one entry (n, j) from whatever contents the fourth left. The three row arrays (mean,
  reciprocal root of variance plus epsilon, scale, shift) are rows of 64 repeated over the 50000 nodes, so at (n, j)
  each reads its entry j; the affine map is then (h − mean) · rsqrt(var + ε) · γ + β at that entry, and the sum with
  the node feature goes through the softplus line: max(z, 0) + log(1 + e^(−|z − 0|)), kept by a select whose guard
  "z − 0 differs from itself" is the zero bit on every extended real. With z − 0 = z this is the specification's softplus
  of z. The arrays the stretch starts from are the received sums and the node statistics of the fourth stretch, and
  three argument arrays, which no operation of the line writes.
-/
import proofs.«410141_j3496103379076_1_alg».proof.Proof.RefCut
import proofs.«410141_j3496103379076_1_alg».proof.Proof.RefArgs
import proofs.«410141_j3496103379076_1_alg».proof.Proof.Spec
import proofs.«410141_j3496103379076_1_alg».proof.Proof.SpecNode
import proofs.«410141_j3496103379076_1_alg».proof.Proof.RArgs
import proofs.«410141_j3496103379076_1_alg».proof.Proof.RNode
import Idealize.ShloMosaic.Lib.ValueIdx
import Idealize.ShloMosaic.Lib.Pipeline.Value
import Idealize.ShloMosaic.PureOps.Ideal.Laws

set_option maxRecDepth 16384

noncomputable section

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.HandRun
open Cert.ReferenceIdeal.RV

namespace Cert.ReferenceIdeal.ROut

/-- A row of 64 laid along the second axis of a one-row array and repeated over 50000 rows reads, at (n, j), the row's
    entry j. -/
theorem row_bcast {α : Type} (v : S64.Idx → α) (n : Fin 50000) (j : Fin 64) :
    broadcastInDim S50000x64 ![0, 1] bcast_S1x64_S50000x64_0_1 (broadcastInDim S1x64 ![1] bcast_S64_S1x64_1 v) (ix2 n j)
      = v (ix1 j) := by
  refine (broadcastInDim_apply _ _ _ (ix2 n j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- A scalar repeated over the whole [50000, 64] array reads the scalar everywhere. -/
theorem splat2 {α : Type} (c : S_.Idx → α) (n : Fin 50000) (j : Fin 64) :
    broadcastInDim S50000x64 ![] bcast_S_S50000x64 c (ix2 n j) = c ix0 :=
  broadcastInDim_apply _ _ _ (ix2 n j) ix0 fun a => a.elim0

/-- A scalar repeated over a row of 64 reads the scalar everywhere. -/
theorem splat1 {α : Type} (c : S_.Idx → α) (j : Fin 64) :
    broadcastInDim S64 ![] bcast_S_S64 c (ix1 j) = c ix0 :=
  broadcastInDim_apply _ _ _ (ix1 j) ix0 fun a => a.elim0

/-- No extended real differs from itself. -/
theorem une_self (d : EReal) : Ideal.cmp .une d d = 0#1 := by
  simp [Ideal.cmp]

/-- The comparison "differs from" of an extended real with itself is the zero bit. -/
theorem cmpf_une_self (d : EReal) : FloatOps.cmpf (F := Ideal) (φ := .f32) .une d d = 0#1 := une_self d

/-- The fifth stretch at entry (n, j), from any contents `W`: with `W`'s node features, received sums, node mean,
    node variance, scale and shift named, the result buffer holds softplus(x + normalised h) there. -/
theorem stage5 (W : Valuation τ sig (Elt Ideal)) (xA hA : S50000x64.Idx → EReal) (mA vA gA bA : S64.Idx → EReal)
    (hx : (W (main_arg0 : DevRef τ sig) : S50000x64.Idx → EReal) = xA)
    (hh : (W (main_v59 : DevRef τ sig) : S50000x64.Idx → EReal) = hA)
    (hm : (W (main_v62 : DevRef τ sig) : S64.Idx → EReal) = mA)
    (hv : (W (main_v63 : DevRef τ sig) : S64.Idx → EReal) = vA)
    (hg : (W (main_arg12 : DevRef τ sig) : S64.Idx → EReal) = gA)
    (hb : (W (main_arg13 : DevRef τ sig) : S64.Idx → EReal) = bA)
    (n : Fin 50000) (j : Fin 64) :
    (StableHlo.after (ops5 (F := Ideal)) W (main_v80 : DevRef τ sig) : S50000x64.Idx → EReal) (ix2 n j)
      = Cert.Spec.softplus (xA (ix2 n j)
          + Cert.Spec.norm (hA (ix2 n j)) (mA (ix1 j)) (vA (ix1 j)) (gA (ix1 j)) (bA (ix1 j))) := by
  after_results_simp
  simp only [TRef.ofBuf, TRef.toBuf, cast_eq]
  rw [hx, hh, hm, hv, hg, hb]
  simp only [select_apply, cmpf_apply, addf_apply, subf_apply, mulf_apply, maximumf_apply, Host.absf,
    Host.negf, Host.exp, Host.log1p, constant_apply]

  simp only [row_bcast _ n j, splat2 _ n j]
  simp only [Host.rsqrt, addf_apply, splat1 _ j, constant_apply]
  simp only [Cert.Spec.norm, Cert.Spec.eps, Cert.Spec.softplus, Ideal.hostUnary_rsqrt_def, Ideal.hostUnary_log1p_def,
    Ideal.hostUnary_exp_def, Ideal.hostNegf_def, Ideal.hostAbsf_def, Ideal.negf_def, Ideal.ofBits_zero_f32, sub_zero]
  generalize xA (ix2 n j)
    + ((hA (ix2 n j) - mA (ix1 j)) * Ideal.rsqrt (vA (ix1 j) + Ideal.ofBits .f32 0x3727C5AC#32) * gA (ix1 j)
        + bA (ix1 j)) = z
  rw [cmpf_une_self, select_zero]

/-- Every operation of a stretch of the line is one of the line's, and none of those writes an argument: a stretch
    leaves each argument array as it found it. -/
theorem keep_of_sub (l : List (HloOp τ sig (Elt Ideal))) (hl : ∀ op ∈ l, op ∈ (ops (F := Ideal)))
    (W : Valuation τ sig (Elt Ideal)) {r : Ref sig .tc} (hr : r ∈ args) :
    StableHlo.after l W (r : DevRef τ sig) = W (r : DevRef τ sig) :=
  after_of_forall_not_mem l W fun op hop => List.forall_iff_forall_mem.mp ops_keep op (hl op hop) r hr

/-- So after the first four stretches every argument array is the launch's. -/
theorem U4_arg (V : Valuation τ sig (Elt Ideal)) {r : Ref sig .tc} (hr : r ∈ args) :
    U4 (F := Ideal) V (r : DevRef τ sig) = V (r : DevRef τ sig) := by
  have e : ∀ op, op ∈ ops1 ++ ops2 ++ ops3 ++ ops4 ++ ops5 → op ∈ (ops (F := Ideal)) := fun op h => by
    rw [ops_cut]; exact h
  show StableHlo.after ops4 (StableHlo.after ops3 (StableHlo.after ops2 (StableHlo.after ops1 V))) _ = _
  rw [keep_of_sub ops4 (fun op h => e op (List.mem_append_left _ (List.mem_append_right _ h))) _ hr,
    keep_of_sub ops3 (fun op h => e op (List.mem_append_left _ (List.mem_append_left _ (List.mem_append_right _ h)))) _ hr,
    keep_of_sub ops2 (fun op h => e op (List.mem_append_left _ (List.mem_append_left _ (List.mem_append_left _
      (List.mem_append_right _ h))))) _ hr,
    keep_of_sub ops1 (fun op h => e op (List.mem_append_left _ (List.mem_append_left _ (List.mem_append_left _
      (List.mem_append_left _ h))))) _ hr]

variable (V : Valuation τ sig (Elt Ideal))

theorem out_arr (D : InDom V) :
    (after (ops (F := Ideal)) V (main_v80 : DevRef τ sig) : S50000x64.Idx → EReal)
      = Cert.Spec.outOf (x V) (hR V) (gn V) (bn V) := by
  rw [after_cut]
  funext i
  obtain ⟨n, j, rfl⟩ : ∃ (n : Fin 50000) (j : Fin 64), i = ix2 n j := ⟨i 0, i 1, eq_ix2 i⟩
  refine (stage5 (U4 (F := Ideal) V) (x V) (hR V) _ _ (gn V) (bn V) (U4_arg V (r := main_arg0) (by decide))
    (RNode.h_arr V D) rfl rfl (U4_arg V (r := main_arg12) (by decide)) (U4_arg V (r := main_arg13) (by decide)) n j).trans ?_
  rw [RNode.mean_apply V D j, RNode.var_apply V D j]
  rfl

end Cert.ReferenceIdeal.ROut

end
-- ==== Proof.PreFacts.lean ====
/-
  What the printed precondition says, decoded: the conjunction of "every entry of this float array is below +∞ in
  absolute value" over the twelve float arguments gives that every entry is a real number, and the four comparisons of
  the source and destination words against 0 and 50000 give that each word indexes a node.
-/
import proofs.«410141_j3496103379076_1_alg».proof.Pre_finite_inputs
import proofs.«410141_j3496103379076_1_alg».proof.Proof.Gen.Pre_finite_inputs
import proofs.«410141_j3496103379076_1_alg».proof.Proof.Spec
import Idealize.ShloMosaic.Lib.ReduceAll
import Idealize.ShloMosaic.Lib.StableHlo.Predicate

noncomputable section

namespace Cert.PreFacts

open Idealize.ShloMosaic Cert.Pre_finite_inputs

/-- The scalar shape has one index. -/
instance : Subsingleton S_.Idx := ⟨fun a b => funext fun d => d.elim0⟩

/-- One entry: an extended real whose absolute value is below +∞ is a real number. -/
theorem real_of_abs_lt_top (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  induction x using EReal.rec with
  | bot => exact absurd hlt.2 (by simp)
  | coe r => exact ⟨r, rfl⟩
  | top => exact absurd hlt.1 (by simp)

/-- A float array all of whose entries pass "|·| < +∞" (the all-reduce of the comparison is 1) holds only reals. -/
theorem real_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (h : Host.reduce IntOp.andi
        (cmpf .olt (Host.absf a) (broadcastInDim s ![] hb (constant (F := Ideal) S_ .f32 0x7F800000#32)))
        (constantI S_ 1 1#1) hr hu j = 1#1) :
    ∀ i, ∃ r : ℝ, a i = (r : EReal) := by
  intro i
  have hi := Host.reduce_andi_all _ _ hr hu j h i
  exact real_of_abs_lt_top (a i) hi

/-- A word array all of whose entries pass "· ≥ 0" signed holds only non-negative words. -/
theorem nonneg_of_all {s : Shape} {axes : List (Fin s.rank)} (a : IVec s 32)
    (hb : S_.BroadcastsInDim s (![] : Fin 0 → Fin s.rank)) (hr : s.ReducesTo axes S_) (hu : 0 < S_.numel)
    (j : S_.Idx)
    (h : Host.reduce IntOp.andi
        (cmpi .sge a (broadcastInDim s ![] hb (constantI S_ 32 0#32)))
        (constantI S_ 1 1#1) hr hu j = 1#1) :
    ∀ i, 0 ≤ (a i).toInt := by
  intro i
  have hi := Host.reduce_andi_all _ _ hr hu j h i
  have h2 : IntOp.cmpi .sge (a i) (0#32) = 1#1 := hi
  have h3 := IntOp.cmpi_sge.1 h2
  simpa using h3

/-- A word array all of whose entries pass "· < 50000" signed holds only words below 50000. -/
theorem lt_of_all {s : Shape} {axes : List (Fin s.rank)} (a : IVec s 32)
    (hb : S_.BroadcastsInDim s (![] : Fin 0 → Fin s.rank)) (hr : s.ReducesTo axes S_) (hu : 0 < S_.numel)
    (j : S_.Idx)
    (h : Host.reduce IntOp.andi
        (cmpi .slt a (broadcastInDim s ![] hb (constantI S_ 32 50000#32)))
        (constantI S_ 1 1#1) hr hu j = 1#1) :
    ∀ i, (a i).toInt < 50000 := by
  intro i
  have hi := Host.reduce_andi_all _ _ hr hu j h i
  have h2 : IntOp.cmpi .slt (a i) (50000#32) = 1#1 := hi
  have h3 := IntOp.cmpi_slt.1 h2
  have h4 : (50000#32 : BitVec 32).toInt = 50000 := by decide
  rw [h4] at h3
  exact h3

/-- The precondition, all ones, puts the fourteen arrays in the domain. -/
theorem dom_of_pre
    (a0 : FVec Ideal S50000x64 .f32) (a1 : FVec Ideal S800000x32 .f32) (a2 a3 : IVec S800000 32)
    (a4 : FVec Ideal S64x128 .f32) (a5 : FVec Ideal S128 .f32) (a6 : FVec Ideal S64x128 .f32) (a7 : FVec Ideal S128 .f32)
    (a8 : FVec Ideal S32x128 .f32) (a9 a10 a11 : FVec Ideal S128 .f32) (a12 a13 : FVec Ideal S64 .f32)
    (h : Cert.Pre_finite_inputs.fn (F := Ideal) a0 a1 a2 a3 a4 a5 a6 a7 a8 a9 a10 a11 a12 a13 = (fun _ => 1#1)) :
    Cert.Spec.Dom a0 a1 a2 a3 a4 a5 a6 a7 a8 a9 a10 a11 a12 a13 := by
  have h0 := congrFun h ValueIdx.ix0
  dsimp only [fn, fn_part1, fn_part2, fn_part3, fn_part4, Idealize.ShloMosaic.andi] at h0
  simp only [IntOp.andi_eq_one] at h0
  obtain ⟨⟨⟨⟨⟨⟨⟨⟨⟨⟨⟨⟨⟨⟨⟨h_x, h_ef⟩, h_Ws⟩, h_bs⟩, h_Wd⟩, h_bd⟩, h_We⟩, h_be⟩, h_gm⟩, h_bm⟩, h_gn⟩, h_bn⟩, h_s0⟩, h_s1⟩, h_d0⟩, h_d1⟩ := h0
  exact
    { x_real := real_of_all a0 _ _ _ _ h_x
      ef_real := real_of_all a1 _ _ _ _ h_ef
      Ws_real := real_of_all a4 _ _ _ _ h_Ws
      bs_real := real_of_all a5 _ _ _ _ h_bs
      Wd_real := real_of_all a6 _ _ _ _ h_Wd
      bd_real := real_of_all a7 _ _ _ _ h_bd
      We_real := real_of_all a8 _ _ _ _ h_We
      be_real := real_of_all a9 _ _ _ _ h_be
      gm_real := real_of_all a10 _ _ _ _ h_gm
      bm_real := real_of_all a11 _ _ _ _ h_bm
      gn_real := real_of_all a12 _ _ _ _ h_gn
      bn_real := real_of_all a13 _ _ _ _ h_bn
      src_range := fun i => ⟨nonneg_of_all a2 _ _ _ _ h_s0 i, lt_of_all a2 _ _ _ _ h_s1 i⟩
      dst_range := fun i => ⟨nonneg_of_all a3 _ _ _ _ h_d0 i, lt_of_all a3 _ _ _ _ h_d1 i⟩ }

end Cert.PreFacts

end
-- ==== Proof.SpecBridge.lean ====
/-
  The two programs' results are one function of the edge variance, and in the domain the two variances are one:
  so the results are equal. (Everything downstream of the variance (the messages, the received sums, the node
  statistics, the last softplus) is the same function on both sides, so it is never opened here.)
-/
import proofs.«410141_j3496103379076_1_alg».proof.Proof.Spec
import proofs.«410141_j3496103379076_1_alg».proof.Proof.SpecNode
import proofs.«410141_j3496103379076_1_alg».proof.Proof.VarIdentity

noncomputable section

namespace Cert.Spec

open Idealize.ShloMosaic Idealize.ShloMosaic.ValueIdx

variable {x : SN64.Idx → EReal} {ef : SE32.Idx → EReal} {src dst : SE.Idx → BitVec 32}
  {Ws : S64x128.Idx → EReal} {bs : S128.Idx → EReal} {Wd : S64x128.Idx → EReal} {bd : S128.Idx → EReal}
  {We : S32x128.Idx → EReal} {be gm bm : S128.Idx → EReal} {gn bn : S64.Idx → EReal}

/-- The result computed with the mean of squares minus the squared mean is the result computed with the mean of
    squared deviations. -/
theorem out_bridge (D : Dom x ef src dst Ws bs Wd bd We be gm bm gn bn) :
    outOf x (received (msgArr x ef src dst Ws bs Wd bd We be gm bm (varSq x ef src dst Ws bs Wd bd We be)) dst) gn bn
      = outOf x (received (msgArr x ef src dst Ws bs Wd bd We be gm bm (varDev x ef src dst Ws bs Wd bd We be)) dst) gn bn := by
  have hv : varSq x ef src dst Ws bs Wd bd We be = varDev x ef src dst Ws bs Wd bd We be :=
    funext fun j => varSq_eq_varDev D j
  rw [hv]

end Cert.Spec

end
-- ==== Proof.lean ====
/-
  The claim: the kernel program and its reference compute the same array over the extended reals, on every input whose
  float entries are real numbers and whose source and destination words index the 50000 nodes.

  Both programs project the node features through two weights, gather a row per edge endpoint, add the edge's own
  linear term, normalise each of the 128 columns over the 800000 edges, multiply sigmoid of the first 64 columns by
  softplus of the last 64, add each edge's row into its destination node, normalise the 64 columns over the 50000 nodes,
  add the node features and apply softplus. The kernel program does the matrix products and the elementwise chains in
  four grid launches over blocks of 5000 rows; at the extended reals each launch's output is one whole-array function of
  its inputs (Region0 … Region3), a narrowing of the float format being the identity and a product into a zero
  accumulator a plain sum. Its gathers keep a read row only where the word passed a range test; in the domain it always
  does (KGather), and then they read the same rows as the reference's (RPre). The one real difference is the edge
  variance: the kernel program takes the mean of squares minus the squared mean (its second launch accumulates the two
  column sums block by block), the reference the mean of squared deviations; on real numbers these agree
  (VarIdentity), and everything downstream is the same function of the variance (SpecBridge). The kernel program's run
  is its generated launch with the result named (LaunchNamed); the reference's run is its 164 host operations read back
  as one fold (RefRun), cut into five stretches (RefCut) that are read one at a time (RPre … ROut).
  The frames of the two kernel programs are the generated ones; the reference's is its run with the result dropped; the
  idealization rewrote nothing, so its statement is trivial.
-/
import proofs.«410141_j3496103379076_1_alg».proof.Defs
import proofs.«410141_j3496103379076_1_alg».proof.Proof.Gen.Kernel
import proofs.«410141_j3496103379076_1_alg».proof.Proof.Gen.Kernel.Frame
import proofs.«410141_j3496103379076_1_alg».proof.Proof.Gen.KernelIdeal
import proofs.«410141_j3496103379076_1_alg».proof.Proof.Gen.KernelIdeal.Frame
import proofs.«410141_j3496103379076_1_alg».proof.Proof.Gen.ReferenceIdeal
import proofs.«410141_j3496103379076_1_alg».proof.Proof.Gen.Pre_finite_inputs
import proofs.«410141_j3496103379076_1_alg».proof.Proof.LaunchNamed
import proofs.«410141_j3496103379076_1_alg».proof.Proof.KOut
import proofs.«410141_j3496103379076_1_alg».proof.Proof.ROut
import proofs.«410141_j3496103379076_1_alg».proof.Proof.RefArgs
import proofs.«410141_j3496103379076_1_alg».proof.Proof.PreFacts
import proofs.«410141_j3496103379076_1_alg».proof.Proof.SpecBridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.HandRun.run_post (F := Ideal) m ρ)

theorem preserves : Cert.preserves_Kernel_KernelIdeal := trivial

/-- The precondition puts the kernel program's argument arrays, on every device, in the domain. -/
theorem dom_kernel (m : (ℓ : Loc Cert.KernelIdeal.nD Cert.KernelIdeal.τ Cert.KernelIdeal.sig) → Buf (Elt Ideal) ℓ) (hpre : Cert.Pre_KernelIdeal m)
    (c : Dev Cert.KernelIdeal.nD) : Cert.KernelIdeal.KV.InDom m c :=
  Cert.PreFacts.dom_of_pre _ _ _ _ _ _ _ _ _ _ _ _ _ _ (hpre c)

/-- Both programs end at the specification's result: the kernel program by its launches and host stretches, the
    reference by its five stretches, and the two forms of the result agree in the domain. -/
theorem algebraic : Cert.algebraic_KernelIdeal_ReferenceIdeal := by
  intro m ρ m' ρ' hpre hagree
  refine ⟨fun c => Cert.Spec.outOf (Cert.KernelIdeal.KV.x m c) (Cert.KernelIdeal.KNodeStats.h m c)
      (Cert.KernelIdeal.KV.gn m c) (Cert.KernelIdeal.KV.bn m c), ?_, ?_⟩
  · exact (θ_run Cert.KernelIdeal.defs _ _).mono
      (fun r h c => ⟨(h c).1.trans (Cert.KernelIdeal.KOut.out_arr m ρ c (dom_kernel m hpre c)), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.HandRun.run_post (F := Ideal) m' ρ')
    -- the reference's launch contents hold the kernel program's argument arrays
    let V := StableHlo.launchContents m' c
    have h_x : Cert.ReferenceIdeal.RV.x V = Cert.KernelIdeal.KV.x m c := (hagree c).1
    have h_ef : Cert.ReferenceIdeal.RV.ef V = Cert.KernelIdeal.KV.ef m c := (hagree c).2.1
    have h_src : Cert.ReferenceIdeal.RV.src V = Cert.KernelIdeal.KV.src m c := (hagree c).2.2.1
    have h_dst : Cert.ReferenceIdeal.RV.dst V = Cert.KernelIdeal.KV.dst m c := (hagree c).2.2.2.1
    have h_Ws : Cert.ReferenceIdeal.RV.Ws V = Cert.KernelIdeal.KV.Ws m c := (hagree c).2.2.2.2.1
    have h_bs : Cert.ReferenceIdeal.RV.bs V = Cert.KernelIdeal.KV.bs m c := (hagree c).2.2.2.2.2.1
    have h_Wd : Cert.ReferenceIdeal.RV.Wd V = Cert.KernelIdeal.KV.Wd m c := (hagree c).2.2.2.2.2.2.1
    have h_bd : Cert.ReferenceIdeal.RV.bd V = Cert.KernelIdeal.KV.bd m c := (hagree c).2.2.2.2.2.2.2.1
    have h_We : Cert.ReferenceIdeal.RV.We V = Cert.KernelIdeal.KV.We m c := (hagree c).2.2.2.2.2.2.2.2.1
    have h_be : Cert.ReferenceIdeal.RV.be V = Cert.KernelIdeal.KV.be m c := (hagree c).2.2.2.2.2.2.2.2.2.1
    have h_gm : Cert.ReferenceIdeal.RV.gm V = Cert.KernelIdeal.KV.gm m c := (hagree c).2.2.2.2.2.2.2.2.2.2.1
    have h_bm : Cert.ReferenceIdeal.RV.bm V = Cert.KernelIdeal.KV.bm m c := (hagree c).2.2.2.2.2.2.2.2.2.2.2.1
    have h_gn : Cert.ReferenceIdeal.RV.gn V = Cert.KernelIdeal.KV.gn m c := (hagree c).2.2.2.2.2.2.2.2.2.2.2.2.1
    have h_bn : Cert.ReferenceIdeal.RV.bn V = Cert.KernelIdeal.KV.bn m c := (hagree c).2.2.2.2.2.2.2.2.2.2.2.2.2
    have D' : Cert.ReferenceIdeal.RV.InDom V := by
      show Cert.Spec.Dom (Cert.ReferenceIdeal.RV.x V) (Cert.ReferenceIdeal.RV.ef V) (Cert.ReferenceIdeal.RV.src V) (Cert.ReferenceIdeal.RV.dst V) (Cert.ReferenceIdeal.RV.Ws V) (Cert.ReferenceIdeal.RV.bs V) (Cert.ReferenceIdeal.RV.Wd V) (Cert.ReferenceIdeal.RV.bd V) (Cert.ReferenceIdeal.RV.We V) (Cert.ReferenceIdeal.RV.be V) (Cert.ReferenceIdeal.RV.gm V) (Cert.ReferenceIdeal.RV.bm V) (Cert.ReferenceIdeal.RV.gn V) (Cert.ReferenceIdeal.RV.bn V)
      rw [h_x, h_ef, h_src, h_dst, h_Ws, h_bs, h_Wd, h_bd, h_We, h_be, h_gm, h_bm, h_gn, h_bn]
      exact dom_kernel m hpre c
    refine (Cert.ReferenceIdeal.ROut.out_arr V D').trans ?_
    show Cert.Spec.outOf (Cert.ReferenceIdeal.RV.x V)
        (Cert.Spec.received (Cert.Spec.msgArr (Cert.ReferenceIdeal.RV.x V) (Cert.ReferenceIdeal.RV.ef V) (Cert.ReferenceIdeal.RV.src V) (Cert.ReferenceIdeal.RV.dst V) (Cert.ReferenceIdeal.RV.Ws V) (Cert.ReferenceIdeal.RV.bs V) (Cert.ReferenceIdeal.RV.Wd V) (Cert.ReferenceIdeal.RV.bd V) (Cert.ReferenceIdeal.RV.We V) (Cert.ReferenceIdeal.RV.be V) (Cert.ReferenceIdeal.RV.gm V) (Cert.ReferenceIdeal.RV.bm V) (Cert.Spec.varDev (Cert.ReferenceIdeal.RV.x V) (Cert.ReferenceIdeal.RV.ef V) (Cert.ReferenceIdeal.RV.src V) (Cert.ReferenceIdeal.RV.dst V) (Cert.ReferenceIdeal.RV.Ws V) (Cert.ReferenceIdeal.RV.bs V) (Cert.ReferenceIdeal.RV.Wd V) (Cert.ReferenceIdeal.RV.bd V) (Cert.ReferenceIdeal.RV.We V) (Cert.ReferenceIdeal.RV.be V))) (Cert.ReferenceIdeal.RV.dst V))
        (Cert.ReferenceIdeal.RV.gn V) (Cert.ReferenceIdeal.RV.bn V) = _
    rw [h_x, h_ef, h_src, h_dst, h_Ws, h_bs, h_Wd, h_bd, h_We, h_be, h_gm, h_bm, h_gn, h_bn]
    exact (Cert.Spec.out_bridge (dom_kernel m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
